-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S50000x3x16 : Shape := ⟨3, ![50000, 3, 16]⟩
abbrev S2x600000 : Shape := ⟨2, ![2, 600000]⟩
abbrev S128 : Shape := ⟨1, ![128]⟩
abbrev S128x128 : Shape := ⟨2, ![128, 128]⟩
abbrev S48x128 : Shape := ⟨2, ![48, 128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S50000x3x16 : S_.BroadcastsInDim S50000x3x16 (![] : Fin 0 → Fin S50000x3x16.rank)
  reducesTo_S50000x3x16_S_d0_1_2 : S50000x3x16.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S48x128 : S_.BroadcastsInDim S48x128 (![] : Fin 0 → Fin S48x128.rank)
  reducesTo_S48x128_S_d0_1 : S48x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x600000 : S_.BroadcastsInDim S2x600000 (![] : Fin 0 → Fin S2x600000.rank)
  reducesTo_S2x600000_S_d0_1 : S2x600000.ReducesTo [0, 1] S_

variable [Facts]

def fn_part5 {F : FTy → Type} [FloatOps F] (main_arg3 : IVec S2x600000 32) (main_arg19 : FVec F S16 .f32) (main_v83 : IVec S_ 1) (main_v84 : FVec F S128x16 .f32) (main_cst_32 : FVec F S_ .f32) : IVec S_ 1 :=
  let main_v85 : FVec F S128x16 .f32 := broadcastInDim S128x16 ![] bcast_S_S128x16 main_cst_32
  let main_v86 : IVec S128x16 1 := cmpf .olt main_v84 main_v85
  let main_c_33 : IVec S_ 1 := constantI S_ 1 1#1
  let main_v87 : IVec S_ 1 := (fun x v => Host.reduce IntOp.andi x v reducesTo_S128x16_S_d0_1 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_c_36 : IVec S_ 32 := constantI S_ 32 0#32
  let main_v94 : IVec S2x600000 32 := broadcastInDim S2x600000 ![] bcast_S_S2x600000 main_c_36
  let main_v95 : IVec S2x600000 1 := cmpi .sge main_arg3 main_v94
  let main_c_37 : IVec S_ 1 := constantI S_ 1 1#1
  let main_v96 : IVec S_ 1 := (fun x v => Host.reduce IntOp.andi x v reducesTo_S2x600000_S_d0_1 h_S_) main_v95 main_c_37
  let main_v97 : IVec S_ 1 := andi main_v93 main_v96
  let main_c_38 : IVec S_ 32 := constantI S_ 32 50000#32
  let main_v98 : IVec S2x600000 32 := broadcastInDim S2x600000 ![] bcast_S_S2x600000 main_c_38
  let main_v99 : IVec S2x600000 1 := cmpi .slt main_arg3 main_v98
  let main_c_39 : IVec S_ 1 := constantI S_ 1 1#1
  let main_v100 : IVec S_ 1 := (fun x v => Host.reduce IntOp.andi x v reducesTo_S2x600000_S_d0_1 h_S_) main_v99 main_c_39
  let main_v101 : IVec S_ 1 := andi main_v97 main_v100
  main_v101

def fn_part4 {F : FTy → Type} [FloatOps F] (main_arg3 : IVec S2x600000 32) (main_arg15 : FVec F S128 .f32) (main_arg16 : FVec F S128x1 .f32) (main_arg17 : FVec F S1 .f32) (main_arg18 : FVec F S128x16 .f32) (main_arg19 : FVec F S16 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S128x16 .f32 := Host.absf main_arg18
  let main_cst_32 : FVec F S_ .f32 := constant S_ .f32 0x7F800000#32
  fn_part5 (F := F) main_arg3 main_arg19 main_v83 main_v84 main_cst_32

def fn_part3 {F : FTy → Type} [FloatOps F] (main_arg3 : IVec S2x600000 32) (main_arg12 : FVec F S128x128 .f32) (main_arg13 : FVec F S128 .f32) (main_arg14 : FVec F S48x128 .f32) (main_arg15 : FVec F S128 .f32) (main_arg16 : FVec F S128x1 .f32) (main_arg17 : FVec F S1 .f32) (main_arg18 : FVec F S128x16 .f32) (main_arg19 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S48x128 .f32 := Host.absf main_arg14
  let main_cst_24 : FVec F S_ .f32 := constant S_ .f32 0x7F800000#32
  let main_v65 : FVec F S48x128 .f32 := broadcastInDim S48x128 ![] bcast_S_S48x128 main_cst_24
  let main_v66 : IVec S48x128 1 := cmpf .olt main_v64 main_v65
  let main_c_25 : IVec S_ 1 := constantI S_ 1 1#1
  let main_v67 : IVec S_ 1 := (fun x v => Host.reduce IntOp.andi x v reducesTo_S48x128_S_d0_1 h_S_) main_v66 main_c_25
  fn_part4 (F := F) main_arg3 main_arg15 main_arg16 main_arg17 main_arg18 main_arg19 main_v63 main_v67

def fn_part2 {F : FTy → Type} [FloatOps F] (main_arg3 : IVec S2x600000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S48x128 .f32) (main_arg15 : FVec F S128 .f32) (main_arg16 : FVec F S128x1 .f32) (main_arg17 : FVec F S1 .f32) (main_arg18 : FVec F S128x16 .f32) (main_arg19 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_arg12 main_arg13 main_arg14 main_arg15 main_arg16 main_arg17 main_arg18 main_arg19 main_v48 main_v49 main_v50

def fn_part1 {F : FTy → Type} [FloatOps F] (main_arg3 : IVec S2x600000 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S48x128 .f32) (main_arg15 : FVec F S128 .f32) (main_arg16 : FVec F S128x1 .f32) (main_arg17 : FVec F S1 .f32) (main_arg18 : FVec F S128x16 .f32) (main_arg19 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S600000x128 .f32) (main_arg2 : FVec F S50000x3x16 .f32) (main_arg3 : IVec S2x600000 32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S48x128 .f32) (main_arg15 : FVec F S128 .f32) (main_arg16 : FVec F S128x1 .f32) (main_arg17 : FVec F S1 .f32) (main_arg18 : FVec F S128x16 .f32) (main_arg19 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S50000x3x16 .f32 := Host.absf main_arg2
  let main_cst_2 : FVec F S_ .f32 := constant S_ .f32 0x7F800000#32
  let main_v10 : FVec F S50000x3x16 .f32 := broadcastInDim S50000x3x16 ![] bcast_S_S50000x3x16 main_cst_2
  let main_v11 : IVec S50000x3x16 1 := cmpf .olt main_v9 main_v10
  let main_c_3 : IVec S_ 1 := constantI S_ 1 1#1
  let main_v12 : IVec S_ 1 := (fun x v => Host.reduce IntOp.andi x v reducesTo_S50000x3x16_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S600000x128 : Shape := ⟨2, ![600000, 128]⟩
abbrev S50000x3x16 : Shape := ⟨3, ![50000, 3, 16]⟩
abbrev S2x600000 : Shape := ⟨2, ![2, 600000]⟩
abbrev S128 : Shape := ⟨1, ![128]⟩
abbrev S128x128 : Shape := ⟨2, ![128, 128]⟩
abbrev S48x128 : Shape := ⟨2, ![48, 128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S600000x3x16 : Shape := ⟨3, ![600000, 3, 16]⟩
abbrev S600000x48 : Shape := ⟨2, ![600000, 48]⟩
abbrev S4800x128 : Shape := ⟨2, ![4800, 128]⟩
abbrev S4800x48 : Shape := ⟨2, ![4800, 48]⟩
abbrev S4800 : Shape := ⟨1, ![4800]⟩
abbrev S4800x1 : Shape := ⟨2, ![4800, 1]⟩
abbrev S1x128 : Shape := ⟨2, ![1, 128]⟩
abbrev S4800x16 : Shape := ⟨2, ![4800, 16]⟩
abbrev S50000x48 : Shape := ⟨2, ![50000, 48]⟩
abbrev S5000x128 : Shape := ⟨2, ![5000, 128]⟩
abbrev S5000x48 : Shape := ⟨2, ![5000, 48]⟩
abbrev S5000x16 : Shape := ⟨2, ![5000, 16]⟩
abbrev S1x16 : Shape := ⟨2, ![1, 16]⟩

abbrev nBuf : Space → Nat
  | .hbm => 82
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S50000x3x16, .f32⟩
  | .hbm, ⟨3, _⟩ => ⟨S2x600000, .i32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S48x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S128x16, .f32⟩
  | .hbm, ⟨19, _⟩ => ⟨S16, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S1, .i32⟩
  | .hbm, ⟨33, _⟩ => ⟨S_, .i32⟩
  | .hbm, ⟨34, _⟩ => ⟨S600000x1, .i32⟩
  | .hbm, ⟨35, _⟩ => ⟨S600000x1, .i1⟩
  | .hbm, ⟨36, _⟩ => ⟨S1x1, .i32⟩
  | .hbm, ⟨37, _⟩ => ⟨S600000x1, .i32⟩
  | .hbm, ⟨38, _⟩ => ⟨S600000x1, .i1⟩
  | .hbm, ⟨39, _⟩ => ⟨S600000x1, .i1⟩
  | .hbm, ⟨40, _⟩ => ⟨S_, .i1⟩
  | .hbm, ⟨41, _⟩ => ⟨S600000, .i1⟩
  | .hbm, ⟨42, _⟩ => ⟨S600000x3x16, .f32⟩
  | .hbm, ⟨43, _⟩ => ⟨S600000x3x16, .i1⟩
  | .hbm, ⟨44, _⟩ => ⟨S_, .f32⟩
  | .hbm, ⟨45, _⟩ => ⟨S600000x3x16, .f32⟩
  | .hbm, ⟨46, _⟩ => ⟨S600000x3x16, .f32⟩
  | .hbm, ⟨47, _⟩ => ⟨S600000x48, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S1, .i32⟩
  | .hbm, ⟨57, _⟩ => ⟨S_, .i32⟩
  | .hbm, ⟨58, _⟩ => ⟨S600000x1, .i32⟩
  | .hbm, ⟨59, _⟩ => ⟨S600000x1, .i1⟩
  | .hbm, ⟨60, _⟩ => ⟨S1x1, .i32⟩
  | .hbm, ⟨61, _⟩ => ⟨S600000x1, .i32⟩
  | .hbm, ⟨62, _⟩ => ⟨S600000x1, .i1⟩
  | .hbm, ⟨63, _⟩ => ⟨S600000x1, .i1⟩
  | .hbm, ⟨64, _⟩ => ⟨S_, .i1⟩
  | .hbm, ⟨65, _⟩ => ⟨S600000, .i1⟩
  | .hbm, ⟨66, _⟩ => ⟨S600000x3x16, .f32⟩
  | .hbm, ⟨67, _⟩ => ⟨S600000x3x16, .i1⟩
  | .hbm, ⟨68, _⟩ => ⟨S_, .f32⟩
  | .hbm, ⟨69, _⟩ => ⟨S600000x3x16, .f32⟩
  | .hbm, ⟨70, _⟩ => ⟨S600000x3x16, .f32⟩
  | .hbm, ⟨71, _⟩ => ⟨S600000x48, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S50000x48, .f32⟩
  | .hbm, ⟨79, _⟩ => ⟨S50000x128, .f32⟩
  | .hbm, ⟨80, _⟩ => ⟨S50000x48, .f32⟩
  | .hbm, ⟨81, _⟩ => ⟨S50000x3x16, .f32⟩
  | .local _ .vmem, ⟨0, _⟩ => ⟨S4800x128, .f32⟩
  | .local _ .vmem, ⟨1, _⟩ => ⟨S4800x128, .f32⟩
  | .local _ .vmem, ⟨2, _⟩ => ⟨S4800x48, .f32⟩
  | .local _ .vmem, ⟨3, _⟩ => ⟨S4800x48, .f32⟩
  | .local _ .vmem, ⟨4, _⟩ => ⟨S4800x48, .f32⟩
  | .local _ .vmem, ⟨5, _⟩ => ⟨S4800x48, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S48x128, .f32⟩
  | .local _ .vmem, ⟨11, _⟩ => ⟨S128, .f32⟩
  | .local _ .vmem, ⟨12, _⟩ => ⟨S128x1, .f32⟩
  | .local _ .vmem, ⟨13, _⟩ => ⟨S1, .f32⟩
  | .local _ .vmem, ⟨14, _⟩ => ⟨S128, .f32⟩
  | .local _ .vmem, ⟨15, _⟩ => ⟨S128, .f32⟩
  | .local _ .vmem, ⟨16, _⟩ => ⟨S4800x128, .f32⟩
  | .local _ .vmem, ⟨17, _⟩ => ⟨S4800x128, .f32⟩
  | .local _ .vmem, ⟨18, _⟩ => ⟨S4800x128, .f32⟩
  | .local _ .vmem, ⟨19, _⟩ => ⟨S4800x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x48, .f32⟩
  | .local _ .vmem, ⟨25, _⟩ => ⟨S5000x48, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128x16, .f32⟩
  | .local _ .vmem, ⟨31, _⟩ => ⟨S16, .f32⟩
  | .local _ .vmem, ⟨32, _⟩ => ⟨S5000x128, .f32⟩
  | .local _ .vmem, ⟨33, _⟩ => ⟨S5000x128, .f32⟩
  | .local _ .vmem, ⟨34, _⟩ => ⟨S5000x48, .f32⟩
  | .local _ .vmem, ⟨35, _⟩ => ⟨S5000x48, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_v5 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v6 : Ref sig .tc := ⟨.hbm, 70, rfl⟩
abbrev main_v7 : Ref sig .tc := ⟨.hbm, 71, rfl⟩
abbrev main_v8_0 : Ref sig .tc := ⟨.hbm, 72, rfl⟩
abbrev main_v8_1 : Ref sig .tc := ⟨.hbm, 73, rfl⟩
abbrev main_cst : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13_0 : Ref sig .tc := ⟨.hbm, 79, rfl⟩
abbrev main_v13_1 : Ref sig .tc := ⟨.hbm, 80, rfl⟩
abbrev main_v14 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4800x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4800x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x48 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x3x16_0 : S600000.BroadcastsInDim S600000x3x16 (![0] : Fin 1 → Fin S600000x3x16.rank)
  bcast_S_S600000x3x16 : S_.BroadcastsInDim S600000x3x16 (![] : Fin 0 → Fin S600000x3x16.rank)
  shapeCasts_S600000x3x16_S600000x48 : S600000x3x16.ShapeCasts S600000x48
  inb_S4800x128_S4800x128_0_0 : ∀ a, (![0, 0] : Fin 2 → Nat) a + S4800x128.size a ≤ S4800x128.size a
  h_S4800x128 : 0 < S4800x128.numel
  reduces_S4800x128_S4800 : S4800x128.Reduces [1] S4800
  shapeCasts_S4800_S4800x1 : S4800.ShapeCasts S4800x1
  broadcasts_S4800x1_S4800x128 : S4800x1.Broadcasts S4800x128
  inb_S128_S128_0 : ∀ a, (![0] : Fin 1 → Nat) a + S128.size a ≤ S128.size a
  h_S128 : 0 < S128.numel
  shapeCasts_S128_S1x128 : S128.ShapeCasts S1x128
  broadcasts_S1x128_S4800x128 : S1x128.Broadcasts S4800x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4800x48_S4800x48_0_0 : ∀ a, (![0, 0] : Fin 2 → Nat) a + S4800x48.size a ≤ S4800x48.size a
  h_S4800x48 : 0 < S4800x48.numel
  shapeCasts_S4800x48_S4800x48 : S4800x48.ShapeCasts S4800x48
  slices_S4800x48_o0_0_S4800x16 : S4800x48.Slices ![0, 0] S4800x16
  slices_S4800x48_o0_16_S4800x16 : S4800x48.Slices ![0, 16] S4800x16
  slices_S4800x48_o0_32_S4800x16 : S4800x48.Slices ![0, 32] S4800x16
  concatenates_S4800x16_S4800x16_S4800x16_S4800x48_d1 : Shape.Concatenates [S4800x16, S4800x16, S4800x16] S4800x48 1
  inb_S48x128_S48x128_0_0 : ∀ a, (![0, 0] : Fin 2 → Nat) a + S48x128.size a ≤ S48x128.size a
  h_S48x128 : 0 < S48x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4800x1 : S1x1.Broadcasts S4800x1
  bcast_S_S50000x128 : S_.BroadcastsInDim S50000x128 (![] : Fin 0 → Fin S50000x128.rank)
  shapeCasts_S50000x3x16_S50000x48 : S50000x3x16.ShapeCasts S50000x48
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  concatenates_S5000x16_S5000x16_S5000x16_S5000x48_d1 : Shape.Concatenates [S5000x16, S5000x16, S5000x16] S5000x48 1
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  shapeCasts_S50000x48_S50000x3x16 : S50000x48.ShapeCasts S50000x3x16
  gather_S50000x3x16_S600000x1_S600000x3x16_12_0_n_n_0_1_1316_wf : GatherDims.WF S50000x3x16 S600000x1 S600000x3x16 [1, 2] [0] [] [0] [] 1 ![1, 3, 16]
  dot_S4800x128_S128x128_S4800x128_1_0_0_1_n_n_wf : DotDims.WF S4800x128 S128x128 S4800x128 [1] [0] [0] [1] [] []
  dot_S4800x48_S48x128_S4800x128_1_0_0_1_n_n_wf : DotDims.WF S4800x48 S48x128 S4800x128 [1] [0] [0] [1] [] []
  dot_S4800x128_S128x1_S4800x1_1_0_0_1_n_n_wf : DotDims.WF S4800x128 S128x1 S4800x1 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x128.size a ≤ S600000x128.size a
  hwx0_0 : ∀ i : grid0.Coords, EltTy.bits .f32 = 32 ∨ (Rect.block (s := S600000x128) S4800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x48.size a ≤ S600000x48.size a
  hwx0_1 : ∀ i : grid0.Coords, EltTy.bits .f32 = 32 ∨ (Rect.block (s := S600000x48) S4800x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x48.size a ≤ S600000x48.size a
  hwx0_2 : ∀ i : grid0.Coords, EltTy.bits .f32 = 32 ∨ (Rect.block (s := S600000x48) S4800x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48x128.size a ≤ S48x128.size a
  hwx0_7 : ∀ i : grid0.Coords, EltTy.bits .f32 = 32 ∨ (Rect.block (s := S48x128) S48x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4800x128.size a ≤ S600000x128.size a
  hwx0_13 : ∀ i : grid0.Coords, EltTy.bits .f32 = 32 ∨ (Rect.block (s := S600000x128) S4800x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4800x128.size a ≤ S600000x128.size a
  hwx0_14 : ∀ i : grid0.Coords, EltTy.bits .f32 = 32 ∨ (Rect.block (s := S600000x128) S4800x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x48.size a ≤ S50000x48.size a
  hwx1_2 : ∀ i : grid1.Coords, EltTy.bits .f32 = 32 ∨ (Rect.block (s := S50000x48) S5000x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x16.size a ≤ S128x16.size a
  hwx1_7 : ∀ i : grid1.Coords, EltTy.bits .f32 = 32 ∨ (Rect.block (s := S128x16) S128x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16.size a ≤ S16.size a
  hwx1_8 : ∀ i : grid1.Coords, EltTy.bits .f32 = 32 ∨ (Rect.block (s := S16) S16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x48.size a ≤ S50000x48.size a
  hwx1_10 : ∀ i : grid1.Coords, EltTy.bits .f32 = 32 ∨ (Rect.block (s := S50000x48) S5000x48.size (cc1_transform_10 i) (hinb1_10 i)).WholeWords (EltTy.packing .f32)

variable [Facts₀]

def gather_S50000x3x16_S600000x1_S600000x3x16_12_0_n_n_0_1_1316 : GatherDims S50000x3x16 S600000x1 S600000x3x16 where
  offsetDims := [1, 2]
  collapsedSliceDims := [0]
  operandBatchingDims := []
  startIndicesBatchingDims := []
  startIndexMap := [0]
  indexVectorDim := 1
  sliceSizes := ![1, 3, 16]
  wf := gather_S50000x3x16_S600000x1_S600000x3x16_12_0_n_n_0_1_1316_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def dot_S4800x48_S48x128_S4800x128_1_0_0_1_n_n : DotDims S4800x48 S48x128 S4800x128 where
  lhsContracting := [1]
  rhsContracting := [0]
  lhsNonContracting := [0]
  rhsNonContracting := [1]
  lhsBatch := []
  rhsBatch := []
  wf := dot_S4800x48_S48x128_S4800x128_1_0_0_1_n_n_wf
def dot_S4800x128_S128x1_S4800x1_1_0_0_1_n_n : DotDims S4800x128 S128x1 S4800x1 where
  lhsContracting := [1]
  rhsContracting := [0]
  lhsNonContracting := [0]
  rhsNonContracting := [1]
  lhsBatch := []
  rhsBatch := []
  wf := dot_S4800x128_S128x1_S4800x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg1) S4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4800x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4800x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S48x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg16) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8_0) S4800x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v8_1) S4800x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x48.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S128x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13_0) S5000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v13_1) S5000x48.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S50000x3x16 : Shape := ⟨3, ![50000, 3, 16]⟩
abbrev S2x600000 : Shape := ⟨2, ![2, 600000]⟩
abbrev S128 : Shape := ⟨1, ![128]⟩
abbrev S128x128 : Shape := ⟨2, ![128, 128]⟩
abbrev S48x128 : Shape := ⟨2, ![48, 128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S_ : Shape := ⟨0, ![]⟩
abbrev S600000 : Shape := ⟨1, ![600000]⟩
abbrev S600000x1 : Shape := ⟨2, ![600000, 1]⟩
abbrev S1x128 : Shape := ⟨2, ![1, 128]⟩
abbrev S1x600000 : Shape := ⟨2, ![1, 600000]⟩
abbrev S50000x16 : Shape := ⟨2, ![50000, 16]⟩
abbrev S600000x16 : Shape := ⟨2, ![600000, 16]⟩
abbrev S600000x3x16 : Shape := ⟨3, ![600000, 3, 16]⟩
abbrev S600000x48 : Shape := ⟨2, ![600000, 48]⟩
abbrev S1x1 : Shape := ⟨2, ![1, 1]⟩
abbrev S1x16 : Shape := ⟨2, ![1, 16]⟩
abbrev S50000x1x16 : Shape := ⟨3, ![50000, 1, 16]⟩

abbrev nBuf : Space → Nat
  | .hbm => 181
  | .vmem => 0
  | .smem => 0
  | _ => 0

abbrev hbmTy0_0 (i : Nat) : BufTy := match i % 128 with
  | 0 => ⟨S50000x128, .f32⟩
  | 1 => ⟨S600000x128, .f32⟩
  | 2 => ⟨S50000x3x16, .f32⟩
  | 3 => ⟨S2x600000, .i32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S48x128, .f32⟩
  | 15 => ⟨S128, .f32⟩
  | 16 => ⟨S128x1, .f32⟩
  | 17 => ⟨S1, .f32⟩
  | 18 => ⟨S128x16, .f32⟩
  | 19 => ⟨S16, .f32⟩
  | 20 => ⟨S_, .f32⟩
  | 21 => ⟨S600000, .f32⟩
  | 22 => ⟨S600000x1, .f32⟩
  | 23 => ⟨S_, .f32⟩
  | 24 => ⟨S600000x1, .f32⟩
  | 25 => ⟨S600000x1, .f32⟩
  | 26 => ⟨S_, .i32⟩
  | 27 => ⟨S_, .f32⟩
  | 28 => ⟨S600000, .f32⟩
  | 29 => ⟨S600000x1, .f32⟩
  | 30 => ⟨S_, .f32⟩
  | 31 => ⟨S600000x1, .f32⟩
  | 32 => ⟨S600000x1, .f32⟩
  | 33 => ⟨S600000x128, .f32⟩
  | 34 => ⟨S600000x128, .f32⟩
  | 35 => ⟨S600000x128, .f32⟩
  | 36 => ⟨S_, .f32⟩
  | 37 => ⟨S_, .f32⟩
  | 38 => ⟨S_, .f32⟩
  | 39 => ⟨S_, .f32⟩
  | 40 => ⟨S600000, .f32⟩
  | 41 => ⟨S600000x1, .f32⟩
  | 42 => ⟨S600000x1, .f32⟩
  | 43 => ⟨S600000x1, .f32⟩
  | 44 => ⟨S_, .f32⟩
  | 45 => ⟨S_, .i1⟩
  | 46 => ⟨S_, .f32⟩
  | 47 => ⟨S_, .f32⟩
  | 48 => ⟨S600000x1, .f32⟩
  | 49 => ⟨S600000x1, .f32⟩
  | 50 => ⟨S600000x128, .f32⟩
  | 51 => ⟨S600000x128, .f32⟩
  | 52 => ⟨S_, .f32⟩
  | 53 => ⟨S600000x1, .f32⟩
  | 54 => ⟨S600000x1, .f32⟩
  | 55 => ⟨S600000x1, .f32⟩
  | 56 => ⟨S600000x128, .f32⟩
  | 57 => ⟨S600000x128, .f32⟩
  | 58 => ⟨S1x128, .f32⟩
  | 59 => ⟨S600000x128, .f32⟩
  | 60 => ⟨S600000x128, .f32⟩
  | 61 => ⟨S1x128, .f32⟩
  | 62 => ⟨S600000x128, .f32⟩
  | 63 => ⟨S600000x128, .f32⟩
  | 64 => ⟨S600000x128, .f32⟩
  | 65 => ⟨S1x128, .f32⟩
  | 66 => ⟨S600000x128, .f32⟩
  | 67 => ⟨S600000x128, .f32⟩
  | 68 => ⟨S_, .f32⟩
  | 69 => ⟨S600000x128, .f32⟩
  | 70 => ⟨S600000x128, .f32⟩
  | 71 => ⟨S600000x128, .f32⟩
  | 72 => ⟨S600000x128, .f32⟩
  | 73 => ⟨S1x128, .f32⟩
  | 74 => ⟨S600000x128, .f32⟩
  | 75 => ⟨S600000x128, .f32⟩
  | 76 => ⟨S1x600000, .i32⟩
  | 77 => ⟨S600000, .i32⟩
  | 78 => ⟨S1x600000, .i32⟩
  | 79 => ⟨S600000, .i32⟩
  | 80 => ⟨S50000x3x16, .f32⟩
  | 81 => ⟨S_, .f32⟩
  | 82 => ⟨S50000x16, .f32⟩
  | 83 => ⟨S50000x16, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x16, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000x16, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000x3x16, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x3x16, .f32⟩
  | 120 => ⟨S600000x3x16, .f32⟩
  | 121 => ⟨S_, .f32⟩
  | 122 => ⟨S600000x16, .f32⟩
  | 123 => ⟨S600000x16, .f32⟩
  | 124 => ⟨S_, .f32⟩
  | 125 => ⟨S600000x16, .f32⟩
  | 126 => ⟨S600000x16, .f32⟩
  | 127 => ⟨S600000x16, .f32⟩
  | _ => ⟨S50000x128, .f32⟩

abbrev hbmTy0_1 (i : Nat) : BufTy := match i % 128 with
  | 0 => ⟨S600000x48, .f32⟩
  | 1 => ⟨S600000x128, .f32⟩
  | 2 => ⟨S1x128, .f32⟩
  | 3 => ⟨S600000x128, .f32⟩
  | 4 => ⟨S600000x128, .f32⟩
  | 5 => ⟨S_, .f32⟩
  | 6 => ⟨S600000x128, .f32⟩
  | 7 => ⟨S600000x128, .f32⟩
  | 8 => ⟨S600000x1, .f32⟩
  | 9 => ⟨S1x1, .f32⟩
  | 10 => ⟨S600000x1, .f32⟩
  | 11 => ⟨S600000x1, .f32⟩
  | 12 => ⟨S600000x1, .f32⟩
  | 13 => ⟨S600000x1, .f32⟩
  | 14 => ⟨S_, .f32⟩
  | 15 => ⟨S600000x1, .f32⟩
  | 16 => ⟨S600000x1, .f32⟩
  | 17 => ⟨S_, .f32⟩
  | 18 => ⟨S600000x1, .f32⟩
  | 19 => ⟨S600000x1, .f32⟩
  | 20 => ⟨S600000x128, .f32⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x16, .f32⟩
  | 39 => ⟨S1x16, .f32⟩
  | 40 => ⟨S50000x16, .f32⟩
  | 41 => ⟨S50000x16, .f32⟩
  | 42 => ⟨S50000x16, .f32⟩
  | 43 => ⟨S50000x16, .f32⟩
  | 44 => ⟨S_, .f32⟩
  | 45 => ⟨S50000x16, .f32⟩
  | 46 => ⟨S50000x16, .f32⟩
  | 47 => ⟨S_, .f32⟩
  | 48 => ⟨S50000x16, .f32⟩
  | 49 => ⟨S50000x16, .f32⟩
  | 50 => ⟨S50000x1x16, .f32⟩
  | 51 => ⟨S50000x3x16, .f32⟩
  | 52 => ⟨S50000x3x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst_1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_call1_cst : Ref sig .tc := ⟨.hbm, 68, rfl⟩
abbrev main_call1_v0 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_v32 : Ref sig .tc := ⟨.hbm, 83, rfl⟩
abbrev main_c_2 : Ref sig .tc := ⟨.hbm, 84, rfl⟩
abbrev main_v33 : Ref sig .tc := ⟨.hbm, 85, rfl⟩
abbrev main_v34 : Ref sig .tc := ⟨.hbm, 86, rfl⟩
abbrev main_c_3 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_c_4 : Ref sig .tc := ⟨.hbm, 93, rfl⟩
abbrev main_v40 : Ref sig .tc := ⟨.hbm, 94, rfl⟩
abbrev main_v41 : Ref sig .tc := ⟨.hbm, 95, rfl⟩
abbrev main_c_5 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_c_6 : Ref sig .tc := ⟨.hbm, 102, rfl⟩
abbrev main_v47 : Ref sig .tc := ⟨.hbm, 103, rfl⟩
abbrev main_v48 : Ref sig .tc := ⟨.hbm, 104, rfl⟩
abbrev main_c_7 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_c_8 : Ref sig .tc := ⟨.hbm, 111, rfl⟩
abbrev main_v54 : Ref sig .tc := ⟨.hbm, 112, rfl⟩
abbrev main_v55 : Ref sig .tc := ⟨.hbm, 113, rfl⟩
abbrev main_c_9 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_10 : Ref sig .tc := ⟨.hbm, 121, rfl⟩
abbrev main_v62 : Ref sig .tc := ⟨.hbm, 122, rfl⟩
abbrev main_v63 : Ref sig .tc := ⟨.hbm, 123, rfl⟩
abbrev main_cst_11 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_call3_cst : Ref sig .tc := ⟨.hbm, 133, rfl⟩
abbrev main_call3_v0 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_12 : Ref sig .tc := ⟨.hbm, 142, rfl⟩
abbrev main_v79 : Ref sig .tc := ⟨.hbm, 143, rfl⟩
abbrev main_v80 : Ref sig .tc := ⟨.hbm, 144, rfl⟩
abbrev main_cst_13 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_cst_14 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_call4_cst : Ref sig .tc := ⟨.hbm, 158, rfl⟩
abbrev main_call4_v0 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_15 : Ref sig .tc := ⟨.hbm, 172, rfl⟩
abbrev main_v104 : Ref sig .tc := ⟨.hbm, 173, rfl⟩
abbrev main_v105 : Ref sig .tc := ⟨.hbm, 174, rfl⟩
abbrev main_cst_16 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩

abbrev nD : Nat := 1
abbrev τ : Topo := Topo.v7x

variable {F : FTy → Type} [FloatOps F]

class Facts₀ : Prop where
  reducesTo_S600000x128_S600000_d1 : S600000x128.ReducesTo [1] S600000
  h_S_ : 0 < S_.numel
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  reducesTo_S50000x3x16_S50000x16_d1 : S50000x3x16.ReducesTo [1] S50000x16
  bcast_S_S600000 : S_.BroadcastsInDim S600000 (![] : Fin 0 → Fin S600000.rank)
  reducesTo_S600000x3x16_S600000x16_d1 : S600000x3x16.ReducesTo [1] S600000x16
  bcast_S_S600000x16 : S_.BroadcastsInDim S600000x16 (![] : Fin 0 → Fin S600000x16.rank)
  concatenates_S600000x16_S600000x16_S600000x16_S600000x48_d1 : Shape.Concatenates [S600000x16, S600000x16, S600000x16] S600000x48 1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x16_S50000x1x16_0_2 : S50000x16.BroadcastsInDim S50000x1x16 (![0, 2] : Fin 2 → Fin S50000x1x16.rank)
  bcast_S50000x1x16_S50000x3x16_0_1_2 : S50000x1x16.BroadcastsInDim S50000x3x16 (![0, 1, 2] : Fin 3 → Fin S50000x3x16.rank)
  dot_S600000x128_S128x128_S600000x128_1_0_0_1_n_n_wf : DotDims.WF S600000x128 S128x128 S600000x128 [1] [0] [0] [1] [] []
  gather_S50000x16_S600000x1_S600000x16_1_0_n_n_0_1_116_wf : GatherDims.WF S50000x16 S600000x1 S600000x16 [1] [0] [] [0] [] 1 ![1, 16]
  gather_S50000x3x16_S600000x1_S600000x3x16_12_0_n_n_0_1_1316_wf : GatherDims.WF S50000x3x16 S600000x1 S600000x3x16 [1, 2] [0] [] [0] [] 1 ![1, 3, 16]
  dot_S600000x48_S48x128_S600000x128_1_0_0_1_n_n_wf : DotDims.WF S600000x48 S48x128 S600000x128 [1] [0] [0] [1] [] []
  dot_S600000x128_S128x1_S600000x1_1_0_0_1_n_n_wf : DotDims.WF S600000x128 S128x1 S600000x1 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x16_S600000x1_S600000x16_1_0_n_n_0_1_116 : GatherDims S50000x16 S600000x1 S600000x16 where
  offsetDims := [1]
  collapsedSliceDims := [0]
  operandBatchingDims := []
  startIndicesBatchingDims := []
  startIndexMap := [0]
  indexVectorDim := 1
  sliceSizes := ![1, 16]
  wf := gather_S50000x16_S600000x1_S600000x16_1_0_n_n_0_1_116_wf
def gather_S50000x3x16_S600000x1_S600000x3x16_12_0_n_n_0_1_1316 : GatherDims S50000x3x16 S600000x1 S600000x3x16 where
  offsetDims := [1, 2]
  collapsedSliceDims := [0]
  operandBatchingDims := []
  startIndicesBatchingDims := []
  startIndexMap := [0]
  indexVectorDim := 1
  sliceSizes := ![1, 3, 16]
  wf := gather_S50000x3x16_S600000x1_S600000x3x16_12_0_n_n_0_1_1316_wf
def dot_S600000x48_S48x128_S600000x128_1_0_0_1_n_n : DotDims S600000x48 S48x128 S600000x128 where
  lhsContracting := [1]
  rhsContracting := [0]
  lhsNonContracting := [0]
  rhsNonContracting := [1]
  lhsBatch := []
  rhsBatch := []
  wf := dot_S600000x48_S48x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Spec.lean ====
/-
  The mathematics both programs compute, written once over the extended reals, row by row.

  An EDGE e carries a feature row r = M[e, :] (128 numbers) and the two gathered vector features
  vr = V[row e], vc = V[col e] (each 3 x 16).  A NODE n carries x[n, :], the scattered sum mi[n, :] and V[n].

  * layer norm of a row: mu = (sum r) / 128, d = r - mu, var = (sum d*d) / 128,
    ln r j = d j * rsqrt (var + eps) * g j + b j;
  * a residual two-layer perceptron on a row:
    res base u j = (base j + sum_k relu ((sum_l u l * w1 l k) + b1 k) * w2 k j) + b2 j;
    M2[e, :] = res (ln r) (ln r) and x2[n, :] = res x[n, :] mi[n, :];
  * the edge invariants, for each of the 16 wavelets w: ns w = sqrt (sum_a vr a w ^ 2), nd w likewise of vc,
    cos w = (sum_a vr a w * vc a w) / (ns w * nd w + eps'), laid side by side as a row of 48;
  * the edge weight alpha = logistic ((sum_k relu (lin ei) k * iw2 k) + ib2), and weighted = M2 * alpha;
  * the node gates gate w = logistic ((sum_j x2 j * gw j w) + gb w), and V2[n, a, w] = V[n, a, w] * gate w.

  Sums are finite sums in the extended reals; the three constants are the words both programs carry.
-/
import Idealize.ShloMosaic.PureOps.Ideal
import Idealize.ShloMosaic.Lib.ValueIdx

noncomputable section

namespace Cert.Spec

open Idealize.ShloMosaic Idealize.ShloMosaic.ValueIdx
open scoped BigOperators

/-- The divisor 128 and the two small constants, as the words both programs carry. -/
def c128 : EReal := Ideal.ofBits .f32 0x43000000#32
def epsLN : EReal := Ideal.ofBits .f32 0x3727C5AC#32
def epsCos : EReal := Ideal.ofBits .f32 0x322BCC77#32

/-- The mean of a row of 128. -/
def mean128 (r : Fin 128 → EReal) : EReal := Ideal.div (∑ k, r k) c128

/-- Layer norm of a row, scaled by g and shifted by b. -/
def lnRow (g b r : Fin 128 → EReal) (j : Fin 128) : EReal :=
  (r j - mean128 r) * Ideal.rsqrt (mean128 (fun k => (r k - mean128 r) * (r k - mean128 r)) + epsLN) * g j + b j

/-- A linear layer on a row: (sum_k u k * w k j) + bias j. -/
def lin {K N : Nat} (w : Fin K → Fin N → EReal) (bias : Fin N → EReal) (u : Fin K → EReal) (j : Fin N) : EReal :=
  (∑ k, u k * w k j) + bias j

def relu (x : EReal) : EReal := max x 0

/-- The residual two-layer perceptron: (base j + sum_k relu (lin w1 b1 u k) * w2 k j) + b2 j. -/
def resMlp (w1 : Fin 128 → Fin 128 → EReal) (b1 : Fin 128 → EReal) (w2 : Fin 128 → Fin 128 → EReal)
    (b2 : Fin 128 → EReal) (base u : Fin 128 → EReal) (j : Fin 128) : EReal :=
  (base j + ∑ k, relu (lin w1 b1 u k) * w2 k j) + b2 j

/-- The updated edge row. -/
def m2Row (g b : Fin 128 → EReal) (w1 : Fin 128 → Fin 128 → EReal) (b1 : Fin 128 → EReal)
    (w2 : Fin 128 → Fin 128 → EReal) (b2 : Fin 128 → EReal) (r : Fin 128 → EReal) (j : Fin 128) : EReal :=
  resMlp w1 b1 w2 b2 (lnRow g b r) (lnRow g b r) j

/-- The Euclidean norm of three numbers. -/
def norm3 (v : Fin 3 → EReal) : EReal := Ideal.sqrt (∑ a, v a * v a)

/-- The cosine of two triples, with the small constant in the denominator. -/
def cos3 (u v : Fin 3 → EReal) : EReal := Ideal.div (∑ a, u a * v a) (norm3 u * norm3 v + epsCos)

/-- The row of 48 edge invariants: sixteen source norms, sixteen target norms, sixteen cosines. -/
def eiRow (vr vc : Fin 3 → Fin 16 → EReal) (q : Fin 48) : EReal :=
  if h : q.val < 16 then norm3 (fun a => vr a ⟨q.val, h⟩)
  else if h2 : q.val < 32 then norm3 (fun a => vc a ⟨q.val - 16, by omega⟩)
  else cos3 (fun a => vr a ⟨q.val - 32, by omega⟩) (fun a => vc a ⟨q.val - 32, by omega⟩)

/-- The edge weight. -/
def alphaRow (iw1 : Fin 48 → Fin 128 → EReal) (ib1 : Fin 128 → EReal) (iw2 : Fin 128 → EReal) (ib2 : EReal)
    (vr vc : Fin 3 → Fin 16 → EReal) : EReal :=
  Ideal.logistic ((∑ k, relu (lin iw1 ib1 (eiRow vr vc) k) * iw2 k) + ib2)

/-- The node gates. -/
def gateRow (gw : Fin 128 → Fin 16 → EReal) (gb : Fin 16 → EReal) (x2 : Fin 128 → EReal) (w : Fin 16) : EReal :=
  Ideal.logistic (lin gw gb x2 w)

/-! ## Arrays as functions of their indices -/

def rowOf {n m : Nat} (A : (⟨2, ![n, m]⟩ : Shape).Idx → EReal) (e : Fin n) : Fin m → EReal := fun k => A (ix2 e k)
def matOf {n m : Nat} (A : (⟨2, ![n, m]⟩ : Shape).Idx → EReal) : Fin n → Fin m → EReal := fun a b => A (ix2 a b)
def vecOf {n : Nat} (v : (⟨1, ![n]⟩ : Shape).Idx → EReal) : Fin n → EReal := fun k => v (ix1 k)
def colOf {n : Nat} (A : (⟨2, ![n, 1]⟩ : Shape).Idx → EReal) : Fin n → EReal := fun k => A (ix2 k (0 : Fin 1))
def slabOf {n : Nat} (A : (⟨3, ![n, 3, 16]⟩ : Shape).Idx → EReal) (e : Fin n) : Fin 3 → Fin 16 → EReal :=
  fun a w => A (ix3 e a w)
/-- A row of 48 read as three rows of 16, row-major. -/
def slabOfFlat {n : Nat} (A : (⟨2, ![n, 48]⟩ : Shape).Idx → EReal) (e : Fin n) : Fin 3 → Fin 16 → EReal :=
  fun a w => A (ix2 e ⟨16 * a.val + w.val, by omega⟩)

/-- The updated edge features M2 : [600000, 128]. -/
def M2 (M : (⟨2, ![600000, 128]⟩ : Shape).Idx → EReal) (g b : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![600000, 128]⟩ : Shape).Idx → EReal :=
  fun i => m2Row (vecOf g) (vecOf b) (matOf w1) (vecOf b1) (matOf w2) (vecOf b2) (rowOf M (i 0)) (i 1)

/-- The edge weights as a function of the edge, from the two gathered vector features edge by edge. -/
def alpha (vr vc : Fin 600000 → Fin 3 → Fin 16 → EReal)
    (iw1 : (⟨2, ![48, 128]⟩ : Shape).Idx → EReal) (ib1 : (⟨1, ![128]⟩ : Shape).Idx → EReal)
    (iw2 : (⟨2, ![128, 1]⟩ : Shape).Idx → EReal) (ib2 : (⟨1, ![1]⟩ : Shape).Idx → EReal) (e : Fin 600000) : EReal :=
  alphaRow (matOf iw1) (vecOf ib1) (colOf iw2) (ib2 (ix1 (0 : Fin 1))) (vr e) (vc e)

/-- The weighted messages M2 * alpha : [600000, 128]. -/
def Wt (M : (⟨2, ![600000, 128]⟩ : Shape).Idx → EReal) (g b : (⟨1, ![128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (vr vc : Fin 600000 → Fin 3 → Fin 16 → EReal)
    (iw1 : (⟨2, ![48, 128]⟩ : Shape).Idx → EReal) (ib1 : (⟨1, ![128]⟩ : Shape).Idx → EReal)
    (iw2 : (⟨2, ![128, 1]⟩ : Shape).Idx → EReal) (ib2 : (⟨1, ![1]⟩ : Shape).Idx → EReal) :
    (⟨2, ![600000, 128]⟩ : Shape).Idx → EReal :=
  fun i => M2 M g b w1 b1 w2 b2 i * alpha vr vc iw1 ib1 iw2 ib2 (i 0)

/-- The updated node row, from the node's own row and its scattered sum. -/
def x2RowOf (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal)
    (n : Fin 50000) : Fin 128 → EReal :=
  resMlp (matOf nw1) (vecOf nb1) (matOf nw2) (vecOf nb2) (rowOf x n) (rowOf mi n)

/-- The updated node features x2 : [50000, 128]. -/
def X2 (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal) :
    (⟨2, ![50000, 128]⟩ : Shape).Idx → EReal :=
  fun i => x2RowOf x mi nw1 nb1 nw2 nb2 (i 0) (i 1)

/-- The gate of node n at wavelet w. -/
def gate (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal)
    (gw : (⟨2, ![128, 16]⟩ : Shape).Idx → EReal) (gb : (⟨1, ![16]⟩ : Shape).Idx → EReal)
    (n : Fin 50000) (w : Fin 16) : EReal :=
  gateRow (matOf gw) (vecOf gb) (x2RowOf x mi nw1 nb1 nw2 nb2 n) w

/-- The gated vector features, flattened to rows of 48: entry (n, q) is gated by wavelet q mod 16. -/
def V2flat (Vf : (⟨2, ![50000, 48]⟩ : Shape).Idx → EReal) (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal)
    (gw : (⟨2, ![128, 16]⟩ : Shape).Idx → EReal) (gb : (⟨1, ![16]⟩ : Shape).Idx → EReal) :
    (⟨2, ![50000, 48]⟩ : Shape).Idx → EReal :=
  fun i => Vf i * gate x mi nw1 nb1 nw2 nb2 gw gb (i 0) ⟨(i 1).val % 16, Nat.mod_lt _ (by norm_num)⟩

/-- The gated vector features V2 : [50000, 3, 16]. -/
def V2 (V : (⟨3, ![50000, 3, 16]⟩ : Shape).Idx → EReal) (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal)
    (gw : (⟨2, ![128, 16]⟩ : Shape).Idx → EReal) (gb : (⟨1, ![16]⟩ : Shape).Idx → EReal) :
    (⟨3, ![50000, 3, 16]⟩ : Shape).Idx → EReal :=
  fun i => V i * gate x mi nw1 nb1 nw2 nb2 gw gb (i 0) (i 2)

end Cert.Spec

end
-- ==== Proof.SpecIdx.lean ====
/-
  The node an edge end names.  edge_index : [2, 600000] holds the source (row 0) and the target (row 1) of each edge as a
  32-bit word; read as a signed integer and clamped into [0, 49999] it names a node (a row of the 50000-row tables).
  When every entry lies in [0, 50000) the clamp does nothing and wrapping a negative entry by the table's length does
  nothing either.
-/
import Idealize.ShloMosaic.PureOps.Ideal
import Idealize.ShloMosaic.Lib.ValueIdx

noncomputable section

namespace Cert.Spec

open Idealize.ShloMosaic Idealize.ShloMosaic.ValueIdx

/-- The row a gather reads for a start-index word: the word read signed, clamped into [0, 49999]. -/
def clampNode (x : BitVec 32) : Fin 50000 := ⟨min x.toInt.toNat (50000 - 1), by omega⟩

/-- End r (0 = source, 1 = target) of edge e, as a node. -/
def nodeAt (ei : IVec ⟨2, ![2, 600000]⟩ 32) (r : Fin 2) (e : Fin 600000) : Fin 50000 := clampNode (ei (ix2 r e))

/-- Every entry of edge_index is a node number: 0 ≤ entry < 50000, read signed. -/
def InRange (ei : IVec ⟨2, ![2, 600000]⟩ 32) : Prop :=
  ∀ (r : Fin 2) (e : Fin 600000), 0 ≤ (ei (ix2 r e)).toInt ∧ (ei (ix2 r e)).toInt < 50000

end Cert.Spec

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KPay0.lean ====
/-
  The edge kernel's two output blocks read at an entry (p, j) of a block of 4800 edges: the updated edge row
  and the weighted row, each a function of row p of the input blocks alone.
-/
import proofs.«422732_j45208825757707_3_alg».proof.Proof.Gen.KernelIdeal.Frame
import proofs.«422732_j45208825757707_3_alg».proof.Proof.Spec
import proofs.«422732_j45208825757707_3_alg».proof.Proof.LibPlainDot
import Idealize.ShloMosaic.PureOps.Ideal.Laws
import Idealize.ShloMosaic.Lib.Pipeline.Value
import Idealize.ShloMosaic.Lib.ValueLayout
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! ## Layout operations read at an index -/

private theorem hz2 : (![0, 0] : Fin 2 → Nat) = fun _ => 0 := by funext a; fin_cases a <;> rfl
private theorem hz1 : (![0] : Fin 1 → Nat) = fun _ => 0 := by funext a; fin_cases a; rfl

/-- The lane sum of a block of rows of 128, read at row p: the sum of the row. -/
private theorem rowSum_apply (v : FVec Ideal S4800x128 .f32) (p : Fin 4800) :
    Ideal.reduceAdd reduces_S4800x128_S4800 v (ix1 p) = ∑ k : Fin 128, v (ix2 p k) := by
  refine (Ideal.reduceAdd_single reduces_S4800x128_S4800 v (ix1 p)).trans ?_
  refine Finset.sum_congr rfl fun k _ => congrArg v ?_
  funext c
  apply Fin.ext
  show Shape.Reduces.liftVal reduces_S4800x128_S4800 (ix1 p) k.val c = _
  unfold Shape.Reduces.liftVal
  match c with
  | ⟨0, _⟩ => rfl
  | ⟨1, _⟩ => rfl

/-- A vector of 4800 cast to a column [4800, 1] reads, at (p, u), the vector at p. -/
private theorem col_cast_apply {α : Type} (x : S4800.Idx → α) (p : Fin 4800) (u : Fin 1) :
    shapeCast S4800x1 x shapeCasts_S4800_S4800x1 (ix2 p u) = x (ix1 p) :=
  shapeCast_apply x _ _ _ (by
    have hu : u.val = 0 := by omega
    rw [Shape.rowMajor_val_two, Shape.rowMajor_val_one]
    show p.val = p.val * 1 + u.val
    rw [hu, Nat.mul_one, Nat.add_zero])

/-- A column [4800, 1] broadcast along the lanes reads, at (p, j), the column at (p, 0). -/
private theorem col_bcast_apply {α : Type} (x : S4800x1.Idx → α) (p : Fin 4800) (j : Fin 128) :
    broadcastTo S4800x128 x broadcasts_S4800x1_S4800x128 (ix2 p j) = x (ix2 p (0 : Fin 1)) := by
  refine broadcastTo_apply x _ (ix2 p j) (ix2 p (0 : Fin 1)) fun ax => ?_
  match ax with
  | ⟨0, _⟩ => rfl
  | ⟨1, _⟩ => rfl

/-- A vector of 128 cast to one row and broadcast over the rows reads, at (p, j), the vector at j. -/
private theorem row_bcast_apply {α : Type} (x : S128.Idx → α) (p : Fin 4800) (j : Fin 128) :
    broadcastTo S4800x128 (shapeCast S1x128 x shapeCasts_S128_S1x128) broadcasts_S1x128_S4800x128 (ix2 p j) = x (ix1 j) := by
  rw [broadcastTo_1b_ab_apply, shapeCast_a_1a_apply]

private theorem rsqrt_apply {s : Shape} {φ : FTy} (x : FVec Ideal s φ) (i : s.Idx) : rsqrt x i = Ideal.rsqrt (x i) := rfl
private theorem sqrt_apply {s : Shape} {φ : FTy} (x : FVec Ideal s φ) (i : s.Idx) : sqrt x i = Ideal.sqrt (x i) := rfl
private theorem logistic_apply {s : Shape} {φ : FTy} (x : FVec Ideal s φ) (i : s.Idx) : logistic x i = Ideal.logistic (x i) := rfl

/-! ## The layer norm and the message perceptron -/

/-- The layer-norm lines of the payload (%1 to %24) as one vector of the block and the two parameter vectors. -/
private def lnVec (v0 : Vec Ideal S4800x128 .f32) (v17 : Vec Ideal S128 .f32) (v21 : Vec Ideal S128 .f32) : FVec Ideal S4800x128 .f32 :=
  have v1 : FVec Ideal S4800 .f32 := Ideal.reduceAdd reduces_S4800x128_S4800 v0
  have v2 : FVec Ideal S4800x1 .f32 := shapeCast S4800x1 v1 shapeCasts_S4800_S4800x1
  have cst_1 : Ideal .f32 := Scalar.ofBits .f32 0x43000000#32
  have v3 : FVec Ideal S4800x1 .f32 := broadcast S4800x1 cst_1
  have v4 : FVec Ideal S4800x1 .f32 := divf v2 v3
  have v5 : FVec Ideal S4800x128 .f32 := broadcastTo S4800x128 v4 broadcasts_S4800x1_S4800x128
  have v6 : FVec Ideal S4800x128 .f32 := subf v0 v5
  have v7 : FVec Ideal S4800x128 .f32 := mulf v6 v6
  have v8 : FVec Ideal S4800 .f32 := Ideal.reduceAdd reduces_S4800x128_S4800 v7
  have v9 : FVec Ideal S4800x1 .f32 := shapeCast S4800x1 v8 shapeCasts_S4800_S4800x1
  have cst_3 : Ideal .f32 := Scalar.ofBits .f32 0x43000000#32
  have v10 : FVec Ideal S4800x1 .f32 := broadcast S4800x1 cst_3
  have v11 : FVec Ideal S4800x1 .f32 := divf v9 v10
  have cst_4 : Ideal .f32 := Scalar.ofBits .f32 0x3727C5AC#32
  have v12 : FVec Ideal S4800x1 .f32 := broadcast S4800x1 cst_4
  have v13 : FVec Ideal S4800x1 .f32 := addf v11 v12
  have v14 : FVec Ideal S4800x1 .f32 := rsqrt v13
  have v15 : FVec Ideal S4800x128 .f32 := broadcastTo S4800x128 v14 broadcasts_S4800x1_S4800x128
  have v16 : FVec Ideal S4800x128 .f32 := mulf v6 v15
  have v18 : FVec Ideal S1x128 .f32 := shapeCast S1x128 v17 shapeCasts_S128_S1x128
  have v19 : FVec Ideal S4800x128 .f32 := broadcastTo S4800x128 v18 broadcasts_S1x128_S4800x128
  have v20 : FVec Ideal S4800x128 .f32 := mulf v16 v19
  have v22 : FVec Ideal S1x128 .f32 := shapeCast S1x128 v21 shapeCasts_S128_S1x128
  have v23 : FVec Ideal S4800x128 .f32 := broadcastTo S4800x128 v22 broadcasts_S1x128_S4800x128
  have v24 : FVec Ideal S4800x128 .f32 := addf v20 v23
  v24

/-- The two-layer perceptron lines of the payload (%25 to %38) over the normalised block. -/
private def mlpVec (v24 : FVec Ideal S4800x128 .f32) (v26 : Vec Ideal S128x128 .f32) (v29 : Vec Ideal S128 .f32) (v35 : Vec Ideal S128x128 .f32) : FVec Ideal S4800x128 .f32 :=
  have v25 : FVec Ideal S4800x128 .bf16 := truncf .bf16 v24 bitsLt_bf16_f32
  have v27 : FVec Ideal S128x128 .bf16 := truncf .bf16 v26 bitsLt_bf16_f32
  have cst_9 : FVec Ideal S4800x128 .f32 := constant S4800x128 .f32 0x00000000#32
  have v28 : FVec Ideal S4800x128 .f32 := matmul dot_S4800x128_S128x128_S4800x128_1_0_0_1_n_n none v25 v27 cst_9
  have v30 : FVec Ideal S1x128 .f32 := shapeCast S1x128 v29 shapeCasts_S128_S1x128
  have v31 : FVec Ideal S4800x128 .f32 := broadcastTo S4800x128 v30 broadcasts_S1x128_S4800x128
  have v32 : FVec Ideal S4800x128 .f32 := addf v28 v31
  have cst_11 : Ideal .f32 := Scalar.ofBits .f32 0x00000000#32
  have v33 : FVec Ideal S4800x128 .f32 := broadcast S4800x128 cst_11
  have v34 : FVec Ideal S4800x128 .f32 := maximumf v32 v33
  have v36 : FVec Ideal S128x128 .bf16 := truncf .bf16 v35 bitsLt_bf16_f32
  have v37 : FVec Ideal S4800x128 .bf16 := truncf .bf16 v34 bitsLt_bf16_f32
  have cst_14 : FVec Ideal S4800x128 .f32 := constant S4800x128 .f32 0x00000000#32
  have v38 : FVec Ideal S4800x128 .f32 := matmul dot_S4800x128_S128x128_S4800x128_1_0_0_1_n_n none v37 v36 cst_14
  v38

/-- The payload is the normalised block plus its perceptron image. -/
private theorem k0_pay2_eq (v0 : Vec Ideal S4800x128 .f32) (v17 v21 : Vec Ideal S128 .f32) (v26 : Vec Ideal S128x128 .f32) (v29 : Vec Ideal S128 .f32) (v35 : Vec Ideal S128x128 .f32) :
    k0_pay2 (F := Ideal) v0 v17 v21 v26 v29 v35 = addf (lnVec v0 v17 v21) (mlpVec (lnVec v0 v17 v21) v26 v29 v35) := rfl

/-- The normalised block at (p, j): the layer norm of row p at j. -/
private theorem lnVec_apply (v0 : Vec Ideal S4800x128 .f32) (v17 v21 : Vec Ideal S128 .f32) (p : Fin 4800) (j : Fin 128) :
    lnVec v0 v17 v21 (ix2 p j) = Spec.lnRow (Spec.vecOf v17) (Spec.vecOf v21) (Spec.rowOf v0 p) j := by
  unfold lnVec
  simp only [addf_apply, mulf_apply, subf_apply, divf_apply, row_bcast_apply, col_bcast_apply, col_cast_apply, rowSum_apply, broadcast_apply, rsqrt_apply]
  rfl

/-- The product of a block of rows of 128 with a 128 by 128 matrix into the zero accumulator, at (p, j). -/
private theorem mm128_apply (A : FVec Ideal S4800x128 .bf16) (B : FVec Ideal S128x128 .bf16) (p : Fin 4800) (j : Fin 128) :
    matmul dot_S4800x128_S128x128_S4800x128_1_0_0_1_n_n none A B (constant (F := Ideal) S4800x128 .f32 0x00000000#32) (ix2 p j)
      = ∑ c : Fin 128, A (ix2 p c) * B (ix2 c j) :=
  Cert.LibPlainDot.matmul_zero_apply dot_S4800x128_S128x128_S4800x128_1_0_0_1_n_n rfl none A B p j

/-- The perceptron lines at (p, j): the second layer over the rectified first layer of row p. -/
private theorem mlpVec_apply (v24 : FVec Ideal S4800x128 .f32) (v26 : Vec Ideal S128x128 .f32) (v29 : Vec Ideal S128 .f32) (v35 : Vec Ideal S128x128 .f32) (p : Fin 4800) (j : Fin 128) :
    mlpVec v24 v26 v29 v35 (ix2 p j)
      = ∑ k : Fin 128, Spec.relu (Spec.lin (Spec.matOf v26) (Spec.vecOf v29) (fun l => v24 (ix2 p l)) k) * Spec.matOf v35 k j := by
  unfold mlpVec
  simp only [mm128_apply, truncf_apply, addf_apply, maximumf_apply, row_bcast_apply, broadcast_apply]
  simp only [Ideal.ofBits_def, Ideal.ofBits_zero_f32]
  rfl

/-- The updated edge row: the payload of output window 13 at (p, j). -/
private theorem m2_apply (x0 : Vec Ideal S4800x128 .f32) (x3 : Vec Ideal S128x128 .f32) (x4 : Vec Ideal S128 .f32) (x5 : Vec Ideal S128x128 .f32) (x6 : Vec Ideal S128 .f32) (x11 x12 : Vec Ideal S128 .f32) (p : Fin 4800) (j : Fin 128) :
    k0_pay3 (k0_pay2 (F := Ideal) x0 x11 x12 x3 x4 x5) x6 (ix2 p j)
      = Spec.m2Row (Spec.vecOf x11) (Spec.vecOf x12) (Spec.matOf x3) (Spec.vecOf x4) (Spec.matOf x5) (Spec.vecOf x6) (Spec.rowOf x0 p) j := by
  unfold k0_pay3
  simp only [addf_apply, row_bcast_apply, k0_pay2_eq, mlpVec_apply, lnVec_apply]
  rfl

/-- Output window 13 (the updated edge features) at entry (p, j) of a block. -/
theorem out0_13_apply (x0 : Vec Ideal S4800x128 .f32) (x1 x2 : Vec Ideal S4800x48 .f32) (x3 : Vec Ideal S128x128 .f32) (x4 : Vec Ideal S128 .f32) (x5 : Vec Ideal S128x128 .f32) (x6 : Vec Ideal S128 .f32) (x7 : Vec Ideal S48x128 .f32) (x8 : Vec Ideal S128 .f32) (x9 : Vec Ideal S128x1 .f32) (x10 : Vec Ideal S1 .f32) (x11 x12 : Vec Ideal S128 .f32) (p : Fin 4800) (j : Fin 128) :
    out0_13 (F := Ideal) x0 x1 x2 x3 x4 x5 x6 x7 x8 x9 x10 x11 x12 (ix2 p j) = Spec.m2Row (Spec.vecOf x11) (Spec.vecOf x12) (Spec.matOf x3) (Spec.vecOf x4) (Spec.matOf x5) (Spec.vecOf x6) (Spec.rowOf x0 p) j := by
  unfold out0_13
  rw [View.canon_unit_zero hz2]
  simp only [View.ld_unit_zero (S := S4800x128) hz2, View.ld_unit_zero (S := S128x128) hz2, View.ld_unit_zero (S := S128) hz1]
  exact m2_apply x0 x3 x4 x5 x6 x11 x12 p j

/-! ## The edge invariants and the edge weight -/

/-- The three column groups of a row of 48, read through the row-major slab: group a at lane w is entry 16 a + w. -/
private theorem slice0_apply (X : Vec Ideal S4800x48 .f32) (p : Fin 4800) (w : Fin 16) :
    extractStridedSlice S4800x16 ![0, 0] X slices_S4800x48_o0_0_S4800x16 (ix2 p w) = Spec.slabOfFlat X p 0 w :=
  slice2_axis1_apply 0 X slices_S4800x48_o0_0_S4800x16 p w ⟨16 * (0 : Fin 3).val + w.val, by have := w.isLt; show 16 * 0 + w.val < 48; omega⟩
    (by show 16 * 0 + w.val = 0 + w.val; omega)

private theorem slice1_apply (X : Vec Ideal S4800x48 .f32) (p : Fin 4800) (w : Fin 16) :
    extractStridedSlice S4800x16 ![0, 16] X slices_S4800x48_o0_16_S4800x16 (ix2 p w) = Spec.slabOfFlat X p 1 w :=
  slice2_axis1_apply 16 X slices_S4800x48_o0_16_S4800x16 p w ⟨16 * (1 : Fin 3).val + w.val, by have := w.isLt; show 16 * 1 + w.val < 48; omega⟩
    (by show 16 * 1 + w.val = 16 + w.val; omega)

private theorem slice2_apply (X : Vec Ideal S4800x48 .f32) (p : Fin 4800) (w : Fin 16) :
    extractStridedSlice S4800x16 ![0, 32] X slices_S4800x48_o0_32_S4800x16 (ix2 p w) = Spec.slabOfFlat X p 2 w :=
  slice2_axis1_apply 32 X slices_S4800x48_o0_32_S4800x16 p w ⟨16 * (2 : Fin 3).val + w.val, by have := w.isLt; show 16 * 2 + w.val < 48; omega⟩
    (by show 16 * 2 + w.val = 32 + w.val; omega)

/-- Three blocks of 16 lanes laid side by side: lane q of the row of 48 is lane w of block k when q = 16 k + w. -/
private theorem cat3_0 {α : Type} (A B C : S4800x16.Idx → α) (p : Fin 4800) (q : Fin 48) (w : Fin 16) (hq : q.val = w.val) :
    concatenate S4800x48 1 [⟨S4800x16, A⟩, ⟨S4800x16, B⟩, ⟨S4800x16, C⟩] concatenates_S4800x16_S4800x16_S4800x16_S4800x48_d1 (ix2 p q) = A (ix2 p w) :=
  concatenate_apply_piece (1 : Fin 2) _ _ (ix2 p q) 0 (by show (0 : Nat) < 3; omega) S4800x16 A rfl rfl 0 rfl (ix2 p w)
    (fun b hb => by
      match b with
      | ⟨0, _⟩ => rfl
      | ⟨1, _⟩ => exact absurd rfl hb)
    (by show 0 + w.val = q.val; omega)

private theorem cat3_1 {α : Type} (A B C : S4800x16.Idx → α) (p : Fin 4800) (q : Fin 48) (w : Fin 16) (hq : q.val = 16 + w.val) :
    concatenate S4800x48 1 [⟨S4800x16, A⟩, ⟨S4800x16, B⟩, ⟨S4800x16, C⟩] concatenates_S4800x16_S4800x16_S4800x16_S4800x48_d1 (ix2 p q) = B (ix2 p w) :=
  concatenate_apply_piece (1 : Fin 2) _ _ (ix2 p q) 1 (by show (1 : Nat) < 3; omega) S4800x16 B rfl rfl 16 rfl (ix2 p w)
    (fun b hb => by
      match b with
      | ⟨0, _⟩ => rfl
      | ⟨1, _⟩ => exact absurd rfl hb)
    (by show 16 + w.val = q.val; omega)

private theorem cat3_2 {α : Type} (A B C : S4800x16.Idx → α) (p : Fin 4800) (q : Fin 48) (w : Fin 16) (hq : q.val = 32 + w.val) :
    concatenate S4800x48 1 [⟨S4800x16, A⟩, ⟨S4800x16, B⟩, ⟨S4800x16, C⟩] concatenates_S4800x16_S4800x16_S4800x16_S4800x48_d1 (ix2 p q) = C (ix2 p w) :=
  concatenate_apply_piece (1 : Fin 2) _ _ (ix2 p q) 2 (by show (2 : Nat) < 3; omega) S4800x16 C rfl rfl 32 rfl (ix2 p w)
    (fun b hb => by
      match b with
      | ⟨0, _⟩ => rfl
      | ⟨1, _⟩ => exact absurd rfl hb)
    (by show 32 + w.val = q.val; omega)

/-- The norm lines of the payload (%48 to %59, and %51 to %65 for the other operand): the Euclidean norm of the three
    column groups of a block of rows of 48. -/
private def normVec (v44 : Vec Ideal S4800x48 .f32) : FVec Ideal S4800x16 .f32 :=
  have v45 : FVec Ideal S4800x48 .f32 := shapeCast S4800x48 v44 shapeCasts_S4800x48_S4800x48
  have v48 : FVec Ideal S4800x16 .f32 := extractStridedSlice S4800x16 ![0, 0] v45 slices_S4800x48_o0_0_S4800x16
  have v49 : FVec Ideal S4800x16 .f32 := extractStridedSlice S4800x16 ![0, 16] v45 slices_S4800x48_o0_16_S4800x16
  have v50 : FVec Ideal S4800x16 .f32 := extractStridedSlice S4800x16 ![0, 32] v45 slices_S4800x48_o0_32_S4800x16
  have v54 : FVec Ideal S4800x16 .f32 := mulf v48 v48
  have v55 : FVec Ideal S4800x16 .f32 := mulf v49 v49
  have v56 : FVec Ideal S4800x16 .f32 := addf v54 v55
  have v57 : FVec Ideal S4800x16 .f32 := mulf v50 v50
  have v58 : FVec Ideal S4800x16 .f32 := addf v56 v57
  have v59 : FVec Ideal S4800x16 .f32 := sqrt v58
  v59

/-- The inner-product lines of the payload (%66 to %70). -/
private def dotVec (v44 v46 : Vec Ideal S4800x48 .f32) : FVec Ideal S4800x16 .f32 :=
  have v45 : FVec Ideal S4800x48 .f32 := shapeCast S4800x48 v44 shapeCasts_S4800x48_S4800x48
  have v47 : FVec Ideal S4800x48 .f32 := shapeCast S4800x48 v46 shapeCasts_S4800x48_S4800x48
  have v48 : FVec Ideal S4800x16 .f32 := extractStridedSlice S4800x16 ![0, 0] v45 slices_S4800x48_o0_0_S4800x16
  have v49 : FVec Ideal S4800x16 .f32 := extractStridedSlice S4800x16 ![0, 16] v45 slices_S4800x48_o0_16_S4800x16
  have v50 : FVec Ideal S4800x16 .f32 := extractStridedSlice S4800x16 ![0, 32] v45 slices_S4800x48_o0_32_S4800x16
  have v51 : FVec Ideal S4800x16 .f32 := extractStridedSlice S4800x16 ![0, 0] v47 slices_S4800x48_o0_0_S4800x16
  have v52 : FVec Ideal S4800x16 .f32 := extractStridedSlice S4800x16 ![0, 16] v47 slices_S4800x48_o0_16_S4800x16
  have v53 : FVec Ideal S4800x16 .f32 := extractStridedSlice S4800x16 ![0, 32] v47 slices_S4800x48_o0_32_S4800x16
  have v66 : FVec Ideal S4800x16 .f32 := mulf v48 v51
  have v67 : FVec Ideal S4800x16 .f32 := mulf v49 v52
  have v68 : FVec Ideal S4800x16 .f32 := addf v66 v67
  have v69 : FVec Ideal S4800x16 .f32 := mulf v50 v53
  have v70 : FVec Ideal S4800x16 .f32 := addf v68 v69
  v70

/-- The cosine lines of the payload (%71 to %74). -/
private def cosVec (v44 v46 : Vec Ideal S4800x48 .f32) : FVec Ideal S4800x16 .f32 :=
  have v71 : FVec Ideal S4800x16 .f32 := mulf (normVec v44) (normVec v46)
  have cst_20 : Ideal .f32 := Scalar.ofBits .f32 0x322BCC77#32
  have v72 : FVec Ideal S4800x16 .f32 := broadcast S4800x16 cst_20
  have v73 : FVec Ideal S4800x16 .f32 := addf v71 v72
  have v74 : FVec Ideal S4800x16 .f32 := divf (dotVec v44 v46) v73
  v74

/-- The row of invariants (%75): norms, norms, cosines side by side. -/
private def eiVec (v44 v46 : Vec Ideal S4800x48 .f32) : FVec Ideal S4800x48 .f32 :=
  concatenate S4800x48 1 [⟨S4800x16, normVec v44⟩, ⟨S4800x16, normVec v46⟩, ⟨S4800x16, cosVec v44 v46⟩] concatenates_S4800x16_S4800x16_S4800x16_S4800x48_d1

/-- The first layer of the invariant perceptron (%77 to %88) over a block of invariant rows. -/
private def hidVec (v75 : FVec Ideal S4800x48 .f32) (v76 : Vec Ideal S48x128 .f32) (v80 : Vec Ideal S128 .f32) : FVec Ideal S4800x128 .bf16 :=
  have v77 : FVec Ideal S48x128 .bf16 := truncf .bf16 v76 bitsLt_bf16_f32
  have v78 : FVec Ideal S4800x48 .bf16 := truncf .bf16 v75 bitsLt_bf16_f32
  have cst_23 : FVec Ideal S4800x128 .f32 := constant S4800x128 .f32 0x00000000#32
  have v79 : FVec Ideal S4800x128 .f32 := matmul dot_S4800x48_S48x128_S4800x128_1_0_0_1_n_n none v78 v77 cst_23
  have v81 : FVec Ideal S1x128 .f32 := shapeCast S1x128 v80 shapeCasts_S128_S1x128
  have v82 : FVec Ideal S4800x128 .f32 := broadcastTo S4800x128 v81 broadcasts_S1x128_S4800x128
  have v83 : FVec Ideal S4800x128 .f32 := addf v79 v82
  have cst_25 : Ideal .f32 := Scalar.ofBits .f32 0x00000000#32
  have v84 : FVec Ideal S4800x128 .f32 := broadcast S4800x128 cst_25
  have v85 : FVec Ideal S4800x128 .f32 := maximumf v83 v84
  have v88 : FVec Ideal S4800x128 .bf16 := truncf .bf16 v85 bitsLt_bf16_f32
  v88

private theorem k0_pay5_eq (v44 v46 : Vec Ideal S4800x48 .f32) (v76 : Vec Ideal S48x128 .f32) (v80 : Vec Ideal S128 .f32) :
    k0_pay5 (F := Ideal) v44 v46 v76 v80 = hidVec (eiVec v44 v46) v76 v80 := rfl

/-- The norm of the slab of row p at wavelet w. -/
private theorem normVec_apply (v44 : Vec Ideal S4800x48 .f32) (p : Fin 4800) (w : Fin 16) :
    normVec v44 (ix2 p w) = Spec.norm3 (fun a => Spec.slabOfFlat v44 p a w) := by
  unfold normVec Spec.norm3
  rw [Fin.sum_univ_three]
  simp only [sqrt_apply, addf_apply, mulf_apply, shapeCast_self]
  rw [slice0_apply v44, slice1_apply v44, slice2_apply v44]

/-- The inner product of the two slabs of row p at wavelet w. -/
private theorem dotVec_apply (v44 v46 : Vec Ideal S4800x48 .f32) (p : Fin 4800) (w : Fin 16) :
    dotVec v44 v46 (ix2 p w) = ∑ a : Fin 3, Spec.slabOfFlat v44 p a w * Spec.slabOfFlat v46 p a w := by
  unfold dotVec
  rw [Fin.sum_univ_three]
  simp only [addf_apply, mulf_apply, shapeCast_self]
  rw [slice0_apply v44, slice1_apply v44, slice2_apply v44, slice0_apply v46, slice1_apply v46, slice2_apply v46]

/-- The cosine of the two slabs of row p at wavelet w. -/
private theorem cosVec_apply (v44 v46 : Vec Ideal S4800x48 .f32) (p : Fin 4800) (w : Fin 16) :
    cosVec v44 v46 (ix2 p w) = Spec.cos3 (fun a => Spec.slabOfFlat v44 p a w) (fun a => Spec.slabOfFlat v46 p a w) := by
  unfold cosVec
  simp only [divf_apply, addf_apply, mulf_apply, broadcast_apply, normVec_apply, dotVec_apply]
  rfl

/-- The row of invariants of row p at lane q. -/
private theorem eiVec_apply (v44 v46 : Vec Ideal S4800x48 .f32) (p : Fin 4800) (q : Fin 48) :
    eiVec v44 v46 (ix2 p q) = Spec.eiRow (Spec.slabOfFlat v44 p) (Spec.slabOfFlat v46 p) q := by
  unfold eiVec Spec.eiRow
  split
  · next h =>
    rw [cat3_0 _ _ _ p q ⟨q.val, h⟩ rfl, normVec_apply]
  · split
    · next h1 h2 =>
      rw [cat3_1 _ _ _ p q ⟨q.val - 16, by omega⟩ (by show q.val = 16 + (q.val - 16); omega), normVec_apply]
    · next h1 h2 =>
      have := q.isLt
      rw [cat3_2 _ _ _ p q ⟨q.val - 32, by omega⟩ (by show q.val = 32 + (q.val - 32); omega), cosVec_apply]

/-- The product of a block of rows of 48 with a 48 by 128 matrix into the zero accumulator, at (p, j). -/
private theorem mm48_apply (A : FVec Ideal S4800x48 .bf16) (B : FVec Ideal S48x128 .bf16) (p : Fin 4800) (j : Fin 128) :
    matmul dot_S4800x48_S48x128_S4800x128_1_0_0_1_n_n none A B (constant (F := Ideal) S4800x128 .f32 0x00000000#32) (ix2 p j)
      = ∑ c : Fin 48, A (ix2 p c) * B (ix2 c j) :=
  Cert.LibPlainDot.matmul_zero_apply dot_S4800x48_S48x128_S4800x128_1_0_0_1_n_n rfl none A B p j

/-- The product of a block of rows of 128 with a column of 128 into the zero accumulator, at (p, u). -/
private theorem mmCol_apply (A : FVec Ideal S4800x128 .bf16) (B : FVec Ideal S128x1 .bf16) (p : Fin 4800) (u : Fin 1) :
    matmul dot_S4800x128_S128x1_S4800x1_1_0_0_1_n_n none A B (constant (F := Ideal) S4800x1 .f32 0x00000000#32) (ix2 p u)
      = ∑ c : Fin 128, A (ix2 p c) * B (ix2 c u) :=
  Cert.LibPlainDot.matmul_zero_apply dot_S4800x128_S128x1_S4800x1_1_0_0_1_n_n rfl none A B p u

/-- A vector of one entry cast to [1, 1] and broadcast down a column reads, at (p, u), its entry. -/
private theorem unit_bcast_apply {α : Type} (x : S1.Idx → α) (p : Fin 4800) (u : Fin 1) :
    broadcastTo S4800x1 (shapeCast S1x1 x shapeCasts_S1_S1x1) broadcasts_S1x1_S4800x1 (ix2 p u) = x (ix1 u) := by
  rw [broadcastTo_1b_ab_apply, shapeCast_a_1a_apply]

/-- The first layer of the invariant perceptron at (p, k). -/
private theorem hidVec_apply (v75 : FVec Ideal S4800x48 .f32) (v76 : Vec Ideal S48x128 .f32) (v80 : Vec Ideal S128 .f32) (p : Fin 4800) (k : Fin 128) :
    hidVec v75 v76 v80 (ix2 p k) = Spec.relu (Spec.lin (Spec.matOf v76) (Spec.vecOf v80) (fun q => v75 (ix2 p q)) k) := by
  unfold hidVec
  simp only [mm48_apply, truncf_apply, addf_apply, maximumf_apply, row_bcast_apply, broadcast_apply, Ideal.ofBits_def, Ideal.ofBits_zero_f32]
  rfl

/-- The weighting payload at (p, j): the stored row entry times the logistic of the second layer. -/
private theorem pay1_apply (v43 : FVec Ideal S4800x128 .f32) (v87 : FVec Ideal S128x1 .bf16) (v88 : FVec Ideal S4800x128 .bf16) (v90 : Vec Ideal S1 .f32) (p : Fin 4800) (j : Fin 128) :
    k0_pay1 v43 v87 v88 v90 (ix2 p j)
      = v43 (ix2 p j) * Ideal.logistic ((∑ c : Fin 128, v88 (ix2 p c) * v87 (ix2 c (0 : Fin 1))) + v90 (ix1 (0 : Fin 1))) := by
  unfold k0_pay1
  simp only [mulf_apply, col_bcast_apply, logistic_apply, addf_apply, mmCol_apply, unit_bcast_apply]

/-- Output window 14 (the weighted messages) at entry (p, j) of a block. -/
theorem out0_14_apply (x0 : Vec Ideal S4800x128 .f32) (x1 x2 : Vec Ideal S4800x48 .f32) (x3 : Vec Ideal S128x128 .f32) (x4 : Vec Ideal S128 .f32) (x5 : Vec Ideal S128x128 .f32) (x6 : Vec Ideal S128 .f32) (x7 : Vec Ideal S48x128 .f32) (x8 : Vec Ideal S128 .f32) (x9 : Vec Ideal S128x1 .f32) (x10 : Vec Ideal S1 .f32) (x11 x12 : Vec Ideal S128 .f32) (p : Fin 4800) (j : Fin 128) :
    out0_14 (F := Ideal) x0 x1 x2 x3 x4 x5 x6 x7 x8 x9 x10 x11 x12 (ix2 p j)
      = Spec.m2Row (Spec.vecOf x11) (Spec.vecOf x12) (Spec.matOf x3) (Spec.vecOf x4) (Spec.matOf x5) (Spec.vecOf x6) (Spec.rowOf x0 p) j
        * Spec.alphaRow (Spec.matOf x7) (Spec.vecOf x8) (Spec.colOf x9) (x10 (ix1 (0 : Fin 1))) (Spec.slabOfFlat x1 p) (Spec.slabOfFlat x2 p) := by
  unfold out0_14
  rw [View.canon_unit_zero hz2]
  simp only [View.ld_unit_zero (S := S4800x128) hz2, View.ld_unit_zero (S := S128x128) hz2, View.ld_unit_zero (S := S128) hz1,
    View.ld_unit_zero (S := S4800x48) hz2, View.ld_unit_zero (S := S48x128) hz2, View.ld_unit_zero (S := S128x1) hz2,
    View.ld_unit_zero (S := S1) hz1]
  rw [pay1_apply, m2_apply]
  unfold k0_pay4
  simp only [k0_pay5_eq, hidVec_apply, eiVec_apply, truncf_apply]
  rfl

end Cert.KernelIdeal.Val

end
-- ==== Proof.KArr0.lean ====
/-
  The two output arrays of the edge region after its 125 grid points, as whole-array functions of the arrays the
  region finds: block t of an output is rows 4800 t .. 4800 t + 4799, every input block of 4800 rows moves with it,
  the weights are read whole at every point, and the 125 blocks cover the 600000 rows.
-/
import proofs.«422732_j45208825757707_3_alg».proof.Proof.Gen.KernelIdeal.Frame
import proofs.«422732_j45208825757707_3_alg».proof.Proof.Spec
import proofs.«422732_j45208825757707_3_alg».proof.Proof.KPay0
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators
variable (V : (c : Dev nD) → (b : Ref sig .tc) → Buf (Elt Ideal) ((c : Thread nD τ).loc b))

/-- The printed index maps over the 125 points: the blocked windows sit at block t of the rows and block 0 of the columns. -/
private theorem edge_idx : ∀ t : Fin cfg0.N,
    win0_13.index t (0 : Fin 2) = t.val ∧ win0_13.index t (1 : Fin 2) = 0
    ∧ win0_14.index t (0 : Fin 2) = t.val ∧ win0_14.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weight windows sit at block 0 on every axis, at every point. -/
private theorem weight_idx : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 1) = 0
    ∧ win0_12.index t (0 : Fin 1) = 0 :=
  (by decide +kernel : ∀ t : Fin grid0.N, _)

/-- Row p of block t of the edge features is row 4800 t + p of the array. -/
private theorem edges_blk0 (c : Dev nD) (t : Fin cfg0.N) (p : Fin 4800) (k : Fin 128) (r : Fin 600000)
    (hr : r.val = 4800 * t.val + p.val) :
    (iblk0 V c 0 t : Vec Ideal S4800x128 .f32) (ix2 p k) = (V c main_arg1 : S600000x128.Idx → EReal) (ix2 r k) := by
  obtain ⟨-, -, -, -, e0, e1, -⟩ := edge_idx t
  unfold iblk0
  rw [View.read_apply]
  show V c main_arg1 _ = V c main_arg1 _
  congr 1
  funext a
  apply Fin.ext
  match a with
  | ⟨0, _⟩ => show win0_0.index t (0 : Fin 2) * 4800 + 1 * p.val = r.val; rw [e0, hr]; omega
  | ⟨1, _⟩ => show win0_0.index t (1 : Fin 2) * 128 + 1 * k.val = k.val; rw [e1]; omega

/-- A weight window's block is its whole array. -/
private theorem weight_blk3 (c : Dev nD) (t : Fin cfg0.N) :
    (iblk0 V c 3 t : Vec Ideal S128x128 .f32) = (V c main_arg6 : S128x128.Idx → EReal) := by
  obtain ⟨e0, e1, -⟩ := weight_idx t
  funext y
  unfold iblk0
  rw [View.read_apply]
  show V c main_arg6 _ = V c main_arg6 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

private theorem weight_blk4 (c : Dev nD) (t : Fin cfg0.N) :
    (iblk0 V c 4 t : Vec Ideal S128 .f32) = (V c main_arg7 : S128.Idx → EReal) := by
  have hz : (fun a => win0_4.index t a * main_arg7.ty.shape.size a) = fun _ => 0 := by
    funext a
    match a with
    | ⟨0, _⟩ => show win0_4.index t (0 : Fin 1) * 128 = 0; rw [(weight_idx t).2.2.1]
  exact Memref.read_access_unit_zero (Elt Ideal) main_arg7 hz (fun a => by rw [congrFun hz a]; simp) (V c main_arg7)

private theorem weight_blk5 (c : Dev nD) (t : Fin cfg0.N) :
    (iblk0 V c 5 t : Vec Ideal S128x128 .f32) = (V c main_arg8 : S128x128.Idx → EReal) := by
  obtain ⟨-, -, -, e0, e1, -⟩ := weight_idx t
  funext y
  unfold iblk0
  rw [View.read_apply]
  show V c main_arg8 _ = V c main_arg8 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

private theorem weight_blk6 (c : Dev nD) (t : Fin cfg0.N) :
    (iblk0 V c 6 t : Vec Ideal S128 .f32) = (V c main_arg9 : S128.Idx → EReal) := by
  obtain ⟨-, -, -, -, -, e0, -⟩ := weight_idx t
  funext y
  unfold iblk0
  rw [View.read_apply]
  show V c main_arg9 _ = V c main_arg9 y
  congr 1
  funext a
  apply Fin.ext
  match a with
  | ⟨0, _⟩ => show win0_6.index t (0 : Fin 1) * 128 + 1 * (y 0).val = (y 0).val; rw [e0]; omega

private theorem weight_blk11 (c : Dev nD) (t : Fin cfg0.N) :
    (iblk0 V c 11 t : Vec Ideal S128 .f32) = (V c main_arg4 : S128.Idx → EReal) := by
  obtain ⟨-, -, -, -, -, -, -, -, -, -, -, -, e0, -⟩ := weight_idx t
  funext y
  unfold iblk0
  rw [View.read_apply]
  show V c main_arg4 _ = V c main_arg4 y
  congr 1
  funext a
  apply Fin.ext
  match a with
  | ⟨0, _⟩ => show win0_11.index t (0 : Fin 1) * 128 + 1 * (y 0).val = (y 0).val; rw [e0]; omega

private theorem weight_blk12 (c : Dev nD) (t : Fin cfg0.N) :
    (iblk0 V c 12 t : Vec Ideal S128 .f32) = (V c main_arg5 : S128.Idx → EReal) := by
  obtain ⟨-, -, -, -, -, -, -, -, -, -, -, -, -, e0⟩ := weight_idx t
  funext y
  unfold iblk0
  rw [View.read_apply]
  show V c main_arg5 _ = V c main_arg5 y
  congr 1
  funext a
  apply Fin.ext
  match a with
  | ⟨0, _⟩ => show win0_12.index t (0 : Fin 1) * 128 + 1 * (y 0).val = (y 0).val; rw [e0]; omega

/-- Where entry (p, j) of block t of an output sits in the array: row 4800 t + p, column j. -/
private theorem out13_emb (t : Fin cfg0.N) (p : Fin 4800) (j : Fin 128) :
    ((((cfg0.win 13).blk t).view.emb (ix2 p j) : S600000x128.Idx) 0).val = 4800 * t.val + p.val
    ∧ ((((cfg0.win 13).blk t).view.emb (ix2 p j) : S600000x128.Idx) 1).val = j.val := by
  obtain ⟨e0, e1, -⟩ := edge_idx t
  constructor
  · show win0_13.index t (0 : Fin 2) * 4800 + 1 * p.val = _; rw [e0]; omega
  · show win0_13.index t (1 : Fin 2) * 128 + 1 * j.val = _; rw [e1]; omega

/-- What point t writes back to the updated edge features is block t of the whole-array function. -/
private theorem flushed13 (c : Dev nD) (t : Fin cfg0.N) :
    (dat0 (F := Ideal) V c).flushed 13 t = ((cfg0.win 13).blk t).view.read (Elt Ideal)
      (Spec.M2 (V c main_arg1) (V c main_arg4) (V c main_arg5) (V c main_arg6) (V c main_arg7) (V c main_arg8) (V c main_arg9)) := by
  show (cfg0.win 13).cut (grid0.coords t) ((dat0 V c).after 13 t) = _
  rw [after0_13]
  funext y
  obtain ⟨p, j, rfl⟩ : ∃ (p : Fin 4800) (j : Fin 128), y = ix2 p j := ⟨y 0, y 1, eq_ix2 y⟩
  rw [View.read_apply]
  obtain ⟨h0, h1⟩ := out13_emb t p j
  show out0_13 (F := Ideal) _ _ _ _ _ _ _ _ _ _ _ _ _ (ix2 p j) = Spec.m2Row _ _ _ _ _ _ (Spec.rowOf (V c main_arg1) ((((cfg0.win 13).blk t).view.emb (ix2 p j) : S600000x128.Idx) 0)) ((((cfg0.win 13).blk t).view.emb (ix2 p j) : S600000x128.Idx) 1)
  rw [out0_13_apply, weight_blk3, weight_blk4, weight_blk5, weight_blk6, weight_blk11, weight_blk12]
  have hrow : Spec.rowOf (iblk0 V c 0 t : Vec Ideal S4800x128 .f32) p = Spec.rowOf (V c main_arg1 : S600000x128.Idx → EReal) ((((cfg0.win 13).blk t).view.emb (ix2 p j) : S600000x128.Idx) 0) :=
    funext fun k => edges_blk0 V c t p k _ h0
  have hj : ((((cfg0.win 13).blk t).view.emb (ix2 p j) : S600000x128.Idx) 1) = j := Fin.ext h1
  rw [hrow, hj]

/-- An index of the array is in point t's block of window 13 iff each coordinate is in the block's range on its axis. -/
private theorem mem_blk13 (t : Fin cfg0.N) (i : S600000x128.Idx) :
    i ∈ ((cfg0.win 13).blk t).view.set ↔ ∀ a : Fin 2, win0_13.index t a * S4800x128.size a ≤ (i a).val ∧ (i a).val < win0_13.index t a * S4800x128.size a + S4800x128.size a := by
  show i ∈ ((View.whole main_v8_0).slice (win0_13.rect t)).set ↔ _
  rw [View.set_slice_whole, Rect.mem_set_unit]
  exact Iff.rfl

/-- Row r of the updated edge features is written back by point r / 4800. -/
private theorem cover13 (i : S600000x128.Idx) :
    ∃ t : Fin cfg0.N, (cfg0.win 13).flush t = true ∧ i ∈ ((cfg0.win 13).blk t).view.set := by
  have hi0 : (i 0).val < 600000 := (i 0).isLt
  have hi1 : (i 1).val < 128 := (i 1).isLt
  have hN : cfg0.N = 125 := N_0
  obtain ⟨t, ht⟩ : ∃ t : Fin cfg0.N, t.val = (i 0).val / 4800 := ⟨⟨(i 0).val / 4800, by rw [hN]; omega⟩, rfl⟩
  obtain ⟨e0, e1, -⟩ := edge_idx t
  refine ⟨t, flush0_13 t, ?_⟩
  rw [mem_blk13]
  intro a
  match a with
  | ⟨0, _⟩ => show win0_13.index t (0 : Fin 2) * 4800 ≤ (i 0).val ∧ (i 0).val < win0_13.index t (0 : Fin 2) * 4800 + 4800; rw [e0, ht]; omega
  | ⟨1, _⟩ => show win0_13.index t (1 : Fin 2) * 128 ≤ (i 1).val ∧ (i 1).val < win0_13.index t (1 : Fin 2) * 128 + 128; rw [e1]; omega

/-- The updated edge features: window 13's array after the region. -/
theorem arr0_13 (c : Dev nD) :
    (dat0 (F := Ideal) V c).arrAt 13 cfg0.N
      = Spec.M2 (V c main_arg1) (V c main_arg4) (V c main_arg5) (V c main_arg6) (V c main_arg7) (V c main_arg8) (V c main_arg9) :=
  (dat0 (F := Ideal) V c).arrAt_eq_of_cover 13 _ (fun t _ => flushed13 V c t) (cover13)

/-- Row p of block t of the gathered source vectors is row 4800 t + p of the array. -/
private theorem edges_blk1 (c : Dev nD) (t : Fin cfg0.N) (p : Fin 4800) (k : Fin 48) (r : Fin 600000)
    (hr : r.val = 4800 * t.val + p.val) :
    (iblk0 V c 1 t : Vec Ideal S4800x48 .f32) (ix2 p k) = (V c main_v5 : S600000x48.Idx → EReal) (ix2 r k) := by
  obtain ⟨-, -, -, -, -, -, e0, e1, -⟩ := edge_idx t
  unfold iblk0
  rw [View.read_apply]
  show V c main_v5 _ = V c main_v5 _
  congr 1
  funext a
  apply Fin.ext
  match a with
  | ⟨0, _⟩ => show win0_1.index t (0 : Fin 2) * 4800 + 1 * p.val = r.val; rw [e0, hr]; omega
  | ⟨1, _⟩ => show win0_1.index t (1 : Fin 2) * 48 + 1 * k.val = k.val; rw [e1]; omega

/-- Row p of block t of the gathered target vectors is row 4800 t + p of the array. -/
private theorem edges_blk2 (c : Dev nD) (t : Fin cfg0.N) (p : Fin 4800) (k : Fin 48) (r : Fin 600000)
    (hr : r.val = 4800 * t.val + p.val) :
    (iblk0 V c 2 t : Vec Ideal S4800x48 .f32) (ix2 p k) = (V c main_v7 : S600000x48.Idx → EReal) (ix2 r k) := by
  obtain ⟨-, -, -, -, -, -, -, -, e0, e1⟩ := edge_idx t
  unfold iblk0
  rw [View.read_apply]
  show V c main_v7 _ = V c main_v7 _
  congr 1
  funext a
  apply Fin.ext
  match a with
  | ⟨0, _⟩ => show win0_2.index t (0 : Fin 2) * 4800 + 1 * p.val = r.val; rw [e0, hr]; omega
  | ⟨1, _⟩ => show win0_2.index t (1 : Fin 2) * 48 + 1 * k.val = k.val; rw [e1]; omega

private theorem weight_blk7 (c : Dev nD) (t : Fin cfg0.N) :
    (iblk0 V c 7 t : Vec Ideal S48x128 .f32) = (V c main_arg14 : S48x128.Idx → EReal) := by
  obtain ⟨-, -, -, -, -, -, e0, e1, -⟩ := weight_idx t
  funext y
  unfold iblk0
  rw [View.read_apply]
  show V c main_arg14 _ = V c main_arg14 y
  congr 1
  funext a
  apply Fin.ext
  match a with
  | ⟨0, _⟩ => show win0_7.index t (0 : Fin 2) * 48 + 1 * (y 0).val = (y 0).val; rw [e0]; omega
  | ⟨1, _⟩ => show win0_7.index t (1 : Fin 2) * 128 + 1 * (y 1).val = (y 1).val; rw [e1]; omega

private theorem weight_blk8 (c : Dev nD) (t : Fin cfg0.N) :
    (iblk0 V c 8 t : Vec Ideal S128 .f32) = (V c main_arg15 : S128.Idx → EReal) := by
  obtain ⟨-, -, -, -, -, -, -, -, e0, -⟩ := weight_idx t
  funext y
  unfold iblk0
  rw [View.read_apply]
  show V c main_arg15 _ = V c main_arg15 y
  congr 1
  funext a
  apply Fin.ext
  match a with
  | ⟨0, _⟩ => show win0_8.index t (0 : Fin 1) * 128 + 1 * (y 0).val = (y 0).val; rw [e0]; omega

private theorem weight_blk9 (c : Dev nD) (t : Fin cfg0.N) :
    (iblk0 V c 9 t : Vec Ideal S128x1 .f32) = (V c main_arg16 : S128x1.Idx → EReal) := by
  obtain ⟨-, -, -, -, -, -, -, -, -, e0, e1, -⟩ := weight_idx t
  funext y
  unfold iblk0
  rw [View.read_apply]
  show V c main_arg16 _ = V c main_arg16 y
  congr 1
  funext a
  apply Fin.ext
  match a with
  | ⟨0, _⟩ => show win0_9.index t (0 : Fin 2) * 128 + 1 * (y 0).val = (y 0).val; rw [e0]; omega
  | ⟨1, _⟩ => show win0_9.index t (1 : Fin 2) * 1 + 1 * (y 1).val = (y 1).val; rw [e1]; omega

private theorem weight_blk10 (c : Dev nD) (t : Fin cfg0.N) :
    (iblk0 V c 10 t : Vec Ideal S1 .f32) = (V c main_arg17 : S1.Idx → EReal) := by
  obtain ⟨-, -, -, -, -, -, -, -, -, -, -, e0, -⟩ := weight_idx t
  funext y
  unfold iblk0
  rw [View.read_apply]
  show V c main_arg17 _ = V c main_arg17 y
  congr 1
  funext a
  apply Fin.ext
  match a with
  | ⟨0, _⟩ => show win0_10.index t (0 : Fin 1) * 1 + 1 * (y 0).val = (y 0).val; rw [e0]; omega

/-- Where entry (p, j) of block t of the weighted messages sits in the array: row 4800 t + p, column j. -/
private theorem out14_emb (t : Fin cfg0.N) (p : Fin 4800) (j : Fin 128) :
    ((((cfg0.win 14).blk t).view.emb (ix2 p j) : S600000x128.Idx) 0).val = 4800 * t.val + p.val
    ∧ ((((cfg0.win 14).blk t).view.emb (ix2 p j) : S600000x128.Idx) 1).val = j.val := by
  obtain ⟨-, -, e0, e1, -⟩ := edge_idx t
  constructor
  · show win0_14.index t (0 : Fin 2) * 4800 + 1 * p.val = _; rw [e0]; omega
  · show win0_14.index t (1 : Fin 2) * 128 + 1 * j.val = _; rw [e1]; omega

/-- What point t writes back to the weighted messages is block t of the whole-array function. -/
private theorem flushed14 (c : Dev nD) (t : Fin cfg0.N) :
    (dat0 (F := Ideal) V c).flushed 14 t = ((cfg0.win 14).blk t).view.read (Elt Ideal)
      (Spec.Wt (V c main_arg1) (V c main_arg4) (V c main_arg5) (V c main_arg6) (V c main_arg7) (V c main_arg8) (V c main_arg9)
          (Spec.slabOfFlat (V c main_v5)) (Spec.slabOfFlat (V c main_v7))
          (V c main_arg14) (V c main_arg15) (V c main_arg16) (V c main_arg17)) := by
  show (cfg0.win 14).cut (grid0.coords t) ((dat0 V c).after 14 t) = _
  rw [after0_14]
  funext y
  obtain ⟨p, j, rfl⟩ : ∃ (p : Fin 4800) (j : Fin 128), y = ix2 p j := ⟨y 0, y 1, eq_ix2 y⟩
  rw [View.read_apply]
  obtain ⟨h0, h1⟩ := out14_emb t p j
  show out0_14 (F := Ideal) _ _ _ _ _ _ _ _ _ _ _ _ _ (ix2 p j)
    = Spec.m2Row _ _ _ _ _ _ (Spec.rowOf (V c main_arg1) ((((cfg0.win 14).blk t).view.emb (ix2 p j) : S600000x128.Idx) 0)) ((((cfg0.win 14).blk t).view.emb (ix2 p j) : S600000x128.Idx) 1)
      * Spec.alphaRow _ _ _ _ (Spec.slabOfFlat (V c main_v5) ((((cfg0.win 14).blk t).view.emb (ix2 p j) : S600000x128.Idx) 0))
          (Spec.slabOfFlat (V c main_v7) ((((cfg0.win 14).blk t).view.emb (ix2 p j) : S600000x128.Idx) 0))
  rw [out0_14_apply, weight_blk3, weight_blk4, weight_blk5, weight_blk6, weight_blk7, weight_blk8, weight_blk9, weight_blk10, weight_blk11, weight_blk12]
  have hrow : Spec.rowOf (iblk0 V c 0 t : Vec Ideal S4800x128 .f32) p = Spec.rowOf (V c main_arg1 : S600000x128.Idx → EReal) ((((cfg0.win 14).blk t).view.emb (ix2 p j) : S600000x128.Idx) 0) :=
    funext fun k => edges_blk0 V c t p k _ h0
  have hvr : Spec.slabOfFlat (iblk0 V c 1 t : Vec Ideal S4800x48 .f32) p = Spec.slabOfFlat (V c main_v5 : S600000x48.Idx → EReal) ((((cfg0.win 14).blk t).view.emb (ix2 p j) : S600000x128.Idx) 0) :=
    funext fun a => funext fun w => edges_blk1 V c t p _ _ h0
  have hvc : Spec.slabOfFlat (iblk0 V c 2 t : Vec Ideal S4800x48 .f32) p = Spec.slabOfFlat (V c main_v7 : S600000x48.Idx → EReal) ((((cfg0.win 14).blk t).view.emb (ix2 p j) : S600000x128.Idx) 0) :=
    funext fun a => funext fun w => edges_blk2 V c t p _ _ h0
  have hj : ((((cfg0.win 14).blk t).view.emb (ix2 p j) : S600000x128.Idx) 1) = j := Fin.ext h1
  rw [hrow, hvr, hvc, hj]

/-- An index of the array is in point t's block of window 14 iff each coordinate is in the block's range on its axis. -/
private theorem mem_blk14 (t : Fin cfg0.N) (i : S600000x128.Idx) :
    i ∈ ((cfg0.win 14).blk t).view.set ↔ ∀ a : Fin 2, win0_14.index t a * S4800x128.size a ≤ (i a).val ∧ (i a).val < win0_14.index t a * S4800x128.size a + S4800x128.size a := by
  show i ∈ ((View.whole main_v8_1).slice (win0_14.rect t)).set ↔ _
  rw [View.set_slice_whole, Rect.mem_set_unit]
  exact Iff.rfl

/-- Row r of the weighted messages is written back by point r / 4800. -/
private theorem cover14 (i : S600000x128.Idx) :
    ∃ t : Fin cfg0.N, (cfg0.win 14).flush t = true ∧ i ∈ ((cfg0.win 14).blk t).view.set := by
  have hi0 : (i 0).val < 600000 := (i 0).isLt
  have hi1 : (i 1).val < 128 := (i 1).isLt
  have hN : cfg0.N = 125 := N_0
  obtain ⟨t, ht⟩ : ∃ t : Fin cfg0.N, t.val = (i 0).val / 4800 := ⟨⟨(i 0).val / 4800, by rw [hN]; omega⟩, rfl⟩
  obtain ⟨-, -, e0, e1, -⟩ := edge_idx t
  refine ⟨t, flush0_14 t, ?_⟩
  rw [mem_blk14]
  intro a
  match a with
  | ⟨0, _⟩ => show win0_14.index t (0 : Fin 2) * 4800 ≤ (i 0).val ∧ (i 0).val < win0_14.index t (0 : Fin 2) * 4800 + 4800; rw [e0, ht]; omega
  | ⟨1, _⟩ => show win0_14.index t (1 : Fin 2) * 128 ≤ (i 1).val ∧ (i 1).val < win0_14.index t (1 : Fin 2) * 128 + 128; rw [e1]; omega

/-- The weighted messages: window 14's array after the region. -/
theorem arr0_14 (c : Dev nD) :
    (dat0 (F := Ideal) V c).arrAt 14 cfg0.N
      = Spec.Wt (V c main_arg1) (V c main_arg4) (V c main_arg5) (V c main_arg6) (V c main_arg7) (V c main_arg8) (V c main_arg9)
          (Spec.slabOfFlat (V c main_v5)) (Spec.slabOfFlat (V c main_v7))
          (V c main_arg14) (V c main_arg15) (V c main_arg16) (V c main_arg17) :=
  (dat0 (F := Ideal) V c).arrAt_eq_of_cover 14 _ (fun t _ => flushed14 V c t) cover14

end Cert.KernelIdeal.Val

end
-- ==== Proof.KPay1.lean ====
/-
  The node kernel's two output blocks read at an entry of a block of 5000 nodes: the updated node row, and the
  flattened vector features gated by the wavelet q mod 16 of the updated row.
-/
import proofs.«422732_j45208825757707_3_alg».proof.Proof.Gen.KernelIdeal.Frame
import proofs.«422732_j45208825757707_3_alg».proof.Proof.Spec
import proofs.«422732_j45208825757707_3_alg».proof.Proof.LibPlainDot
import Idealize.ShloMosaic.PureOps.Ideal.Laws
import Idealize.ShloMosaic.Lib.Pipeline.Value
import Idealize.ShloMosaic.Lib.ValueLayout
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

private theorem hz2 : (![0, 0] : Fin 2 → Nat) = fun _ => 0 := funext fun a => by fin_cases a <;> rfl
private theorem hz1 : (![0] : Fin 1 → Nat) = fun _ => 0 := funext fun a => by fin_cases a; rfl

/-- The whole-block loads read the blocks and the one covering store leaves its payload. -/
private theorem out1_9_eq (x0 x1 : Vec Ideal S5000x128 .f32) (x2 : Vec Ideal S5000x48 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) :
    out1_9 (F := Ideal) x0 x1 x2 x3 x4 x5 x6 x7 x8 = k1_pay1 x0 x1 x3 x4 x5 x6 := by
  unfold out1_9
  rw [View.canon_unit_zero hz2]
  simp only [View.ld_unit_zero (S := S5000x128) hz2, View.ld_unit_zero (S := S128x128) hz2, View.ld_unit_zero (S := S128) hz1]

/-- A bias vector laid as one row and repeated down the rows, read at (p, j): the bias at j. -/
private theorem bias_apply {a b : Nat} (v : Vec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix1 j) := by
  rw [broadcastTo_1b_ab_apply, shapeCast_a_1a_apply]

/-- The hidden layer of the node perceptron at (p, k). -/
private theorem hidden_apply (x1 : Vec Ideal S5000x128 .f32) (x3 : Vec Ideal S128x128 .f32) (x4 : Vec Ideal S128 .f32) (p : Fin 5000) (k : Fin 128) :
    maximumf (addf (matmul dot_S5000x128_S128x128_S5000x128_1_0_0_1_n_n none
        (truncf .bf16 (shapeCast S5000x128 x1 shapeCasts_S5000x128_S5000x128) bitsLt_bf16_f32)
        (truncf .bf16 x3 bitsLt_bf16_f32) (constant (F := Ideal) S5000x128 .f32 0x00000000#32))
      (broadcastTo S5000x128 (shapeCast S1x128 x4 shapeCasts_S128_S1x128) broadcasts_S1x128_S5000x128))
      (broadcast S5000x128 (Scalar.ofBits (F := Ideal) .f32 0x00000000#32)) (ix2 p k)
    = Spec.relu (Spec.lin (Spec.matOf x3) (Spec.vecOf x4) (Spec.rowOf x1 p) k) := by
  rw [maximumf_apply, addf_apply, broadcast_apply, Cert.LibPlainDot.matmul_zero_apply dot_S5000x128_S128x128_S5000x128_1_0_0_1_n_n rfl, bias_apply]
  simp only [truncf_apply, shapeCast_self]
  show max _ (Ideal.ofBits .f32 0x00000000#32) = _
  rw [Ideal.ofBits_zero_f32]
  rfl

/-- The first payload at (p, j): the residual perceptron of the node's row and its scattered sum. -/
private theorem k1_pay1_apply (x0 x1 : Vec Ideal S5000x128 .f32) (x3 : Vec Ideal S128x128 .f32) (x4 : Vec Ideal S128 .f32) (x5 : Vec Ideal S128x128 .f32) (x6 : Vec Ideal S128 .f32) (p : Fin 5000) (j : Fin 128) :
    k1_pay1 (F := Ideal) x0 x1 x3 x4 x5 x6 (ix2 p j) = Spec.resMlp (Spec.matOf x3) (Spec.vecOf x4) (Spec.matOf x5) (Spec.vecOf x6) (Spec.rowOf x0 p) (Spec.rowOf x1 p) j := by
  unfold k1_pay1
  simp only [addf_apply]
  rw [bias_apply, Cert.LibPlainDot.matmul_zero_apply dot_S5000x128_S128x128_S5000x128_1_0_0_1_n_n rfl]
  simp only [truncf_apply, hidden_apply]
  rfl

/-- Output window 9 (the updated node features) at entry (p, j) of a block. -/
theorem out1_9_apply (x0 x1 : Vec Ideal S5000x128 .f32) (x2 : Vec Ideal S5000x48 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) (p : Fin 5000) (j : Fin 128) :
    out1_9 (F := Ideal) x0 x1 x2 x3 x4 x5 x6 x7 x8 (ix2 p j) = Spec.resMlp (Spec.matOf x3) (Spec.vecOf x4) (Spec.matOf x5) (Spec.vecOf x6) (Spec.rowOf x0 p) (Spec.rowOf x1 p) j := by
  rw [out1_9_eq, k1_pay1_apply]

/-- The whole-block loads read the blocks and the one covering store leaves its payload. -/
private theorem out1_10_eq (x0 x1 : Vec Ideal S5000x128 .f32) (x2 : Vec Ideal S5000x48 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) :
    out1_10 (F := Ideal) x0 x1 x2 x3 x4 x5 x6 x7 x8 = k1_pay2 x0 x1 x3 x4 x5 x6 x7 x8 x2 := by
  unfold out1_10
  rw [View.canon_unit_zero hz2]
  simp only [View.ld_unit_zero (S := S5000x128) hz2, View.ld_unit_zero (S := S128x128) hz2, View.ld_unit_zero (S := S128) hz1,
    View.ld_unit_zero (S := S128x16) hz2, View.ld_unit_zero (S := S16) hz1, View.ld_unit_zero (S := S5000x48) hz2]

/-- The logistic is taken entry by entry. -/
private theorem logistic_apply {s : Shape} (x : FVec Ideal s .f32) (i : s.Idx) : logistic x i = Ideal.logistic (x i) := rfl

/-- The gates of node p at wavelet w: the logistic of the gate layer on the updated row. -/
private theorem gate_apply (x0 x1 : Vec Ideal S5000x128 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) (p : Fin 5000) (w : Fin 16) :
    logistic (addf (matmul dot_S5000x128_S128x16_S5000x16_1_0_0_1_n_n none
        (truncf .bf16 (k1_pay1 (F := Ideal) x0 x1 x3 x4 x5 x6) bitsLt_bf16_f32)
        (truncf .bf16 x7 bitsLt_bf16_f32) (constant (F := Ideal) S5000x16 .f32 0x00000000#32))
      (broadcastTo S5000x16 (shapeCast S1x16 x8 shapeCasts_S16_S1x16) broadcasts_S1x16_S5000x16)) (ix2 p w)
    = Spec.gateRow (Spec.matOf x7) (Spec.vecOf x8) (Spec.resMlp (Spec.matOf x3) (Spec.vecOf x4) (Spec.matOf x5) (Spec.vecOf x6) (Spec.rowOf x0 p) (Spec.rowOf x1 p)) w := by
  rw [logistic_apply, addf_apply, Cert.LibPlainDot.matmul_zero_apply dot_S5000x128_S128x16_S5000x16_1_0_0_1_n_n rfl, bias_apply]
  simp only [truncf_apply, k1_pay1_apply]
  rfl

/-- Three copies of a [5000, 16] array laid side by side, read at column q: the array at column q mod 16. -/
private theorem concat3_apply (g : Vec Ideal S5000x16 .f32) (p : Fin 5000) (q : Fin 48) :
    concatenate S5000x48 1 [⟨S5000x16, g⟩, ⟨S5000x16, g⟩, ⟨S5000x16, g⟩] concatenates_S5000x16_S5000x16_S5000x16_S5000x48_d1 (ix2 p q)
      = g (ix2 p (⟨q.val % 16, Nat.mod_lt _ (by norm_num)⟩ : Fin 16)) := by
  refine concatenate_replicate_apply (t := S5000x48) (s₁ := S5000x16) 1 3 g concatenates_S5000x16_S5000x16_S5000x16_S5000x48_d1 rfl
    (ix2 p q) (ix2 p (⟨q.val % 16, Nat.mod_lt _ (by norm_num)⟩ : Fin 16)) ?_ ?_
  · rfl
  · intro b hb
    match b with
    | ⟨0, _⟩ => rfl
    | ⟨1, _⟩ => exact absurd rfl hb

/-- The second payload at (p, q): the vector feature times the gate at wavelet q mod 16. -/
private theorem k1_pay2_apply (x0 x1 : Vec Ideal S5000x128 .f32) (x2 : Vec Ideal S5000x48 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) (p : Fin 5000) (q : Fin 48) :
    k1_pay2 (F := Ideal) x0 x1 x3 x4 x5 x6 x7 x8 x2 (ix2 p q)
      = x2 (ix2 p q) * Spec.gateRow (Spec.matOf x7) (Spec.vecOf x8) (Spec.resMlp (Spec.matOf x3) (Spec.vecOf x4) (Spec.matOf x5) (Spec.vecOf x6) (Spec.rowOf x0 p) (Spec.rowOf x1 p)) ⟨q.val % 16, Nat.mod_lt _ (by norm_num)⟩ := by
  unfold k1_pay2
  simp only [mulf_apply, shapeCast_self]
  rw [concat3_apply, gate_apply]

/-- Output window 10 (the gated vector features, flattened) at entry (p, q) of a block. -/
theorem out1_10_apply (x0 x1 : Vec Ideal S5000x128 .f32) (x2 : Vec Ideal S5000x48 .f32) (x3 : Vec Ideal S128x128 .f32) (x4 : Vec Ideal S128 .f32) (x5 : Vec Ideal S128x128 .f32) (x6 : Vec Ideal S128 .f32) (x7 : Vec Ideal S128x16 .f32) (x8 : Vec Ideal S16 .f32) (p : Fin 5000) (q : Fin 48) :
    out1_10 (F := Ideal) x0 x1 x2 x3 x4 x5 x6 x7 x8 (ix2 p q)
      = x2 (ix2 p q) * Spec.gateRow (Spec.matOf x7) (Spec.vecOf x8) (Spec.resMlp (Spec.matOf x3) (Spec.vecOf x4) (Spec.matOf x5) (Spec.vecOf x6) (Spec.rowOf x0 p) (Spec.rowOf x1 p)) ⟨q.val % 16, Nat.mod_lt _ (by norm_num)⟩ := by
  rw [out1_10_eq, k1_pay2_apply]

end Cert.KernelIdeal.Val

end
-- ==== Proof.KArr1.lean ====
/-
  The two output arrays of the node region after its 10 grid points, as whole-array functions of the arrays the
  region finds: block t is rows 5000 t .. 5000 t + 4999 and the 10 blocks cover the 50000 rows.
-/
import proofs.«422732_j45208825757707_3_alg».proof.Proof.Gen.KernelIdeal.Frame
import proofs.«422732_j45208825757707_3_alg».proof.Proof.Spec
import proofs.«422732_j45208825757707_3_alg».proof.Proof.KPay1
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators
variable (V : (c : Dev nD) → (b : Ref sig .tc) → Buf (Elt Ideal) ((c : Thread nD τ).loc b))

/-- The printed index maps over the 10 points: the blocked windows sit at block t of the rows and block 0 of the columns. -/
private theorem node_idx : ∀ t : Fin cfg1.N,
    win1_9.index t (0 : Fin 2) = t.val ∧ win1_9.index t (1 : Fin 2) = 0
    ∧ win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The weight windows sit at block 0 on every axis, at every point. -/
private theorem node_weight_idx : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Row p of block t of the node features is row 5000 t + p of the array. -/
private theorem nodes_blk0 (c : Dev nD) (t : Fin cfg1.N) (p : Fin 5000) (k : Fin 128) (r : Fin 50000)
    (hr : r.val = 5000 * t.val + p.val) :
    (iblk1 V c 0 t : Vec Ideal S5000x128 .f32) (ix2 p k) = (V c main_arg0 : S50000x128.Idx → EReal) (ix2 r k) := by
  obtain ⟨-, -, -, -, e0, e1, -⟩ := node_idx t
  unfold iblk1
  rw [View.read_apply]
  show V c main_arg0 _ = V c main_arg0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of block t of the scattered sums is row 5000 t + p of the array. -/
private theorem nodes_blk1 (c : Dev nD) (t : Fin cfg1.N) (p : Fin 5000) (k : Fin 128) (r : Fin 50000)
    (hr : r.val = 5000 * t.val + p.val) :
    (iblk1 V c 1 t : Vec Ideal S5000x128 .f32) (ix2 p k) = (V c main_v11 : S50000x128.Idx → EReal) (ix2 r k) := by
  obtain ⟨-, -, -, -, -, -, e0, e1, -⟩ := node_idx t
  unfold iblk1
  rw [View.read_apply]
  show V c main_v11 _ = V c main_v11 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Entry (p, q) of block t of the flattened vector features is entry (5000 t + p, q) of the array. -/
private theorem nodes_blk2 (c : Dev nD) (t : Fin cfg1.N) (p : Fin 5000) (q : Fin 48) (k : S50000x48.Idx)
    (h0 : (k 0).val = 5000 * t.val + p.val) (h1 : (k 1).val = q.val) :
    (iblk1 V c 2 t : Vec Ideal S5000x48 .f32) (ix2 p q) = (V c main_v12 : S50000x48.Idx → EReal) k := by
  obtain ⟨-, -, -, -, -, -, -, -, e0, e1⟩ := node_idx t
  unfold iblk1
  rw [View.read_apply]
  show V c main_v12 _ = V c main_v12 _
  congr 1
  funext a
  apply Fin.ext
  match a with
  | ⟨0, _⟩ => show win1_2.index t (0 : Fin 2) * 5000 + 1 * p.val = (k 0).val; rw [e0, h0]; omega
  | ⟨1, _⟩ => show win1_2.index t (1 : Fin 2) * 48 + 1 * q.val = (k 1).val; rw [e1, h1]; omega

/-- A weight window's block is its whole array. -/
private theorem node_weight_blk3 (c : Dev nD) (t : Fin cfg1.N) :
    (iblk1 V c 3 t : Vec Ideal S128x128 .f32) = (V c main_arg10 : S128x128.Idx → EReal) := by
  obtain ⟨e0, e1, -⟩ := node_weight_idx t
  funext y
  unfold iblk1
  rw [View.read_apply]
  show V c main_arg10 _ = V c main_arg10 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

private theorem node_weight_blk4 (c : Dev nD) (t : Fin cfg1.N) :
    (iblk1 V c 4 t : Vec Ideal S128 .f32) = (V c main_arg11 : S128.Idx → EReal) := by
  obtain ⟨-, -, e0, -⟩ := node_weight_idx t
  funext y
  unfold iblk1
  rw [View.read_apply]
  show V c main_arg11 _ = V c main_arg11 y
  congr 1
  funext a
  apply Fin.ext
  match a with
  | ⟨0, _⟩ => show win1_4.index t (0 : Fin 1) * 128 + 1 * (y 0).val = (y 0).val; rw [e0]; omega

private theorem node_weight_blk5 (c : Dev nD) (t : Fin cfg1.N) :
    (iblk1 V c 5 t : Vec Ideal S128x128 .f32) = (V c main_arg12 : S128x128.Idx → EReal) := by
  obtain ⟨-, -, -, e0, e1, -⟩ := node_weight_idx t
  funext y
  unfold iblk1
  rw [View.read_apply]
  show V c main_arg12 _ = V c main_arg12 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

private theorem node_weight_blk6 (c : Dev nD) (t : Fin cfg1.N) :
    (iblk1 V c 6 t : Vec Ideal S128 .f32) = (V c main_arg13 : S128.Idx → EReal) := by
  obtain ⟨-, -, -, -, -, e0, -⟩ := node_weight_idx t
  funext y
  unfold iblk1
  rw [View.read_apply]
  show V c main_arg13 _ = V c main_arg13 y
  congr 1
  funext a
  apply Fin.ext
  match a with
  | ⟨0, _⟩ => show win1_6.index t (0 : Fin 1) * 128 + 1 * (y 0).val = (y 0).val; rw [e0]; omega

private theorem node_weight_blk7 (c : Dev nD) (t : Fin cfg1.N) :
    (iblk1 V c 7 t : Vec Ideal S128x16 .f32) = (V c main_arg18 : S128x16.Idx → EReal) := by
  obtain ⟨-, -, -, -, -, -, e0, e1, -⟩ := node_weight_idx t
  funext y
  unfold iblk1
  rw [View.read_apply]
  show V c main_arg18 _ = V c main_arg18 y
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 16 + 1 * (y 1).val = (y 1).val; rw [e1]; omega

private theorem node_weight_blk8 (c : Dev nD) (t : Fin cfg1.N) :
    (iblk1 V c 8 t : Vec Ideal S16 .f32) = (V c main_arg19 : S16.Idx → EReal) := by
  obtain ⟨-, -, -, -, -, -, -, -, e0⟩ := node_weight_idx t
  funext y
  unfold iblk1
  rw [View.read_apply]
  show V c main_arg19 _ = V c main_arg19 y
  congr 1
  funext a
  apply Fin.ext
  match a with
  | ⟨0, _⟩ => show win1_8.index t (0 : Fin 1) * 16 + 1 * (y 0).val = (y 0).val; rw [e0]; omega

/-- Where entry (p, j) of block t of the updated node features sits in the array: row 5000 t + p, column j. -/
private theorem out9_emb (t : Fin cfg1.N) (p : Fin 5000) (j : Fin 128) :
    ((((cfg1.win 9).blk t).view.emb (ix2 p j) : S50000x128.Idx) 0).val = 5000 * t.val + p.val
    ∧ ((((cfg1.win 9).blk t).view.emb (ix2 p j) : S50000x128.Idx) 1).val = j.val := by
  obtain ⟨e0, e1, -⟩ := node_idx t
  constructor
  · show win1_9.index t (0 : Fin 2) * 5000 + 1 * p.val = _; rw [e0]; omega
  · show win1_9.index t (1 : Fin 2) * 128 + 1 * j.val = _; rw [e1]; omega

/-- What point t writes back to the updated node features is block t of the whole-array function. -/
private theorem flushed9 (c : Dev nD) (t : Fin cfg1.N) :
    (dat1 (F := Ideal) V c).flushed 9 t = ((cfg1.win 9).blk t).view.read (Elt Ideal)
      (Spec.X2 (V c main_arg0) (V c main_v11) (V c main_arg10) (V c main_arg11) (V c main_arg12) (V c main_arg13)) := by
  show (cfg1.win 9).cut (grid1.coords t) ((dat1 V c).after 9 t) = _
  rw [after1_9]
  funext y
  obtain ⟨p, j, rfl⟩ : ∃ (p : Fin 5000) (j : Fin 128), y = ix2 p j := ⟨y 0, y 1, eq_ix2 y⟩
  rw [View.read_apply]
  obtain ⟨h0, h1⟩ := out9_emb t p j
  show out1_9 (F := Ideal) _ _ _ _ _ _ _ _ _ (ix2 p j)
    = Spec.resMlp _ _ _ _ (Spec.rowOf (V c main_arg0) ((((cfg1.win 9).blk t).view.emb (ix2 p j) : S50000x128.Idx) 0))
        (Spec.rowOf (V c main_v11) ((((cfg1.win 9).blk t).view.emb (ix2 p j) : S50000x128.Idx) 0))
        ((((cfg1.win 9).blk t).view.emb (ix2 p j) : S50000x128.Idx) 1)
  rw [out1_9_apply, node_weight_blk3, node_weight_blk4, node_weight_blk5, node_weight_blk6]
  have hx : Spec.rowOf (iblk1 V c 0 t : Vec Ideal S5000x128 .f32) p = Spec.rowOf (V c main_arg0 : S50000x128.Idx → EReal) ((((cfg1.win 9).blk t).view.emb (ix2 p j) : S50000x128.Idx) 0) :=
    funext fun k => nodes_blk0 V c t p k _ h0
  have hmi : Spec.rowOf (iblk1 V c 1 t : Vec Ideal S5000x128 .f32) p = Spec.rowOf (V c main_v11 : S50000x128.Idx → EReal) ((((cfg1.win 9).blk t).view.emb (ix2 p j) : S50000x128.Idx) 0) :=
    funext fun k => nodes_blk1 V c t p k _ h0
  have hj : ((((cfg1.win 9).blk t).view.emb (ix2 p j) : S50000x128.Idx) 1) = j := Fin.ext h1
  rw [hx, hmi, hj]

/-- An index of the array is in point t's block of window 9 iff each coordinate is in the block's range on its axis. -/
private theorem mem_blk9 (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v13_0).slice (win1_9.rect t)).set ↔ _
  rw [View.set_slice_whole, Rect.mem_set_unit]
  exact Iff.rfl

/-- Row r of the updated node features is written back by point r / 5000. -/
private theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, -⟩ := node_idx t
  refine ⟨t, flush1_9 t, ?_⟩
  rw [mem_blk9]
  intro a
  match a with
  | ⟨0, _⟩ => show win1_9.index t (0 : Fin 2) * 5000 ≤ (i 0).val ∧ (i 0).val < win1_9.index t (0 : Fin 2) * 5000 + 5000; rw [e0, ht]; omega
  | ⟨1, _⟩ => show win1_9.index t (1 : Fin 2) * 128 ≤ (i 1).val ∧ (i 1).val < win1_9.index t (1 : Fin 2) * 128 + 128; rw [e1]; omega

/-- The updated node features: window 9's array after the region. -/
theorem arr1_9 (c : Dev nD) :
    (dat1 (F := Ideal) V c).arrAt 9 cfg1.N
      = Spec.X2 (V c main_arg0) (V c main_v11) (V c main_arg10) (V c main_arg11) (V c main_arg12) (V c main_arg13) :=
  (dat1 (F := Ideal) V c).arrAt_eq_of_cover 9 _ (fun t _ => flushed9 V c t) cover9

/-- The gated vector features at an index, spelled out: the entry times the gate of its row at wavelet column mod 16. -/
private theorem gated_apply (Vf : (⟨2, ![50000, 48]⟩ : Shape).Idx → EReal) (x mi : (⟨2, ![50000, 128]⟩ : Shape).Idx → EReal)
    (nw1 : (⟨2, ![128, 128]⟩ : Shape).Idx → EReal) (nb1 : (⟨1, ![128]⟩ : Shape).Idx → EReal)
    (nw2 : (⟨2, ![128, 128]⟩ : Shape).Idx → EReal) (nb2 : (⟨1, ![128]⟩ : Shape).Idx → EReal)
    (gw : (⟨2, ![128, 16]⟩ : Shape).Idx → EReal) (gb : (⟨1, ![16]⟩ : Shape).Idx → EReal) (i : (⟨2, ![50000, 48]⟩ : Shape).Idx) :
    Spec.V2flat Vf x mi nw1 nb1 nw2 nb2 gw gb i
      = Vf i * Spec.gateRow (Spec.matOf gw) (Spec.vecOf gb)
          (Spec.resMlp (Spec.matOf nw1) (Spec.vecOf nb1) (Spec.matOf nw2) (Spec.vecOf nb2) (Spec.rowOf x (i 0)) (Spec.rowOf mi (i 0)))
          ⟨(i 1).val % 16, Nat.mod_lt _ (by norm_num)⟩ := rfl

/-- Where entry (p, q) of block t of the gated vector features sits in the array: row 5000 t + p, column q. -/
private theorem out10_emb (t : Fin cfg1.N) (p : Fin 5000) (q : Fin 48) :
    ((((cfg1.win 10).blk t).view.emb (ix2 p q) : S50000x48.Idx) 0).val = 5000 * t.val + p.val
    ∧ ((((cfg1.win 10).blk t).view.emb (ix2 p q) : S50000x48.Idx) 1).val = q.val := by
  obtain ⟨-, -, e0, e1, -⟩ := node_idx t
  constructor
  · show win1_10.index t (0 : Fin 2) * 5000 + 1 * p.val = _; rw [e0]; omega
  · show win1_10.index t (1 : Fin 2) * 48 + 1 * q.val = _; rw [e1]; omega

/-- What point t writes back to the gated vector features is block t of the whole-array function. -/
private theorem flushed10 (c : Dev nD) (t : Fin cfg1.N) :
    (dat1 (F := Ideal) V c).flushed 10 t = ((cfg1.win 10).blk t).view.read (Elt Ideal)
      (Spec.V2flat (V c main_v12) (V c main_arg0) (V c main_v11) (V c main_arg10) (V c main_arg11) (V c main_arg12) (V c main_arg13)
          (V c main_arg18) (V c main_arg19)) := by
  show (cfg1.win 10).cut (grid1.coords t) ((dat1 V c).after 10 t) = _
  rw [after1_10]
  funext y
  obtain ⟨p, q, rfl⟩ : ∃ (p : Fin 5000) (q : Fin 48), y = ix2 p q := ⟨y 0, y 1, eq_ix2 y⟩
  rw [View.read_apply]
  obtain ⟨h0, h1⟩ := out10_emb t p q
  show out1_10 (F := Ideal) _ _ _ _ _ _ _ _ _ (ix2 p q)
    = Spec.V2flat _ _ _ _ _ _ _ _ _ (((cfg1.win 10).blk t).view.emb (ix2 p q) : S50000x48.Idx)
  rw [gated_apply, out1_10_apply, node_weight_blk3, node_weight_blk4, node_weight_blk5, node_weight_blk6, node_weight_blk7, node_weight_blk8]
  have hx : Spec.rowOf (iblk1 V c 0 t : Vec Ideal S5000x128 .f32) p = Spec.rowOf (V c main_arg0 : S50000x128.Idx → EReal) ((((cfg1.win 10).blk t).view.emb (ix2 p q) : S50000x48.Idx) 0) :=
    funext fun k => nodes_blk0 V c t p k _ h0
  have hmi : Spec.rowOf (iblk1 V c 1 t : Vec Ideal S5000x128 .f32) p = Spec.rowOf (V c main_v11 : S50000x128.Idx → EReal) ((((cfg1.win 10).blk t).view.emb (ix2 p q) : S50000x48.Idx) 0) :=
    funext fun k => nodes_blk1 V c t p k _ h0
  have hv : (iblk1 V c 2 t : Vec Ideal S5000x48 .f32) (ix2 p q) = (V c main_v12 : S50000x48.Idx → EReal) (((cfg1.win 10).blk t).view.emb (ix2 p q) : S50000x48.Idx) :=
    nodes_blk2 V c t p q _ h0 h1
  have hq : ((((cfg1.win 10).blk t).view.emb (ix2 p q) : S50000x48.Idx) 1) = q := Fin.ext h1
  rw [hx, hmi, hv, hq]

/-- An index of the array is in point t's block of window 10 iff each coordinate is in the block's range on its axis. -/
private theorem mem_blk10 (t : Fin cfg1.N) (i : S50000x48.Idx) :
    i ∈ ((cfg1.win 10).blk t).view.set ↔ ∀ a : Fin 2, win1_10.index t a * S5000x48.size a ≤ (i a).val ∧ (i a).val < win1_10.index t a * S5000x48.size a + S5000x48.size a := by
  show i ∈ ((View.whole main_v13_1).slice (win1_10.rect t)).set ↔ _
  rw [View.set_slice_whole, Rect.mem_set_unit]
  exact Iff.rfl

/-- Row r of the gated vector features is written back by point r / 5000. -/
private theorem cover10 (i : S50000x48.Idx) :
    ∃ t : Fin cfg1.N, (cfg1.win 10).flush t = true ∧ i ∈ ((cfg1.win 10).blk t).view.set := by
  have hi0 : (i 0).val < 50000 := (i 0).isLt
  have hi1 : (i 1).val < 48 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, e0, e1, -⟩ := node_idx t
  refine ⟨t, flush1_10 t, ?_⟩
  rw [mem_blk10]
  intro a
  match a with
  | ⟨0, _⟩ => show win1_10.index t (0 : Fin 2) * 5000 ≤ (i 0).val ∧ (i 0).val < win1_10.index t (0 : Fin 2) * 5000 + 5000; rw [e0, ht]; omega
  | ⟨1, _⟩ => show win1_10.index t (1 : Fin 2) * 48 ≤ (i 1).val ∧ (i 1).val < win1_10.index t (1 : Fin 2) * 48 + 48; rw [e1]; omega

/-- The gated vector features, flattened: window 10's array after the region. -/
theorem arr1_10 (c : Dev nD) :
    (dat1 (F := Ideal) V c).arrAt 10 cfg1.N
      = Spec.V2flat (V c main_v12) (V c main_arg0) (V c main_v11) (V c main_arg10) (V c main_arg11) (V c main_arg12) (V c main_arg13)
          (V c main_arg18) (V c main_arg19) :=
  (dat1 (F := Ideal) V c).arrAt_eq_of_cover 10 _ (fun t _ => flushed10 V c t) cover10

end Cert.KernelIdeal.Val

end
-- ==== Proof.LibGather3.lean ====
/-
  A gather of slabs, read at an index.

  The gather y[r, a, b] = x[idx[r], a, b] of an operand x : [N, A, B] at a column of start indices idx : [R, 1]
  (the first axis collapsed, the other two kept whole as offset axes): result element (r, a, b) is x at row idx[r, 0],
  that word read as a signed integer and clamped into [0, N - 1], and the same a and b.
-/
import Idealize.ShloMosaic.PureOps
import Idealize.ShloMosaic.Lib.ValueIdx

namespace Idealize.ShloMosaic.HostIdx3

open Idealize.ShloMosaic Idealize.ShloMosaic.ValueIdx

/-- THE SLAB GATHER READ AT (r, a, b): the operand at row idx[r, 0], read signed and clamped into [0, N - 1], and
    the same two inner coordinates. -/
theorem gather_slabs_apply {α : Type} {N R A B w : Nat} (hN : 0 < N)
    (d : GatherDims ⟨3, ![N, A, B]⟩ ⟨2, ![R, 1]⟩ ⟨3, ![R, A, B]⟩)
    (hod : d.offsetDims = [1, 2]) (hcd : d.collapsedSliceDims = [0]) (hob : d.operandBatchingDims = [])
    (hsb : d.startIndicesBatchingDims = []) (hsim : d.startIndexMap = [0]) (hiv : d.indexVectorDim = 1)
    (hss : d.sliceSizes = ![1, A, B])
    (x : (⟨3, ![N, A, B]⟩ : Shape).Idx → α) (idx : IVec ⟨2, ![R, 1]⟩ w) (r : Fin R) (a : Fin A) (b : Fin B) :
    Host.gather d x idx (ix3 r a b)
      = x (ix3 ⟨min (idx (ix2 r (0 : Fin 1))).toInt.toNat (N - 1), by omega⟩ a b) := by
  obtain ⟨od, cd, ob, sb, sim, iv, ss, wf⟩ := d
  dsimp only at hod hcd hob hsb hsim hiv hss
  subst hod hcd hob hsb hsim hiv hss
  unfold Host.gather
  congr 1
  funext c
  refine Fin.ext ?_
  match c with
  | ⟨0, _⟩ =>
    -- the collapsed axis: the clamped start index, no batching coordinate, no offset
    show GatherDims.start _ (ix3 r a b) idx 0 + GatherDims.batchCoord _ (ix3 r a b) 0
      + GatherDims.offCoord _ (ix3 r a b) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨3, ![N, A, B]⟩) (si := ⟨2, ![R, 1]⟩) (t := ⟨3, ![R, A, B]⟩)
        ⟨[1, 2], [0], [], [], [0], 1, ![1, A, B], wf⟩ (ix3 r a b)
        ⟨List.idxOf (0 : Fin 3) [0], List.idxOf_lt_length_iff.2 (List.mem_singleton.mpr rfl)⟩
          = ix2 r (0 : Fin 1) := by
      funext e; refine Fin.ext ?_
      match e with
      | ⟨0, _⟩ => rfl
      | ⟨1, _⟩ => rfl
    rw [hsi]
    rfl
  | ⟨1, _⟩ =>
    -- the first kept axis: start 0, no batching coordinate, the offset is the result's second coordinate
    show GatherDims.start _ (ix3 r a b) idx 1 + GatherDims.batchCoord _ (ix3 r a b) 1
      + GatherDims.offCoord _ (ix3 r a b) 1 = _
    rw [GatherDims.batchCoord_eq_zero _ _ _ List.not_mem_nil]
    unfold GatherDims.start
    rw [dif_neg (show (1 : Fin 3) ∉ ([0] : List (Fin 3)) by decide)]
    simp only [Nat.add_zero, Nat.zero_add]
    unfold GatherDims.offCoord
    rw [dif_pos ((GatherDims.mem_sKept _ _).mpr ⟨show (1 : Fin 3) ∉ ([0] : List (Fin 3)) by decide, List.not_mem_nil⟩)]
    rfl
  | ⟨2, _⟩ =>
    -- the second kept axis: start 0, no batching coordinate, the offset is the result's third coordinate
    show GatherDims.start _ (ix3 r a b) idx 2 + GatherDims.batchCoord _ (ix3 r a b) 2
      + GatherDims.offCoord _ (ix3 r a b) 2 = _
    rw [GatherDims.batchCoord_eq_zero _ _ _ List.not_mem_nil]
    unfold GatherDims.start
    rw [dif_neg (show (2 : Fin 3) ∉ ([0] : List (Fin 3)) by decide)]
    simp only [Nat.add_zero, Nat.zero_add]
    unfold GatherDims.offCoord
    rw [dif_pos ((GatherDims.mem_sKept _ _).mpr ⟨show (2 : Fin 3) ∉ ([0] : List (Fin 3)) by decide, List.not_mem_nil⟩)]
    rfl

end Idealize.ShloMosaic.HostIdx3
-- ==== Proof.KTake.lean ====
/-
  What the edge region finds in its two gathered inputs.  Before the region the program takes, for the source and for
  the target of every edge, the 3 x 16 vector features of that node: it wraps a negative index by 50000, gathers the
  slab at the index clamped into range, replaces the slab by a fill value where the wrapped index lies outside
  [0, 49999], and lays the slab out as a row of 48 (row-major).  With every entry of edge_index a node number the wrap
  does nothing, no slab is replaced, and the row of 48 for edge e is the node's 3 x 16 features, component a wavelet w
  at column 16 a + w.  The source index vector itself (which the scatter-add after the region reads) is row 0 of
  edge_index.
-/
import proofs.«422732_j45208825757707_3_alg».proof.Proof.Gen.KernelIdeal.Frame
import proofs.«422732_j45208825757707_3_alg».proof.Proof.Spec
import proofs.«422732_j45208825757707_3_alg».proof.Proof.SpecIdx
import proofs.«422732_j45208825757707_3_alg».proof.Proof.LibGather3
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators
variable (m : (ℓ : Loc nD τ sig) → Buf (Elt Ideal) ℓ) (ρ : Dev nD → PrngReg)

/-! ## The take, as one function of the table and the index vector -/

/-- A negative index moved up by the table's length 50000. -/
private def wrapIdx (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- The wrapped indices as a column of start indices. -/
private def idxCol (idx : IVec S600000 32) : IVec S600000x1 32 :=
  broadcastInDim S600000x1 ![0] bcast_S600000_S600000x1_0 (wrapIdx idx)

/-- Whether the wrapped index lies in [0, 49999], edge by edge. -/
private def inMask (idx : IVec S600000 32) : IVec S600000 1 :=
  Host.reduce IntOp.andi
    (andi (cmpi .sge (idxCol idx) (broadcastInDim S600000x1 ![] bcast_S_S600000x1 (constantI S_ 32 0#32)))
      (cmpi .sle (idxCol idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The take: the gathered slabs, replaced by the fill value where the wrapped index is out of range. -/
private def takeSlab (V : FVec Ideal S50000x3x16 .f32) (idx : IVec S600000 32) : FVec Ideal S600000x3x16 .f32 :=
  select (broadcastInDim S600000x3x16 ![0] bcast_S600000_S600000x3x16_0 (inMask idx))
    (Host.gather gather_S50000x3x16_S600000x1_S600000x3x16_12_0_n_n_0_1_1316 V (idxCol idx))
    (broadcastInDim S600000x3x16 ![] bcast_S_S600000x3x16 (constant (F := Ideal) S_ .f32 0x7FC00000#32))

/-! ## What each stretch of host operations leaves -/

/-- The first stretch leaves row 0 of edge_index, as a vector, in the source index buffer. -/
private theorem after0_v1 (X : Valuation τ sig (Elt Ideal)) :
    StableHlo.after (hostOps0 (F := Ideal)) X (Proc.devRef .tc main_v1)
      = shapeCast S600000 (extractStridedSlice S1x600000 ![0, 0] (X (Proc.devRef .tc main_arg3)) slices_S2x600000_S1x600000_0_0) shapeCasts_S1x600000_S600000 := by
  simp only [hostOps0]
  after_results
  rfl

/-- The source take leaves the take of the table at the source index vector. -/
private theorem after1_v4 (X : Valuation τ sig (Elt Ideal)) :
    StableHlo.after (hostOps0_1 (F := Ideal)) X (Proc.devRef .tc main_v4)
      = takeSlab (X (Proc.devRef .tc main_arg2)) (X (Proc.devRef .tc main_v1)) := by
  simp only [hostOps0_1]
  after_results_simp
  simp only [StableHlo.TRef.toBuf, StableHlo.TRef.ofBuf, cast_eq]
  rfl

/-- The target take leaves the take of the table at the target index vector. -/
private theorem after3_v6 (X : Valuation τ sig (Elt Ideal)) :
    StableHlo.after (hostOps0_3 (F := Ideal)) X (Proc.devRef .tc main_v6)
      = takeSlab (X (Proc.devRef .tc main_arg2)) (X (Proc.devRef .tc main_v3)) := by
  simp only [hostOps0_3]
  after_results_simp
  simp only [StableHlo.TRef.toBuf, StableHlo.TRef.ofBuf, cast_eq]
  rfl

/-- The first stretch leaves row 1 of edge_index, as a vector, in the target index buffer. -/
private theorem after0_v3 (X : Valuation τ sig (Elt Ideal)) :
    StableHlo.after (hostOps0 (F := Ideal)) X (Proc.devRef .tc main_v3)
      = shapeCast S600000 (extractStridedSlice S1x600000 ![1, 0] (X (Proc.devRef .tc main_arg3)) slices_S2x600000_S1x600000_1_0) shapeCasts_S1x600000_S600000 := by
  simp only [hostOps0]
  after_results
  rfl

/-- The source slabs laid out as rows of 48. -/
private theorem after2_v5 (X : Valuation τ sig (Elt Ideal)) :
    StableHlo.after (hostOps0_2 (F := Ideal)) X (Proc.devRef .tc main_v5)
      = shapeCast S600000x48 (X (Proc.devRef .tc main_v4)) shapeCasts_S600000x3x16_S600000x48 := by
  simp only [hostOps0_2]
  after_results
  rfl

/-- The target slabs laid out as rows of 48. -/
private theorem after4_v7 (X : Valuation τ sig (Elt Ideal)) :
    StableHlo.after (hostOps0_4 (F := Ideal)) X (Proc.devRef .tc main_v7)
      = shapeCast S600000x48 (X (Proc.devRef .tc main_v6)) shapeCasts_S600000x3x16_S600000x48 := by
  simp only [hostOps0_4]
  after_results
  rfl

/-- A stretch leaves a buffer none of its operations writes. -/
local macro "no_write" : tactic => `(tactic| (
  refine StableHlo.after_of_forall_not_mem _ _ (List.forall_iff_forall_mem.mp ?_)
  simp only [hostOps0, hostOps0_1, hostOps0_2, hostOps0_3, hostOps0_4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

private theorem after4_v5 (X : Valuation τ sig (Elt Ideal)) :
    StableHlo.after (hostOps0_4 (F := Ideal)) X (Proc.devRef .tc main_v5) = X (Proc.devRef .tc main_v5) := by no_write
private theorem after3_v5 (X : Valuation τ sig (Elt Ideal)) :
    StableHlo.after (hostOps0_3 (F := Ideal)) X (Proc.devRef .tc main_v5) = X (Proc.devRef .tc main_v5) := by no_write
private theorem after0_arg2 (X : Valuation τ sig (Elt Ideal)) :
    StableHlo.after (hostOps0 (F := Ideal)) X (Proc.devRef .tc main_arg2) = X (Proc.devRef .tc main_arg2) := by no_write
private theorem after1_arg2 (X : Valuation τ sig (Elt Ideal)) :
    StableHlo.after (hostOps0_1 (F := Ideal)) X (Proc.devRef .tc main_arg2) = X (Proc.devRef .tc main_arg2) := by no_write
private theorem after2_arg2 (X : Valuation τ sig (Elt Ideal)) :
    StableHlo.after (hostOps0_2 (F := Ideal)) X (Proc.devRef .tc main_arg2) = X (Proc.devRef .tc main_arg2) := by no_write
private theorem after1_v3 (X : Valuation τ sig (Elt Ideal)) :
    StableHlo.after (hostOps0_1 (F := Ideal)) X (Proc.devRef .tc main_v3) = X (Proc.devRef .tc main_v3) := by no_write
private theorem after2_v3 (X : Valuation τ sig (Elt Ideal)) :
    StableHlo.after (hostOps0_2 (F := Ideal)) X (Proc.devRef .tc main_v3) = X (Proc.devRef .tc main_v3) := by no_write
private theorem after1_v1 (X : Valuation τ sig (Elt Ideal)) :
    StableHlo.after (hostOps0_1 (F := Ideal)) X (Proc.devRef .tc main_v1) = X (Proc.devRef .tc main_v1) := by no_write
private theorem after2_v1 (X : Valuation τ sig (Elt Ideal)) :
    StableHlo.after (hostOps0_2 (F := Ideal)) X (Proc.devRef .tc main_v1) = X (Proc.devRef .tc main_v1) := by no_write
private theorem after3_v1 (X : Valuation τ sig (Elt Ideal)) :
    StableHlo.after (hostOps0_3 (F := Ideal)) X (Proc.devRef .tc main_v1) = X (Proc.devRef .tc main_v1) := by no_write
private theorem after4_v1 (X : Valuation τ sig (Elt Ideal)) :
    StableHlo.after (hostOps0_4 (F := Ideal)) X (Proc.devRef .tc main_v1) = X (Proc.devRef .tc main_v1) := by no_write

/-! ## The two gathered inputs and the source index vector at the edge region's entry -/

/-- Row r of edge_index as a vector of 600000 words. -/
private abbrev rowVec (ei : IVec S2x600000 32) (o : Nat) (h : S2x600000.Slices ![o, 0] S1x600000) : IVec S600000 32 :=
  shapeCast S600000 (extractStridedSlice S1x600000 ![o, 0] ei h) shapeCasts_S1x600000_S600000

private theorem V5_v5_eq (c : Dev nD) :
    V5 (F := Ideal) m ρ c main_v5
      = shapeCast S600000x48 (takeSlab (m ((c.tc : Thread nD τ).loc main_arg2))
          (rowVec (m ((c.tc : Thread nD τ).loc main_arg3)) 0 slices_S2x600000_S1x600000_0_0)) shapeCasts_S600000x3x16_S600000x48 := by
  dsimp only [V5, W5, W4, W3, W2, W1]
  rw [after4_v5, after3_v5, after2_v5, after1_v4, after0_arg2, after0_v1]

private theorem V5_v7_eq (c : Dev nD) :
    V5 (F := Ideal) m ρ c main_v7
      = shapeCast S600000x48 (takeSlab (m ((c.tc : Thread nD τ).loc main_arg2))
          (rowVec (m ((c.tc : Thread nD τ).loc main_arg3)) 1 slices_S2x600000_S1x600000_1_0)) shapeCasts_S600000x3x16_S600000x48 := by
  dsimp only [V5, W5, W4, W3, W2, W1]
  rw [after4_v7, after3_v6, after2_arg2, after1_arg2, after0_arg2, after2_v3, after1_v3, after0_v3]

/-! ## Words: the three comparisons at a node number -/

private theorem cmpi_slt_zero {x : BitVec 32} (h : 0 ≤ x.toInt) : IntOp.cmpi .slt x 0#32 = 0#1 := by
  have h0 : (0#32 : BitVec 32).toInt = 0 := by decide
  have hb : x.slt 0#32 = false := by rw [BitVec.slt, h0]; exact decide_eq_false (by omega)
  show BitVec.ofBool (x.slt 0#32) = 0#1
  rw [hb]; rfl

private theorem cmpi_sge_zero {x : BitVec 32} (h : 0 ≤ x.toInt) : IntOp.cmpi .sge x 0#32 = 1#1 := by
  have h0 : (0#32 : BitVec 32).toInt = 0 := by decide
  have hb : (0#32 : BitVec 32).sle x = true := by rw [BitVec.sle, h0]; exact decide_eq_true h
  show BitVec.ofBool ((0#32 : BitVec 32).sle x) = 1#1
  rw [hb]; rfl

private theorem cmpi_sle_max {x : BitVec 32} (h : x.toInt < 50000) : IntOp.cmpi .sle x 49999#32 = 1#1 := by
  have h0 : (49999#32 : BitVec 32).toInt = 49999 := by decide
  have hb : x.sle 49999#32 = true := by rw [BitVec.sle, h0]; exact decide_eq_true (by omega)
  show BitVec.ofBool (x.sle 49999#32) = 1#1
  rw [hb]; rfl

/-- A left fold by and, from 1, over words that are all 1, is 1. -/
private theorem foldl_andi_one {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    have h1 : IntOp.andi 1#1 1#1 = 1#1 := by decide
    rw [hf a, h1]
    exact foldl_andi_one f hf l

/-! ## A vector of 600000 laid along the first axis -/

/-- A vector as a column [600000, 1] reads, at (e, u), the vector at e. -/
private theorem col_apply {α : Type} (g : S600000.Idx → α) (e : Fin 600000) (u : Fin 1) :
    broadcastInDim S600000x1 ![0] bcast_S600000_S600000x1_0 g (ix2 e u) = g (ix1 e) := by
  refine broadcastInDim_apply _ _ _ _ (ix1 e) ?_
  intro b
  match b with
  | ⟨0, _⟩ =>
    show e.val = if (600000 : Nat) = 1 then 0 else e.val
    rw [if_neg (by norm_num)]

/-- A vector repeated over [600000, 3, 16] reads, at (e, a, w), the vector at e. -/
private theorem slabs_of_vec_apply {α : Type} (g : S600000.Idx → α) (e : Fin 600000) (a : Fin 3) (w : Fin 16) :
    broadcastInDim S600000x3x16 ![0] bcast_S600000_S600000x3x16_0 g (ix3 e a w) = g (ix1 e) := by
  refine broadcastInDim_apply _ _ _ _ (ix1 e) ?_
  intro b
  match b with
  | ⟨0, _⟩ =>
    show e.val = if (600000 : Nat) = 1 then 0 else e.val
    rw [if_neg (by norm_num)]

/-! ## The take at an edge whose index is a node number -/

section Take
variable (idx : IVec S600000 32) (hidx : ∀ e : Fin 600000, 0 ≤ (idx (ix1 e)).toInt ∧ (idx (ix1 e)).toInt < 50000)
include hidx

/-- A node number is not wrapped. -/
private theorem wrapIdx_apply (e : Fin 600000) : wrapIdx idx (ix1 e) = idx (ix1 e) := by
  show Scalar.select (IntOp.cmpi .slt (idx (ix1 e)) 0#32) _ _ = _
  rw [cmpi_slt_zero (hidx e).1, select_zero]

omit hidx in
/-- The column of start indices at (e, 0) is the wrapped index of edge e. -/
private theorem idxCol_apply (e : Fin 600000) (u : Fin 1) : idxCol idx (ix2 e u) = wrapIdx idx (ix1 e) :=
  col_apply (wrapIdx idx) e u

/-- Both range tests pass at every entry of the column. -/
private theorem mask_entry (i : S600000x1.Idx) :
    andi (cmpi .sge (idxCol idx) (broadcastInDim S600000x1 ![] bcast_S_S600000x1 (constantI S_ 32 0#32)))
      (cmpi .sle (idxCol idx) (broadcastInDim S600000x1 ![0, 1] bcast_S1x1_S600000x1_0_1
        (broadcastInDim S1x1 ![1] bcast_S1_S1x1_1 (constantI S1 32 49999#32)))) i = 1#1 := by
  obtain ⟨e, u, rfl⟩ : ∃ (e : Fin 600000) (u : Fin 1), i = ix2 e u := ⟨i 0, i 1, eq_ix2 i⟩
  show IntOp.andi (IntOp.cmpi .sge (idxCol idx (ix2 e u)) 0#32) (IntOp.cmpi .sle (idxCol idx (ix2 e u)) 49999#32) = 1#1
  rw [idxCol_apply, wrapIdx_apply idx hidx e, cmpi_sge_zero (hidx e).1, cmpi_sle_max (hidx e).2]
  rfl

/-- So the mask is 1 at every edge. -/
private theorem inMask_apply (e : Fin 600000) : inMask idx (ix1 e) = 1#1 := by
  unfold inMask
  rw [Host.reduce_eq_foldl]
  exact foldl_andi_one _ (mask_entry idx hidx) _

/-- The take at (e, a, w): the table's slab at the node the index names. -/
private theorem takeSlab_apply (V : FVec Ideal S50000x3x16 .f32) (e : Fin 600000) (a : Fin 3) (w : Fin 16) :
    takeSlab V idx (ix3 e a w) = V (ix3 (Spec.clampNode (idx (ix1 e))) a w) := by
  unfold takeSlab
  rw [select_apply]
  have hm : broadcastInDim S600000x3x16 ![0] bcast_S600000_S600000x3x16_0 (inMask idx) (ix3 e a w) = 1#1 := by
    rw [slabs_of_vec_apply]
    exact inMask_apply idx hidx e
  rw [hm, select_one]
  rw [HostIdx3.gather_slabs_apply (by norm_num) gather_S50000x3x16_S600000x1_S600000x3x16_12_0_n_n_0_1_1316 rfl rfl rfl rfl rfl rfl rfl V (idxCol idx) e a w]
  have hx : idxCol idx (ix2 e (0 : Fin 1)) = idx (ix1 e) := by rw [idxCol_apply, wrapIdx_apply idx hidx e]
  simp only [hx]
  rfl

end Take

/-! ## The layouts -/

/-- A row of edge_index as a vector, at edge e. -/
private theorem rowVec_apply (ei : IVec S2x600000 32) (o : Nat) (r : Fin 2) (hr : r.val = o) (h : S2x600000.Slices ![o, 0] S1x600000) (e : Fin 600000) :
    rowVec ei o h (ix1 e) = ei (ix2 r e) := by
  show shapeCast S600000 (extractStridedSlice S1x600000 ![o, 0] ei h) shapeCasts_S1x600000_S600000 (ix1 e) = _
  rw [shapeCast_1a_a_apply]
  exact slice2_axis0_apply o ei h (0 : Fin 1) e r (by simp [hr])

/-- Slabs laid out as rows of 48, read at column 16 a + w: the slab's entry (a, w). -/
private theorem flat_apply (Y : FVec Ideal S600000x3x16 .f32) (e : Fin 600000) (a : Fin 3) (w : Fin 16) (hq : 16 * a.val + w.val < 48) :
    shapeCast S600000x48 Y shapeCasts_S600000x3x16_S600000x48 (ix2 e (⟨16 * a.val + w.val, hq⟩ : Fin 48)) = Y (ix3 e a w) := by
  refine shapeCast_apply Y _ _ _ ?_
  rw [Shape.rowMajor_val_three, Shape.rowMajor_val_two]
  show (e.val * 3 + a.val) * 16 + w.val = e.val * 48 + (16 * a.val + w.val)
  omega

/-- The gathered source features the edge region finds, edge by edge. -/
theorem V5_v5_slab (hpre : ∀ c : Dev nD, Spec.InRange (m ((c.tc : Thread nD τ).loc main_arg3))) (c : Dev nD) (e : Fin 600000) :
    Spec.slabOfFlat (V5 (F := Ideal) m ρ c main_v5) e
      = Spec.slabOf (m ((c.tc : Thread nD τ).loc main_arg2)) (Spec.nodeAt (m ((c.tc : Thread nD τ).loc main_arg3)) 0 e) := by
  have hidx : ∀ e : Fin 600000, 0 ≤ (rowVec (m ((c.tc : Thread nD τ).loc main_arg3)) 0 slices_S2x600000_S1x600000_0_0 (ix1 e)).toInt
      ∧ (rowVec (m ((c.tc : Thread nD τ).loc main_arg3)) 0 slices_S2x600000_S1x600000_0_0 (ix1 e)).toInt < 50000 := fun e => by
    rw [rowVec_apply _ 0 (0 : Fin 2) rfl]; exact hpre c 0 e
  funext a w
  show V5 (F := Ideal) m ρ c main_v5 (ix2 e ⟨16 * a.val + w.val, _⟩) = _
  rw [V5_v5_eq, flat_apply, takeSlab_apply _ hidx, rowVec_apply _ 0 (0 : Fin 2) rfl]
  rfl

/-- The gathered target features the edge region finds, edge by edge. -/
theorem V5_v7_slab (hpre : ∀ c : Dev nD, Spec.InRange (m ((c.tc : Thread nD τ).loc main_arg3))) (c : Dev nD) (e : Fin 600000) :
    Spec.slabOfFlat (V5 (F := Ideal) m ρ c main_v7) e
      = Spec.slabOf (m ((c.tc : Thread nD τ).loc main_arg2)) (Spec.nodeAt (m ((c.tc : Thread nD τ).loc main_arg3)) 1 e) := by
  have hidx : ∀ e : Fin 600000, 0 ≤ (rowVec (m ((c.tc : Thread nD τ).loc main_arg3)) 1 slices_S2x600000_S1x600000_1_0 (ix1 e)).toInt
      ∧ (rowVec (m ((c.tc : Thread nD τ).loc main_arg3)) 1 slices_S2x600000_S1x600000_1_0 (ix1 e)).toInt < 50000 := fun e => by
    rw [rowVec_apply _ 1 (1 : Fin 2) rfl]; exact hpre c 1 e
  funext a w
  show V5 (F := Ideal) m ρ c main_v7 (ix2 e ⟨16 * a.val + w.val, _⟩) = _
  rw [V5_v7_eq, flat_apply, takeSlab_apply _ hidx, rowVec_apply _ 1 (1 : Fin 2) rfl]
  rfl

/-- The source index vector at the edge region's entry: row 0 of edge_index, as a vector of 600000 words. -/
theorem W5_v1 (c : Dev nD) :
    W5 (F := Ideal) m ρ c (Proc.devRef .tc main_v1)
      = shapeCast S600000 (extractStridedSlice S1x600000 ![0, 0] (m ((c.tc : Thread nD τ).loc main_arg3)) slices_S2x600000_S1x600000_0_0) shapeCasts_S1x600000_S600000 := by
  dsimp only [W5, W4, W3, W2, W1]
  rw [after4_v1, after3_v1, after2_v1, after1_v1, after0_v1]

end Cert.KernelIdeal.Val

end
-- ==== Proof.KFlat.lean ====
/-
  The gated vector features, unflattened.  The node region gates the vector features laid out as rows of 48
  (component a, wavelet w at column 16 a + w; the gate of column q is the gate of wavelet q mod 16); reshaped back to
  [50000, 3, 16], entry (n, a, w) is V[n, a, w] times the gate of node n at wavelet w.
-/
import proofs.«422732_j45208825757707_3_alg».proof.Proof.Gen.KernelIdeal.Frame
import proofs.«422732_j45208825757707_3_alg».proof.Proof.Spec
import Idealize.ShloMosaic.Lib.Pipeline.Value
import Idealize.ShloMosaic.Lib.ValueLayout
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- Rows of 48 read as [N, 3, 16]: entry (n, a, w) is the flat entry (n, 16 a + w), the two having the same
    row-major position 48 n + 16 a + w. -/
private theorem unflat_apply {α : Type} {N : Nat} (y : (⟨2, ![N, 48]⟩ : Shape).Idx → α)
    (h : (⟨2, ![N, 48]⟩ : Shape).ShapeCasts ⟨3, ![N, 3, 16]⟩) (n : Fin N) (a : Fin 3) (w : Fin 16) :
    shapeCast ⟨3, ![N, 3, 16]⟩ y h (ix3 n a w) = y (ix2 n (⟨16 * a.val + w.val, by omega⟩ : Fin 48)) :=
  shapeCast_apply y h _ _ (by
    rw [Shape.rowMajor_val_two, Shape.rowMajor_val_three]
    show n.val * 48 + (16 * a.val + w.val) = (n.val * 3 + a.val) * 16 + w.val
    omega)

/-- An [N, 3, 16] array read as rows of 48: the flat entry (n, 16 a + w) is entry (n, a, w). -/
private theorem flat_apply {α : Type} {N : Nat} (V : (⟨3, ![N, 3, 16]⟩ : Shape).Idx → α)
    (h : (⟨3, ![N, 3, 16]⟩ : Shape).ShapeCasts ⟨2, ![N, 48]⟩) (n : Fin N) (a : Fin 3) (w : Fin 16) :
    shapeCast ⟨2, ![N, 48]⟩ V h (ix2 n (⟨16 * a.val + w.val, by omega⟩ : Fin 48)) = V (ix3 n a w) :=
  shapeCast_apply V h _ _ (by
    rw [Shape.rowMajor_val_two, Shape.rowMajor_val_three]
    show (n.val * 3 + a.val) * 16 + w.val = n.val * 48 + (16 * a.val + w.val)
    omega)

/-- Column 16 a + w of a row of 48 belongs to wavelet w. -/
private theorem wavelet_of_col (a : Fin 3) (w : Fin 16) :
    (⟨(16 * a.val + w.val) % 16, Nat.mod_lt _ (by norm_num)⟩ : Fin 16) = w :=
  Fin.ext (by show (16 * a.val + w.val) % 16 = w.val; omega)

/-- The flat gating of the flattened features, reshaped back, is the gating of the features. -/
theorem unflatten_V2 (V : FVec Ideal S50000x3x16 .f32) (x mi : FVec Ideal S50000x128 .f32) (nw1 : FVec Ideal S128x128 .f32) (nb1 : FVec Ideal S128 .f32)
    (nw2 : FVec Ideal S128x128 .f32) (nb2 : FVec Ideal S128 .f32) (gw : FVec Ideal S128x16 .f32) (gb : FVec Ideal S16 .f32) :
    shapeCast S50000x3x16 (Spec.V2flat (shapeCast S50000x48 V shapeCasts_S50000x3x16_S50000x48) x mi nw1 nb1 nw2 nb2 gw gb) shapeCasts_S50000x48_S50000x3x16
      = Spec.V2 V x mi nw1 nb1 nw2 nb2 gw gb := by
  funext i
  obtain ⟨n, a, w, rfl⟩ : ∃ (n : Fin 50000) (a : Fin 3) (w : Fin 16), i = ix3 n a w := ⟨i 0, i 1, i 2, eq_ix3 i⟩
  rw [unflat_apply]
  show shapeCast S50000x48 V shapeCasts_S50000x3x16_S50000x48 (ix2 n (⟨16 * a.val + w.val, by omega⟩ : Fin 48))
      * Spec.gate x mi nw1 nb1 nw2 nb2 gw gb n (⟨(16 * a.val + w.val) % 16, Nat.mod_lt _ (by norm_num)⟩ : Fin 16)
    = V (ix3 n a w) * Spec.gate x mi nw1 nb1 nw2 nb2 gw gb n w
  rw [flat_apply, wavelet_of_col]

end Cert.KernelIdeal.Val

end
-- ==== Proof.KValue.lean ====
/-
  What the kernel program's three results hold after its run, as functions of the argument arrays.

  The buffer contents at the boundaries of @main's stretches are a fold from the launch memory.  An argument's buffer is
  written by no host operation and by no region, so it is found as launched at both regions.  The edge region leaves
  the updated edge features and the weighted messages (the specification's functions of the edge features, the weights
  and the gathered vector features, which under the precondition are the features of each edge's two end nodes); the
  host then scatter-adds the weighted messages into the nodes at each edge's source, and flattens the vector features;
  the node region leaves the updated node features and the flat gated features; the host reshapes the latter back.
-/
import proofs.«422732_j45208825757707_3_alg».proof.Proof.Gen.KernelIdeal.Frame
import proofs.«422732_j45208825757707_3_alg».proof.Proof.Spec
import proofs.«422732_j45208825757707_3_alg».proof.Proof.SpecIdx
import proofs.«422732_j45208825757707_3_alg».proof.Proof.KArr0
import proofs.«422732_j45208825757707_3_alg».proof.Proof.KArr1
import proofs.«422732_j45208825757707_3_alg».proof.Proof.KTake
import proofs.«422732_j45208825757707_3_alg».proof.Proof.KFlat
import Idealize.ShloMosaic.Lib.StableHlo.Run
set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators
open Idealize.ShloMosaic.StableHlo

variable (m : (ℓ : Loc nD τ sig) → Buf (Elt Ideal) ℓ) (ρ : Dev nD → PrngReg)

/-- No operation of the listed stretches writes the literal buffer in the goal. -/
local macro "nw" : tactic => `(tactic| (
  refine List.forall_iff_forall_mem.mp ?_
  simp only [hostOps0, hostOps0_1, hostOps0_2, hostOps0_3, hostOps0_4, hostOps1, hostOps2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- A buffer none of the five stretches before the edge region writes is found there as launched. -/
theorem W5_keep (c : Dev nD) (b : Ref sig .tc) (h0 : ∀ op ∈ (hostOps0 : List (HloOp τ sig (Elt Ideal))), (Proc.devRef .tc b : DevRef τ sig) ∉ op.writes) (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) (h3 : ∀ op ∈ (hostOps0_3 : List (HloOp τ sig (Elt Ideal))), (Proc.devRef .tc b : DevRef τ sig) ∉ op.writes) (h4 : ∀ op ∈ (hostOps0_4 : List (HloOp τ sig (Elt Ideal))), (Proc.devRef .tc b : DevRef τ sig) ∉ op.writes) :
    W5 (F := Ideal) m ρ c (Proc.devRef .tc b) = m ((c : Thread nD τ).loc b) :=
  calc W5 (F := Ideal) m ρ c (Proc.devRef .tc b)
    _ = W4 m ρ c (Proc.devRef .tc b) := StableHlo.after_of_forall_not_mem (b := Proc.devRef .tc b) _ _ h4
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

theorem V5_arg1 (c : Dev nD) : V5 (F := Ideal) m ρ c main_arg1 = m ((c : Thread nD τ).loc main_arg1) :=
  W5_keep m ρ c main_arg1 (by nw) (by nw) (by nw) (by nw) (by nw)
theorem V5_arg4 (c : Dev nD) : V5 (F := Ideal) m ρ c main_arg4 = m ((c : Thread nD τ).loc main_arg4) :=
  W5_keep m ρ c main_arg4 (by nw) (by nw) (by nw) (by nw) (by nw)
theorem V5_arg5 (c : Dev nD) : V5 (F := Ideal) m ρ c main_arg5 = m ((c : Thread nD τ).loc main_arg5) :=
  W5_keep m ρ c main_arg5 (by nw) (by nw) (by nw) (by nw) (by nw)
theorem V5_arg6 (c : Dev nD) : V5 (F := Ideal) m ρ c main_arg6 = m ((c : Thread nD τ).loc main_arg6) :=
  W5_keep m ρ c main_arg6 (by nw) (by nw) (by nw) (by nw) (by nw)
theorem V5_arg7 (c : Dev nD) : V5 (F := Ideal) m ρ c main_arg7 = m ((c : Thread nD τ).loc main_arg7) :=
  W5_keep m ρ c main_arg7 (by nw) (by nw) (by nw) (by nw) (by nw)
theorem V5_arg8 (c : Dev nD) : V5 (F := Ideal) m ρ c main_arg8 = m ((c : Thread nD τ).loc main_arg8) :=
  W5_keep m ρ c main_arg8 (by nw) (by nw) (by nw) (by nw) (by nw)
theorem V5_arg9 (c : Dev nD) : V5 (F := Ideal) m ρ c main_arg9 = m ((c : Thread nD τ).loc main_arg9) :=
  W5_keep m ρ c main_arg9 (by nw) (by nw) (by nw) (by nw) (by nw)
theorem V5_arg14 (c : Dev nD) : V5 (F := Ideal) m ρ c main_arg14 = m ((c : Thread nD τ).loc main_arg14) :=
  W5_keep m ρ c main_arg14 (by nw) (by nw) (by nw) (by nw) (by nw)
theorem V5_arg15 (c : Dev nD) : V5 (F := Ideal) m ρ c main_arg15 = m ((c : Thread nD τ).loc main_arg15) :=
  W5_keep m ρ c main_arg15 (by nw) (by nw) (by nw) (by nw) (by nw)
theorem V5_arg16 (c : Dev nD) : V5 (F := Ideal) m ρ c main_arg16 = m ((c : Thread nD τ).loc main_arg16) :=
  W5_keep m ρ c main_arg16 (by nw) (by nw) (by nw) (by nw) (by nw)
theorem V5_arg17 (c : Dev nD) : V5 (F := Ideal) m ρ c main_arg17 = m ((c : Thread nD τ).loc main_arg17) :=
  W5_keep m ρ c main_arg17 (by nw) (by nw) (by nw) (by nw) (by nw)
theorem V5_arg2 (c : Dev nD) : V5 (F := Ideal) m ρ c main_arg2 = m ((c : Thread nD τ).loc main_arg2) :=
  W5_keep m ρ c main_arg2 (by nw) (by nw) (by nw) (by nw) (by nw)

/-- A buffer that is no array of the edge region, and that no stretch up to the node region writes, is found at the
    node region as launched. -/
theorem W7_keep (c : Dev nD) (b : Ref sig .tc) (hb : ∀ w, Pipeline.arrRef spec0 w ≠ b) (h0 : ∀ op ∈ (hostOps0 : List (HloOp τ sig (Elt Ideal))), (Proc.devRef .tc b : DevRef τ sig) ∉ op.writes) (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) (h3 : ∀ op ∈ (hostOps0_3 : List (HloOp τ sig (Elt Ideal))), (Proc.devRef .tc b : DevRef τ sig) ∉ op.writes) (h4 : ∀ op ∈ (hostOps0_4 : List (HloOp τ sig (Elt Ideal))), (Proc.devRef .tc b : DevRef τ sig) ∉ op.writes) (h5 : ∀ op ∈ (hostOps1 : List (HloOp τ sig (Elt Ideal))), (Proc.devRef .tc b : DevRef τ sig) ∉ op.writes) :
    W7 (F := Ideal) m ρ c (Proc.devRef .tc b) = m ((c : Thread nD τ).loc b) :=
  calc W7 (F := Ideal) m ρ c (Proc.devRef .tc b)
    _ = W6 m ρ c (Proc.devRef .tc b) := StableHlo.after_of_forall_not_mem (b := Proc.devRef .tc b) _ _ h5
    _ = W5 m ρ c (Proc.devRef .tc b) := W6_of_ne m ρ c b hb
    _ = m ((c : Thread nD τ).loc b) := W5_keep m ρ c b h0 h1 h2 h3 h4

theorem V7_arg0 (c : Dev nD) : V7 (F := Ideal) m ρ c main_arg0 = m ((c : Thread nD τ).loc main_arg0) :=
  W7_keep m ρ c main_arg0 (by decide) (by nw) (by nw) (by nw) (by nw) (by nw) (by nw)
theorem V7_arg10 (c : Dev nD) : V7 (F := Ideal) m ρ c main_arg10 = m ((c : Thread nD τ).loc main_arg10) :=
  W7_keep m ρ c main_arg10 (by decide) (by nw) (by nw) (by nw) (by nw) (by nw) (by nw)
theorem V7_arg11 (c : Dev nD) : V7 (F := Ideal) m ρ c main_arg11 = m ((c : Thread nD τ).loc main_arg11) :=
  W7_keep m ρ c main_arg11 (by decide) (by nw) (by nw) (by nw) (by nw) (by nw) (by nw)
theorem V7_arg12 (c : Dev nD) : V7 (F := Ideal) m ρ c main_arg12 = m ((c : Thread nD τ).loc main_arg12) :=
  W7_keep m ρ c main_arg12 (by decide) (by nw) (by nw) (by nw) (by nw) (by nw) (by nw)
theorem V7_arg13 (c : Dev nD) : V7 (F := Ideal) m ρ c main_arg13 = m ((c : Thread nD τ).loc main_arg13) :=
  W7_keep m ρ c main_arg13 (by decide) (by nw) (by nw) (by nw) (by nw) (by nw) (by nw)
theorem V7_arg18 (c : Dev nD) : V7 (F := Ideal) m ρ c main_arg18 = m ((c : Thread nD τ).loc main_arg18) :=
  W7_keep m ρ c main_arg18 (by decide) (by nw) (by nw) (by nw) (by nw) (by nw) (by nw)
theorem V7_arg19 (c : Dev nD) : V7 (F := Ideal) m ρ c main_arg19 = m ((c : Thread nD τ).loc main_arg19) :=
  W7_keep m ρ c main_arg19 (by decide) (by nw) (by nw) (by nw) (by nw) (by nw) (by nw)

/-! ## The edge region's outputs -/

/-- The updated edge features after the edge region. -/
theorem W6_v8_0 (c : Dev nD) :
    W6 (F := Ideal) m ρ c (Proc.devRef .tc main_v8_0) = Spec.M2 (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W6 (F := Ideal) m ρ c (Proc.devRef .tc main_v8_0) = (dat0 (V5 m ρ) c).arrAt 13 cfg0.N from W6_arr m ρ c 13,
    arr0_13 (V5 m ρ) c, V5_arg1 m ρ c, V5_arg4 m ρ c, V5_arg5 m ρ c, V5_arg6 m ρ c, V5_arg7 m ρ c, V5_arg8 m ρ c, V5_arg9 m ρ c]

/-- The weighted messages after the edge region, under the precondition on edge_index. -/
theorem W6_v8_1 (hpre : ∀ c : Dev nD, Spec.InRange (m ((c.tc : Thread nD τ).loc main_arg3))) (c : Dev nD) :
    W6 (F := Ideal) m ρ c (Proc.devRef .tc main_v8_1)
      = (Spec.Wt (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (fun e => Spec.slabOf (m ((c : Thread nD τ).loc main_arg2)) (Spec.nodeAt (m ((c : Thread nD τ).loc main_arg3)) 0 e)) (fun e => Spec.slabOf (m ((c : Thread nD τ).loc main_arg2)) (Spec.nodeAt (m ((c : Thread nD τ).loc main_arg3)) 1 e))
        (m ((c : Thread nD τ).loc main_arg14)) (m ((c : Thread nD τ).loc main_arg15)) (m ((c : Thread nD τ).loc main_arg16)) (m ((c : Thread nD τ).loc main_arg17))) := by
  rw [show W6 (F := Ideal) m ρ c (Proc.devRef .tc main_v8_1) = (dat0 (V5 m ρ) c).arrAt 14 cfg0.N from W6_arr m ρ c 14,
    arr0_14 (V5 m ρ) c, V5_arg1 m ρ c, V5_arg4 m ρ c, V5_arg5 m ρ c, V5_arg6 m ρ c, V5_arg7 m ρ c, V5_arg8 m ρ c, V5_arg9 m ρ c, V5_arg14 m ρ c, V5_arg15 m ρ c, V5_arg16 m ρ c, V5_arg17 m ρ c,
    show Spec.slabOfFlat (V5 (F := Ideal) m ρ c main_v5) = fun e => Spec.slabOf (m ((c : Thread nD τ).loc main_arg2)) (Spec.nodeAt (m ((c : Thread nD τ).loc main_arg3)) 0 e) from funext (V5_v5_slab m ρ hpre c),
    show Spec.slabOfFlat (V5 (F := Ideal) m ρ c main_v7) = fun e => Spec.slabOf (m ((c : Thread nD τ).loc main_arg2)) (Spec.nodeAt (m ((c : Thread nD τ).loc main_arg3)) 1 e) from funext (V5_v7_slab m ρ hpre c)]

/-! ## Between the regions -/

/-- The scattered sums: the weighted messages scatter-added into a zero array at each edge's source index. -/
def kMi (a3 : IVec S2x600000 32) (wt : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast S600000 (extractStridedSlice S1x600000 ![0, 0] a3 slices_S2x600000_S1x600000_0_0) shapeCasts_S1x600000_S600000))
    wt

/-- The stretch between the regions, read at the scattered sums over any contents X at its start: a zero array, the
    source index column, and the scatter-add of X's weighted messages. -/
theorem after_hostOps1_v11 (X : Valuation τ sig (Elt Ideal)) :
    StableHlo.after hostOps1 X (Proc.devRef .tc main_v11)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (X (Proc.devRef .tc main_v1)))
          (X (Proc.devRef .tc main_v8_1)) := by
  simp only [hostOps1]
  after_results

/-- The same stretch read at the flattened vector features. -/
theorem after_hostOps1_v12 (X : Valuation τ sig (Elt Ideal)) :
    StableHlo.after hostOps1 X (Proc.devRef .tc main_v12)
      = shapeCast S50000x48 (X (Proc.devRef .tc main_arg2)) shapeCasts_S50000x3x16_S50000x48 := by
  simp only [hostOps1]
  after_results
  rfl

/-- The last stretch read at its result: the node region's flat output reshaped. -/
theorem after_hostOps2_v14 (X : Valuation τ sig (Elt Ideal)) :
    StableHlo.after hostOps2 X (Proc.devRef .tc main_v14)
      = shapeCast S50000x3x16 (X (Proc.devRef .tc main_v13_1)) shapeCasts_S50000x48_S50000x3x16 := by
  simp only [hostOps2]
  after_results
  rfl

/-- What the node region finds in its scattered-sum input. -/
theorem W7_v11 (c : Dev nD) :
    W7 (F := Ideal) m ρ c (Proc.devRef .tc main_v11) = kMi (m ((c : Thread nD τ).loc main_arg3)) (W6 m ρ c (Proc.devRef .tc main_v8_1)) := by
  have hv1 := (W6_of_ne (F := Ideal) m ρ c main_v1 (by decide)).trans (W5_v1 m ρ c)
  have h := after_hostOps1_v11 (W6 (F := Ideal) m ρ c)
  rw [hv1] at h
  exact h

/-- What the node region finds in its flattened vector features. -/
theorem W7_v12 (c : Dev nD) :
    W7 (F := Ideal) m ρ c (Proc.devRef .tc main_v12) = shapeCast S50000x48 (m ((c : Thread nD τ).loc main_arg2)) shapeCasts_S50000x3x16_S50000x48 := by
  have ha2 : W6 (F := Ideal) m ρ c (Proc.devRef .tc main_arg2) = (m ((c : Thread nD τ).loc main_arg2)) := (W6_of_ne m ρ c main_arg2 (by decide)).trans (V5_arg2 m ρ c)
  have h := after_hostOps1_v12 (W6 (F := Ideal) m ρ c)
  rw [ha2] at h
  exact h

/-! ## The three results -/

/-- The updated edge features at the end. -/
theorem W9_v8_0 (c : Dev nD) :
    W9 (F := Ideal) m ρ c (Proc.devRef .tc main_v8_0) = Spec.M2 (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W9 (F := Ideal) m ρ c (Proc.devRef .tc main_v8_0)
    _ = W8 m ρ c (Proc.devRef .tc main_v8_0) := StableHlo.after_of_forall_not_mem (b := Proc.devRef .tc main_v8_0) _ _ (by nw)
    _ = W7 m ρ c (Proc.devRef .tc main_v8_0) := W8_of_ne m ρ c main_v8_0 (by decide)
    _ = W6 m ρ c (Proc.devRef .tc main_v8_0) := StableHlo.after_of_forall_not_mem (b := Proc.devRef .tc main_v8_0) _ _ (by nw)
    _ = _ := W6_v8_0 m ρ c

/-- The updated node features at the end, under the precondition on edge_index. -/
theorem W9_v13_0 (hpre : ∀ c : Dev nD, Spec.InRange (m ((c.tc : Thread nD τ).loc main_arg3))) (c : Dev nD) :
    W9 (F := Ideal) m ρ c (Proc.devRef .tc main_v13_0)
      = Spec.X2 (m ((c : Thread nD τ).loc main_arg0)) (kMi (m ((c : Thread nD τ).loc main_arg3)) (Spec.Wt (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (fun e => Spec.slabOf (m ((c : Thread nD τ).loc main_arg2)) (Spec.nodeAt (m ((c : Thread nD τ).loc main_arg3)) 0 e)) (fun e => Spec.slabOf (m ((c : Thread nD τ).loc main_arg2)) (Spec.nodeAt (m ((c : Thread nD τ).loc main_arg3)) 1 e))
        (m ((c : Thread nD τ).loc main_arg14)) (m ((c : Thread nD τ).loc main_arg15)) (m ((c : Thread nD τ).loc main_arg16)) (m ((c : Thread nD τ).loc main_arg17)))) (m ((c : Thread nD τ).loc main_arg10)) (m ((c : Thread nD τ).loc main_arg11)) (m ((c : Thread nD τ).loc main_arg12)) (m ((c : Thread nD τ).loc main_arg13)) := by
  have h8 : W9 (F := Ideal) m ρ c (Proc.devRef .tc main_v13_0) = W8 m ρ c (Proc.devRef .tc main_v13_0) :=
    StableHlo.after_of_forall_not_mem (b := Proc.devRef .tc main_v13_0) _ _ (by nw)
  rw [h8, show W8 (F := Ideal) m ρ c (Proc.devRef .tc main_v13_0) = (dat1 (V7 m ρ) c).arrAt 9 cfg1.N from W8_arr m ρ c 9,
    arr1_9 (V7 m ρ) c, V7_arg0 m ρ c, V7_arg10 m ρ c, V7_arg11 m ρ c, V7_arg12 m ρ c, V7_arg13 m ρ c,
    show V7 (F := Ideal) m ρ c main_v11 = _ from W7_v11 m ρ c, W6_v8_1 m ρ hpre c]

/-- The gated vector features at the end, under the precondition on edge_index. -/
theorem W9_v14 (hpre : ∀ c : Dev nD, Spec.InRange (m ((c.tc : Thread nD τ).loc main_arg3))) (c : Dev nD) :
    W9 (F := Ideal) m ρ c (Proc.devRef .tc main_v14)
      = Spec.V2 (m ((c : Thread nD τ).loc main_arg2)) (m ((c : Thread nD τ).loc main_arg0)) (kMi (m ((c : Thread nD τ).loc main_arg3)) (Spec.Wt (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (fun e => Spec.slabOf (m ((c : Thread nD τ).loc main_arg2)) (Spec.nodeAt (m ((c : Thread nD τ).loc main_arg3)) 0 e)) (fun e => Spec.slabOf (m ((c : Thread nD τ).loc main_arg2)) (Spec.nodeAt (m ((c : Thread nD τ).loc main_arg3)) 1 e))
        (m ((c : Thread nD τ).loc main_arg14)) (m ((c : Thread nD τ).loc main_arg15)) (m ((c : Thread nD τ).loc main_arg16)) (m ((c : Thread nD τ).loc main_arg17)))) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) := by
  have h9 : W9 (F := Ideal) m ρ c (Proc.devRef .tc main_v14)
      = shapeCast S50000x3x16 (W8 m ρ c (Proc.devRef .tc main_v13_1)) shapeCasts_S50000x48_S50000x3x16 :=
    after_hostOps2_v14 (W8 (F := Ideal) m ρ c)
  rw [h9, show W8 (F := Ideal) m ρ c (Proc.devRef .tc main_v13_1) = (dat1 (V7 m ρ) c).arrAt 10 cfg1.N from W8_arr m ρ c 10,
    arr1_10 (V7 m ρ) c, V7_arg0 m ρ c, V7_arg10 m ρ c, V7_arg11 m ρ c, V7_arg12 m ρ c, V7_arg13 m ρ c, V7_arg18 m ρ c, V7_arg19 m ρ c,
    show V7 (F := Ideal) m ρ c main_v11 = _ from W7_v11 m ρ c, show V7 (F := Ideal) m ρ c main_v12 = _ from W7_v12 m ρ c,
    W6_v8_1 m ρ hpre c, unflatten_V2]

end Cert.KernelIdeal.Val

end
-- ==== Proof.RefOps.lean ====
/-
  The reference program's @main as a straight line of its 161 host operations, in the three consecutive stretches
  it is printed in, every outlined function (the variance with its guard, the relus, the norm) written out at its call
  over that call's buffers; and, per stretch, that each operation touches TensorCore buffers only.
-/
import proofs.«422732_j45208825757707_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The first stretch: the layer norm of the edge features (mean, variance with its guard, rsqrt, scale and shift), the message
    perceptron with its residual, the two index rows with negative entries wrapped, the node norms and their two row gathers. -/
abbrev ops0 : List (HloOp τ sig (Elt F)) :=
  [
    StableHlo.nullary main_cst (constant S_ .f32 0x00000000#32),
    StableHlo.binary main_arg1 main_cst main_v0 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    StableHlo.unary main_v0 main_v1 (broadcastInDim S600000x1 ![0] bcast_S600000_S600000x1_0 : (⟨S600000, .f32⟩ : BufTy).Contents (Elt F) → (⟨S600000x1, .f32⟩ : BufTy).Contents (Elt F)),
    StableHlo.nullary main_cst_0 (constant S_ .f32 0x43000000#32),
    StableHlo.unary main_cst_0 main_v2 (broadcastInDim S600000x1 ![] bcast_S_S600000x1 : (⟨S_, .f32⟩ : BufTy).Contents (Elt F) → (⟨S600000x1, .f32⟩ : BufTy).Contents (Elt F)),
    StableHlo.binary main_v1 main_v2 main_v3 (Host.divf : (⟨S600000x1, .f32⟩ : BufTy).Contents (Elt F) → (⟨S600000x1, .f32⟩ : BufTy).Contents (Elt F) → (⟨S600000x1, .f32⟩ : BufTy).Contents (Elt F)),
    StableHlo.nullary main_c (constantI S_ 32 0#32),
    StableHlo.TRef.nullary main_call0.cst (constant S_ .f32 0x00000000#32),
    StableHlo.TRef.binary (.of main_arg1) main_call0.cst main_call0.v0 (fun x v => Host.reduceAdd x v reducesTo_S600000x128_S600000_d1 h_S_),
    StableHlo.TRef.unary main_call0.v0 main_call0.v1 (broadcastInDim S600000x1 ![0] bcast_S600000_S600000x1_0),
    StableHlo.TRef.nullary main_call0.cst_0 (constant S_ .f32 0x43000000#32),
    StableHlo.TRef.unary main_call0.cst_0 main_call0.v2 (broadcastInDim S600000x1 ![] bcast_S_S600000x1),
    StableHlo.TRef.binary main_call0.v1 main_call0.v2 main_call0.v3 Host.divf,
    StableHlo.TRef.unary main_call0.v3 main_call0.v4 (broadcastInDim S600000x128 ![0, 1] bcast_S600000x1_S600000x128_0_1),
    StableHlo.TRef.binary (.of main_arg1) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S600000x128_S600000_d1 h_S_),
    StableHlo.TRef.unary main_call0.v9 main_call0.v10 (broadcastInDim S600000x1 ![0] bcast_S600000_S600000x1_0),
    StableHlo.TRef.unary main_call0.v8 main_call0.v11 (broadcastInDim S600000x1 ![] bcast_S_S600000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S600000x1 ![] bcast_S_S600000x1),
    StableHlo.TRef.ternary main_call0.v13 main_call0.v12 main_call0.call0.v1 main_call0.call0.v2 (fun p a b => select (broadcastInDim S600000x1 ![] bcast_S_S600000x1 p) a b),
    StableHlo.unary main_v3 main_v5 (broadcastInDim S600000x128 ![0, 1] bcast_S600000x1_S600000x128_0_1 : (⟨S600000x1, .f32⟩ : BufTy).Contents (Elt F) → (⟨S600000x128, .f32⟩ : BufTy).Contents (Elt F)),
    StableHlo.binary main_arg1 main_v5 main_v6 (subf : (⟨S600000x128, .f32⟩ : BufTy).Contents (Elt F) → (⟨S600000x128, .f32⟩ : BufTy).Contents (Elt F) → (⟨S600000x128, .f32⟩ : BufTy).Contents (Elt F)),
    StableHlo.nullary main_cst_1 (constant S_ .f32 0x3727C5AC#32),
    StableHlo.unary main_cst_1 main_v7 (broadcastInDim S600000x1 ![] bcast_S_S600000x1 : (⟨S_, .f32⟩ : BufTy).Contents (Elt F) → (⟨S600000x1, .f32⟩ : BufTy).Contents (Elt F)),
    StableHlo.binary main_v4 main_v7 main_v8 (addf : (⟨S600000x1, .f32⟩ : BufTy).Contents (Elt F) → (⟨S600000x1, .f32⟩ : BufTy).Contents (Elt F) → (⟨S600000x1, .f32⟩ : BufTy).Contents (Elt F)),
    StableHlo.unary main_v8 main_v9 (Host.rsqrt : (⟨S600000x1, .f32⟩ : BufTy).Contents (Elt F) → (⟨S600000x1, .f32⟩ : BufTy).Contents (Elt F)),
    StableHlo.unary main_v9 main_v10 (broadcastInDim S600000x128 ![0, 1] bcast_S600000x1_S600000x128_0_1 : (⟨S600000x1, .f32⟩ : BufTy).Contents (Elt F) → (⟨S600000x128, .f32⟩ : BufTy).Contents (Elt F)),
    StableHlo.binary main_v6 main_v10 main_v11 (mulf : (⟨S600000x128, .f32⟩ : BufTy).Contents (Elt F) → (⟨S600000x128, .f32⟩ : BufTy).Contents (Elt F) → (⟨S600000x128, .f32⟩ : BufTy).Contents (Elt F)),
    StableHlo.unary main_arg4 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S600000x128 ![0, 1] bcast_S1x128_S600000x128_0_1 : (⟨S1x128, .f32⟩ : BufTy).Contents (Elt F) → (⟨S600000x128, .f32⟩ : BufTy).Contents (Elt F)),
    StableHlo.binary main_v11 main_v13 main_v14 (mulf : (⟨S600000x128, .f32⟩ : BufTy).Contents (Elt F) → (⟨S600000x128, .f32⟩ : BufTy).Contents (Elt F) → (⟨S600000x128, .f32⟩ : BufTy).Contents (Elt F)),
    StableHlo.unary main_arg5 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S600000x128 ![0, 1] bcast_S1x128_S600000x128_0_1 : (⟨S1x128, .f32⟩ : BufTy).Contents (Elt F) → (⟨S600000x128, .f32⟩ : BufTy).Contents (Elt F)),
    StableHlo.binary main_v14 main_v16 main_v17 (addf : (⟨S600000x128, .f32⟩ : BufTy).Contents (Elt F) → (⟨S600000x128, .f32⟩ : BufTy).Contents (Elt F) → (⟨S600000x128, .f32⟩ : BufTy).Contents (Elt F)),
    StableHlo.binary main_v17 main_arg6 main_v18 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg7 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S600000x128 ![0, 1] bcast_S1x128_S600000x128_0_1 : (⟨S1x128, .f32⟩ : BufTy).Contents (Elt F) → (⟨S600000x128, .f32⟩ : BufTy).Contents (Elt F)),
    StableHlo.binary main_v18 main_v20 main_v21 (addf : (⟨S600000x128, .f32⟩ : BufTy).Contents (Elt F) → (⟨S600000x128, .f32⟩ : BufTy).Contents (Elt F) → (⟨S600000x128, .f32⟩ : BufTy).Contents (Elt F)),
    StableHlo.TRef.nullary main_call1.cst (constant S_ .f32 0x00000000#32),
    StableHlo.TRef.unary main_call1.cst main_call1.v0 (broadcastInDim S600000x128 ![] bcast_S_S600000x128),
    StableHlo.TRef.binary (.of main_v21) main_call1.v0 main_call1.v1 maximumf,
    StableHlo.binary main_v22 main_arg8 main_v23 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.binary main_v17 main_v23 main_v24 (addf : (⟨S600000x128, .f32⟩ : BufTy).Contents (Elt F) → (⟨S600000x128, .f32⟩ : BufTy).Contents (Elt F) → (⟨S600000x128, .f32⟩ : BufTy).Contents (Elt F)),
    StableHlo.unary main_arg9 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S600000x128 ![0, 1] bcast_S1x128_S600000x128_0_1 : (⟨S1x128, .f32⟩ : BufTy).Contents (Elt F) → (⟨S600000x128, .f32⟩ : BufTy).Contents (Elt F)),
    StableHlo.binary main_v24 main_v26 main_v27 (addf : (⟨S600000x128, .f32⟩ : BufTy).Contents (Elt F) → (⟨S600000x128, .f32⟩ : BufTy).Contents (Elt F) → (⟨S600000x128, .f32⟩ : BufTy).Contents (Elt F)),
    StableHlo.unary main_arg3 main_v28 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v28 main_v29 rfl shapeCasts_S1x600000_S600000,
    StableHlo.unary main_arg3 main_v30 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v30 main_v31 rfl shapeCasts_S1x600000_S600000,
    StableHlo.TRef.binary (.of main_arg2) (.of main_arg2) main_call2.v0 mulf,
    StableHlo.TRef.nullary main_call2.cst (constant S_ .f32 0x00000000#32),
    StableHlo.TRef.binary main_call2.v0 main_call2.cst main_call2.v1 (fun x v => Host.reduceAdd x v reducesTo_S50000x3x16_S50000x16_d1 h_S_),
    StableHlo.TRef.unary main_call2.v1 main_call2.v2 Host.sqrt,
    StableHlo.nullary main_c_2 (constantI S_ 32 0#32),
    StableHlo.unary main_c_2 main_v33 (broadcastInDim S600000 ![] bcast_S_S600000 : (⟨S_, .i32⟩ : BufTy).Contents (Elt F) → (⟨S600000, .i32⟩ : BufTy).Contents (Elt F)),
    StableHlo.binary main_v29 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 50000#32),
    StableHlo.unary main_c_3 main_v35 (broadcastInDim S600000 ![] bcast_S_S600000 : (⟨S_, .i32⟩ : BufTy).Contents (Elt F) → (⟨S600000, .i32⟩ : BufTy).Contents (Elt F)),
    StableHlo.binary main_v29 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v29 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_v32 main_v38 main_v39 ((fun x i => Host.gather gather_S50000x16_S600000x1_S600000x16_1_0_n_n_0_1_116 x i) : (⟨S50000x16, .f32⟩ : BufTy).Contents (Elt F) → (⟨S600000x1, .i32⟩ : BufTy).Contents (Elt F) → (⟨S600000x16, .f32⟩ : BufTy).Contents (Elt F)),
    StableHlo.nullary main_c_4 (constantI S_ 32 0#32),
    StableHlo.unary main_c_4 main_v40 (broadcastInDim S600000 ![] bcast_S_S600000 : (⟨S_, .i32⟩ : BufTy).Contents (Elt F) → (⟨S600000, .i32⟩ : BufTy).Contents (Elt F)),
    StableHlo.binary main_v31 main_v40 main_v41 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v42 (broadcastInDim S600000 ![] bcast_S_S600000 : (⟨S_, .i32⟩ : BufTy).Contents (Elt F) → (⟨S600000, .i32⟩ : BufTy).Contents (Elt F)),
    StableHlo.binary main_v31 main_v42 main_v43 (addi : (⟨S600000, .i32⟩ : BufTy).Contents (Elt F) → (⟨S600000, .i32⟩ : BufTy).Contents (Elt F) → (⟨S600000, .i32⟩ : BufTy).Contents (Elt F)),
    StableHlo.ternary main_v41 main_v43 main_v31 main_v44 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v44 main_v45 (broadcastInDim S600000x1 ![0] bcast_S600000_S600000x1_0 : (⟨S600000, .i32⟩ : BufTy).Contents (Elt F) → (⟨S600000x1, .i32⟩ : BufTy).Contents (Elt F)),
    StableHlo.binary main_v32 main_v45 main_v46 ((fun x i => Host.gather gather_S50000x16_S600000x1_S600000x16_1_0_n_n_0_1_116 x i) : (⟨S50000x16, .f32⟩ : BufTy).Contents (Elt F) → (⟨S600000x1, .i32⟩ : BufTy).Contents (Elt F) → (⟨S600000x16, .f32⟩ : BufTy).Contents (Elt F)),
    StableHlo.nullary main_c_6 (constantI S_ 32 0#32),
    StableHlo.unary main_c_6 main_v47 (broadcastInDim S600000 ![] bcast_S_S600000 : (⟨S_, .i32⟩ : BufTy).Contents (Elt F) → (⟨S600000, .i32⟩ : BufTy).Contents (Elt F)),
    StableHlo.binary main_v29 main_v47 main_v48 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v49 (broadcastInDim S600000 ![] bcast_S_S600000 : (⟨S_, .i32⟩ : BufTy).Contents (Elt F) → (⟨S600000, .i32⟩ : BufTy).Contents (Elt F)) ]

/-- The second stretch: the two gathers of the vector features, their product summed over the three components, the cosine, the
    row of 48 invariants, the gate perceptron and its logistic, the weighting, the scatter-add into the nodes, the node perceptron
    with its residual, and the gate logits negated. -/
abbrev ops1 : List (HloOp τ sig (Elt F)) :=
  [
    StableHlo.binary main_v29 main_v49 main_v50 (addi : (⟨S600000, .i32⟩ : BufTy).Contents (Elt F) → (⟨S600000, .i32⟩ : BufTy).Contents (Elt F) → (⟨S600000, .i32⟩ : BufTy).Contents (Elt F)),
    StableHlo.ternary main_v48 main_v50 main_v29 main_v51 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v51 main_v52 (broadcastInDim S600000x1 ![0] bcast_S600000_S600000x1_0 : (⟨S600000, .i32⟩ : BufTy).Contents (Elt F) → (⟨S600000x1, .i32⟩ : BufTy).Contents (Elt F)),
    StableHlo.binary main_arg2 main_v52 main_v53 ((fun x i => Host.gather gather_S50000x3x16_S600000x1_S600000x3x16_12_0_n_n_0_1_1316 x i) : (⟨S50000x3x16, .f32⟩ : BufTy).Contents (Elt F) → (⟨S600000x1, .i32⟩ : BufTy).Contents (Elt F) → (⟨S600000x3x16, .f32⟩ : BufTy).Contents (Elt F)),
    StableHlo.nullary main_c_8 (constantI S_ 32 0#32),
    StableHlo.unary main_c_8 main_v54 (broadcastInDim S600000 ![] bcast_S_S600000 : (⟨S_, .i32⟩ : BufTy).Contents (Elt F) → (⟨S600000, .i32⟩ : BufTy).Contents (Elt F)),
    StableHlo.binary main_v31 main_v54 main_v55 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v56 (broadcastInDim S600000 ![] bcast_S_S600000 : (⟨S_, .i32⟩ : BufTy).Contents (Elt F) → (⟨S600000, .i32⟩ : BufTy).Contents (Elt F)),
    StableHlo.binary main_v31 main_v56 main_v57 (addi : (⟨S600000, .i32⟩ : BufTy).Contents (Elt F) → (⟨S600000, .i32⟩ : BufTy).Contents (Elt F) → (⟨S600000, .i32⟩ : BufTy).Contents (Elt F)),
    StableHlo.ternary main_v55 main_v57 main_v31 main_v58 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v58 main_v59 (broadcastInDim S600000x1 ![0] bcast_S600000_S600000x1_0 : (⟨S600000, .i32⟩ : BufTy).Contents (Elt F) → (⟨S600000x1, .i32⟩ : BufTy).Contents (Elt F)),
    StableHlo.binary main_arg2 main_v59 main_v60 ((fun x i => Host.gather gather_S50000x3x16_S600000x1_S600000x3x16_12_0_n_n_0_1_1316 x i) : (⟨S50000x3x16, .f32⟩ : BufTy).Contents (Elt F) → (⟨S600000x1, .i32⟩ : BufTy).Contents (Elt F) → (⟨S600000x3x16, .f32⟩ : BufTy).Contents (Elt F)),
    StableHlo.binary main_v53 main_v60 main_v61 (mulf : (⟨S600000x3x16, .f32⟩ : BufTy).Contents (Elt F) → (⟨S600000x3x16, .f32⟩ : BufTy).Contents (Elt F) → (⟨S600000x3x16, .f32⟩ : BufTy).Contents (Elt F)),
    StableHlo.nullary main_cst_10 (constant S_ .f32 0x00000000#32),
    StableHlo.binary main_v61 main_cst_10 main_v62 ((fun x v => Host.reduceAdd x v reducesTo_S600000x3x16_S600000x16_d1 h_S_) : (⟨S600000x3x16, .f32⟩ : BufTy).Contents (Elt F) → (⟨S_, .f32⟩ : BufTy).Contents (Elt F) → (⟨S600000x16, .f32⟩ : BufTy).Contents (Elt F)),
    StableHlo.binary main_v39 main_v46 main_v63 (mulf : (⟨S600000x16, .f32⟩ : BufTy).Contents (Elt F) → (⟨S600000x16, .f32⟩ : BufTy).Contents (Elt F) → (⟨S600000x16, .f32⟩ : BufTy).Contents (Elt F)),
    StableHlo.nullary main_cst_11 (constant S_ .f32 0x322BCC77#32),
    StableHlo.unary main_cst_11 main_v64 (broadcastInDim S600000x16 ![] bcast_S_S600000x16 : (⟨S_, .f32⟩ : BufTy).Contents (Elt F) → (⟨S600000x16, .f32⟩ : BufTy).Contents (Elt F)),
    StableHlo.binary main_v63 main_v64 main_v65 (addf : (⟨S600000x16, .f32⟩ : BufTy).Contents (Elt F) → (⟨S600000x16, .f32⟩ : BufTy).Contents (Elt F) → (⟨S600000x16, .f32⟩ : BufTy).Contents (Elt F)),
    StableHlo.binary main_v62 main_v65 main_v66 (Host.divf : (⟨S600000x16, .f32⟩ : BufTy).Contents (Elt F) → (⟨S600000x16, .f32⟩ : BufTy).Contents (Elt F) → (⟨S600000x16, .f32⟩ : BufTy).Contents (Elt F)),
    StableHlo.nary ![main_v39, main_v46, main_v66] main_v67 (fun u => concatenate S600000x48 1 [⟨S600000x16, u 0⟩, ⟨S600000x16, u 1⟩, ⟨S600000x16, u 2⟩] concatenates_S600000x16_S600000x16_S600000x16_S600000x48_d1),
    StableHlo.binary main_v67 main_arg14 main_v68 ((fun l r => Host.dotGeneral dot_S600000x48_S48x128_S600000x128_1_0_0_1_n_n none l r) : (⟨S600000x48, .f32⟩ : BufTy).Contents (Elt F) → (⟨S48x128, .f32⟩ : BufTy).Contents (Elt F) → (⟨S600000x128, .f32⟩ : BufTy).Contents (Elt F)),
    StableHlo.unary main_arg15 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S600000x128 ![0, 1] bcast_S1x128_S600000x128_0_1 : (⟨S1x128, .f32⟩ : BufTy).Contents (Elt F) → (⟨S600000x128, .f32⟩ : BufTy).Contents (Elt F)),
    StableHlo.binary main_v68 main_v70 main_v71 (addf : (⟨S600000x128, .f32⟩ : BufTy).Contents (Elt F) → (⟨S600000x128, .f32⟩ : BufTy).Contents (Elt F) → (⟨S600000x128, .f32⟩ : BufTy).Contents (Elt F)),
    StableHlo.TRef.nullary main_call3.cst (constant S_ .f32 0x00000000#32),
    StableHlo.TRef.unary main_call3.cst main_call3.v0 (broadcastInDim S600000x128 ![] bcast_S_S600000x128),
    StableHlo.TRef.binary (.of main_v71) main_call3.v0 main_call3.v1 maximumf,
    StableHlo.binary main_v72 main_arg16 main_v73 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    StableHlo.unary main_arg17 main_v74 (broadcastInDim S1x1 ![1] bcast_S1_S1x1_1 : (⟨S1, .f32⟩ : BufTy).Contents (Elt F) → (⟨S1x1, .f32⟩ : BufTy).Contents (Elt F)),
    StableHlo.unary main_v74 main_v75 (broadcastInDim S600000x1 ![0, 1] bcast_S1x1_S600000x1_0_1 : (⟨S1x1, .f32⟩ : BufTy).Contents (Elt F) → (⟨S600000x1, .f32⟩ : BufTy).Contents (Elt F)),
    StableHlo.binary main_v73 main_v75 main_v76 (addf : (⟨S600000x1, .f32⟩ : BufTy).Contents (Elt F) → (⟨S600000x1, .f32⟩ : BufTy).Contents (Elt F) → (⟨S600000x1, .f32⟩ : BufTy).Contents (Elt F)),
    StableHlo.unary main_v76 main_v77 (Host.negf : (⟨S600000x1, .f32⟩ : BufTy).Contents (Elt F) → (⟨S600000x1, .f32⟩ : BufTy).Contents (Elt F)),
    StableHlo.unary main_v77 main_v78 (Host.exp : (⟨S600000x1, .f32⟩ : BufTy).Contents (Elt F) → (⟨S600000x1, .f32⟩ : BufTy).Contents (Elt F)),
    StableHlo.nullary main_cst_12 (constant S_ .f32 0x3F800000#32),
    StableHlo.unary main_cst_12 main_v79 (broadcastInDim S600000x1 ![] bcast_S_S600000x1 : (⟨S_, .f32⟩ : BufTy).Contents (Elt F) → (⟨S600000x1, .f32⟩ : BufTy).Contents (Elt F)),
    StableHlo.binary main_v79 main_v78 main_v80 (addf : (⟨S600000x1, .f32⟩ : BufTy).Contents (Elt F) → (⟨S600000x1, .f32⟩ : BufTy).Contents (Elt F) → (⟨S600000x1, .f32⟩ : BufTy).Contents (Elt F)),
    StableHlo.nullary main_cst_13 (constant S_ .f32 0x3F800000#32),
    StableHlo.unary main_cst_13 main_v81 (broadcastInDim S600000x1 ![] bcast_S_S600000x1 : (⟨S_, .f32⟩ : BufTy).Contents (Elt F) → (⟨S600000x1, .f32⟩ : BufTy).Contents (Elt F)),
    StableHlo.binary main_v81 main_v80 main_v82 (Host.divf : (⟨S600000x1, .f32⟩ : BufTy).Contents (Elt F) → (⟨S600000x1, .f32⟩ : BufTy).Contents (Elt F) → (⟨S600000x1, .f32⟩ : BufTy).Contents (Elt F)),
    StableHlo.unary main_v82 main_v83 (broadcastInDim S600000x128 ![0, 1] bcast_S600000x1_S600000x128_0_1 : (⟨S600000x1, .f32⟩ : BufTy).Contents (Elt F) → (⟨S600000x128, .f32⟩ : BufTy).Contents (Elt F)),
    StableHlo.binary main_v27 main_v83 main_v84 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v85 (broadcastInDim S50000x128 ![] bcast_S_S50000x128 : (⟨S_, .f32⟩ : BufTy).Contents (Elt F) → (⟨S50000x128, .f32⟩ : BufTy).Contents (Elt F)),
    StableHlo.unary main_v29 main_v86 (broadcastInDim S600000x1 ![0] bcast_S600000_S600000x1_0 : (⟨S600000, .i32⟩ : BufTy).Contents (Elt F) → (⟨S600000x1, .i32⟩ : BufTy).Contents (Elt F)),
    StableHlo.ternary main_v85 main_v86 main_v84 main_v87 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v87 main_arg10 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg11 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v91) main_call4.v0 main_call4.v1 maximumf,
    StableHlo.binary main_v92 main_arg12 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_v93 main_v94 (addf : (⟨S50000x128, .f32⟩ : BufTy).Contents (Elt F) → (⟨S50000x128, .f32⟩ : BufTy).Contents (Elt F) → (⟨S50000x128, .f32⟩ : BufTy).Contents (Elt F)),
    StableHlo.unary main_arg13 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)),
    StableHlo.binary main_v97 main_arg18 main_v98 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg19 main_v99 (broadcastInDim S1x16 ![1] bcast_S16_S1x16_1 : (⟨S16, .f32⟩ : BufTy).Contents (Elt F) → (⟨S1x16, .f32⟩ : BufTy).Contents (Elt F)),
    StableHlo.unary main_v99 main_v100 (broadcastInDim S50000x16 ![0, 1] bcast_S1x16_S50000x16_0_1 : (⟨S1x16, .f32⟩ : BufTy).Contents (Elt F) → (⟨S50000x16, .f32⟩ : BufTy).Contents (Elt F)),
    StableHlo.binary main_v98 main_v100 main_v101 (addf : (⟨S50000x16, .f32⟩ : BufTy).Contents (Elt F) → (⟨S50000x16, .f32⟩ : BufTy).Contents (Elt F) → (⟨S50000x16, .f32⟩ : BufTy).Contents (Elt F)),
    StableHlo.unary main_v101 main_v102 (Host.negf : (⟨S50000x16, .f32⟩ : BufTy).Contents (Elt F) → (⟨S50000x16, .f32⟩ : BufTy).Contents (Elt F)) ]

/-- The third stretch: the logistic of the gate logits and the gating of the vector features. -/
abbrev ops2 : List (HloOp τ sig (Elt F)) :=
  [
    StableHlo.unary main_v102 main_v103 (Host.exp : (⟨S50000x16, .f32⟩ : BufTy).Contents (Elt F) → (⟨S50000x16, .f32⟩ : BufTy).Contents (Elt F)),
    StableHlo.nullary main_cst_15 (constant S_ .f32 0x3F800000#32),
    StableHlo.unary main_cst_15 main_v104 (broadcastInDim S50000x16 ![] bcast_S_S50000x16 : (⟨S_, .f32⟩ : BufTy).Contents (Elt F) → (⟨S50000x16, .f32⟩ : BufTy).Contents (Elt F)),
    StableHlo.binary main_v104 main_v103 main_v105 (addf : (⟨S50000x16, .f32⟩ : BufTy).Contents (Elt F) → (⟨S50000x16, .f32⟩ : BufTy).Contents (Elt F) → (⟨S50000x16, .f32⟩ : BufTy).Contents (Elt F)),
    StableHlo.nullary main_cst_16 (constant S_ .f32 0x3F800000#32),
    StableHlo.unary main_cst_16 main_v106 (broadcastInDim S50000x16 ![] bcast_S_S50000x16 : (⟨S_, .f32⟩ : BufTy).Contents (Elt F) → (⟨S50000x16, .f32⟩ : BufTy).Contents (Elt F)),
    StableHlo.binary main_v106 main_v105 main_v107 (Host.divf : (⟨S50000x16, .f32⟩ : BufTy).Contents (Elt F) → (⟨S50000x16, .f32⟩ : BufTy).Contents (Elt F) → (⟨S50000x16, .f32⟩ : BufTy).Contents (Elt F)),
    StableHlo.unary main_v107 main_v108 (broadcastInDim S50000x1x16 ![0, 2] bcast_S50000x16_S50000x1x16_0_2 : (⟨S50000x16, .f32⟩ : BufTy).Contents (Elt F) → (⟨S50000x1x16, .f32⟩ : BufTy).Contents (Elt F)),
    StableHlo.unary main_v108 main_v109 (broadcastInDim S50000x3x16 ![0, 1, 2] bcast_S50000x1x16_S50000x3x16_0_1_2 : (⟨S50000x1x16, .f32⟩ : BufTy).Contents (Elt F) → (⟨S50000x3x16, .f32⟩ : BufTy).Contents (Elt F)),
    StableHlo.binary main_arg2 main_v109 main_v110 (mulf : (⟨S50000x3x16, .f32⟩ : BufTy).Contents (Elt F) → (⟨S50000x3x16, .f32⟩ : BufTy).Contents (Elt F) → (⟨S50000x3x16, .f32⟩ : BufTy).Contents (Elt F)) ]

/-- @main's operations, in order. -/
abbrev ops : List (HloOp τ sig (Elt F)) := ops0 ++ (ops1 ++ ops2)

theorem ops0_sub : (ops0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., reshape_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem ops1_sub : (ops1 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., unary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., unary_bufs_sub .., binary_bufs_sub ..⟩

end Cert.ReferenceIdeal.RefOps

end
-- ==== Proof.RefRun.lean ====
/-
  The reference program runs as the straight line of its host operations: each of the three stretches @main is printed
  in is the sequence of its operations once every outlined function's body is opened at its call and the binds are
  reassociated, so @main is the sequence of all of them; and every weakly fair execution of such a straight line
  terminates, nothing faulting, with each buffer at the fold of the operations' results over the launch contents.
-/
import proofs.«422732_j45208825757707_3_alg».proof.Proof.RefOps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 8192 in
set_option maxHeartbeats 4000000 in
/-- The first stretch, with the variance (and the select inside it), the first relu and the norm opened at their calls. -/
theorem part0_eq (c : Dev nD) : main_part0 (F := F) c = seq ops0 := by
  simp only [main_part0, fn_var.body, fn_where.body, fn_relu.body, fn_norm.body, seq, bind_assoc, pure_bind]
  rfl

set_option maxRecDepth 8192 in
set_option maxHeartbeats 4000000 in
/-- The second stretch, with its two relus opened at their calls. -/
theorem part1_eq (c : Dev nD) : main_part1 (F := F) c = seq ops1 := by
  simp only [main_part1, fn_relu.body, fn_relu_0.body, seq, bind_assoc, pure_bind]
  rfl

set_option maxRecDepth 8192 in
/-- The third stretch. -/
theorem part2_eq (c : Dev nD) : main_part2 (F := F) c = seq ops2 := by
  simp only [main_part2, seq, bind_assoc, pure_bind]

/-- @main is that straight line: its three stretches in order. -/
theorem main_eq (c : Dev nD) : main (F := F) c = seq ops := by
  rw [show (ops : List (HloOp τ sig (Elt F))) = ops0 ++ (ops1 ++ ops2) from rfl, seq_append, seq_append,
    ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, List.forall_append.mpr ⟨ops1_sub, ops2_sub⟩⟩

/-- None of the operations leaves a buffer without contents. -/
theorem ops_fresh : ∀ op ∈ (ops : List (HloOp τ sig (Elt F))), op.fresh = ∅ := by
  intro op h
  simp only [ops, ops0, ops1, ops2, List.cons_append, List.nil_append, List.mem_cons, List.mem_nil_iff, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> rfl

/-- At the compiled mesh, from any memory with zero counters: every weakly fair execution of @main terminates, and every
    final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTerms.lean ====
/-
  The reference program's lines as pure terms: per named stage one definition, a chain of one binding per host operation of
  the stage, in the program's order, over the argument arrays and the stages it takes as given.
-/
import proofs.«422732_j45208825757707_3_alg».proof.Proof.Gen.ReferenceIdeal

noncomputable section

namespace Cert.ReferenceIdeal.RefTerms

open Cert.ReferenceIdeal Cert.ReferenceIdeal.Gen Idealize.ShloMosaic Idealize.ShloMosaic.TcCoe

variable {F : FTy → Type} [FloatOps F]

/-- The updated edge features: the layer norm of the edge features, then the message perceptron with its residual. -/
def tM2 (a1 : FVec F S600000x128 .f32) (a4 : FVec F S128 .f32) (a5 : FVec F S128 .f32) (a6 : FVec F S128x128 .f32) (a7 : FVec F S128 .f32) (a8 : FVec F S128x128 .f32) (a9 : FVec F S128 .f32) : FVec F S600000x128 .f32 :=
  have m_cst : FVec F S_ .f32 := (constant S_ .f32 0x00000000#32)
  have m_v0 : FVec F S600000 .f32 := ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)) a1 m_cst
  have m_v1 : FVec F S600000x1 .f32 := (broadcastInDim S600000x1 ![0] bcast_S600000_S600000x1_0 : (⟨S600000, .f32⟩ : BufTy).Contents (Elt F) → (⟨S600000x1, .f32⟩ : BufTy).Contents (Elt F)) m_v0
  have m_cst_0 : FVec F S_ .f32 := (constant S_ .f32 0x43000000#32)
  have m_v2 : FVec F S600000x1 .f32 := (broadcastInDim S600000x1 ![] bcast_S_S600000x1 : (⟨S_, .f32⟩ : BufTy).Contents (Elt F) → (⟨S600000x1, .f32⟩ : BufTy).Contents (Elt F)) m_cst_0
  have m_v3 : FVec F S600000x1 .f32 := (Host.divf : (⟨S600000x1, .f32⟩ : BufTy).Contents (Elt F) → (⟨S600000x1, .f32⟩ : BufTy).Contents (Elt F) → (⟨S600000x1, .f32⟩ : BufTy).Contents (Elt F)) m_v1 m_v2
  have m_c : IVec S_ 32 := (constantI S_ 32 0#32)
  have m_call0_cst : FVec F S_ .f32 := (constant S_ .f32 0x00000000#32)
  have m_call0_v0 : FVec F S600000 .f32 := (fun x v => Host.reduceAdd x v reducesTo_S600000x128_S600000_d1 h_S_) a1 m_call0_cst
  have m_call0_v1 : FVec F S600000x1 .f32 := (broadcastInDim S600000x1 ![0] bcast_S600000_S600000x1_0) m_call0_v0
  have m_call0_cst_0 : FVec F S_ .f32 := (constant S_ .f32 0x43000000#32)
  have m_call0_v2 : FVec F S600000x1 .f32 := (broadcastInDim S600000x1 ![] bcast_S_S600000x1) m_call0_cst_0
  have m_call0_v3 : FVec F S600000x1 .f32 := (Host.divf) m_call0_v1 m_call0_v2
  have m_call0_v4 : FVec F S600000x128 .f32 := (broadcastInDim S600000x128 ![0, 1] bcast_S600000x1_S600000x128_0_1) m_call0_v3
  have m_call0_v5 : FVec F S600000x128 .f32 := subf a1 m_call0_v4
  have m_call0_v6 : FVec F S600000x128 .f32 := mulf m_call0_v5 m_call0_v5
  have m_call0_v7 : FVec F S_ .f32 := (sitofp .f32) m_c
  have m_call0_cst_1 : FVec F S_ .f32 := (constant S_ .f32 0x43000000#32)
  have m_call0_v8 : FVec F S_ .f32 := subf m_call0_cst_1 m_call0_v7
  have m_call0_cst_2 : FVec F S_ .f32 := (constant S_ .f32 0x00000000#32)
  have m_call0_v9 : FVec F S600000 .f32 := (fun x v => Host.reduceAdd x v reducesTo_S600000x128_S600000_d1 h_S_) m_call0_v6 m_call0_cst_2
  have m_call0_v10 : FVec F S600000x1 .f32 := (broadcastInDim S600000x1 ![0] bcast_S600000_S600000x1_0) m_call0_v9
  have m_call0_v11 : FVec F S600000x1 .f32 := (broadcastInDim S600000x1 ![] bcast_S_S600000x1) m_call0_v8
  have m_call0_v12 : FVec F S600000x1 .f32 := (Host.divf) m_call0_v10 m_call0_v11
  have m_call0_cst_3 : FVec F S_ .f32 := (constant S_ .f32 0x00000000#32)
  have m_call0_v13 : IVec S_ 1 := (cmpf .ogt) m_call0_v8 m_call0_cst_3
  have m_call0_cst_4 : FVec F S_ .f32 := (constant S_ .f32 0x7FC00000#32)
  have m_call0_call0_v0 : FVec F S_ .f32 := id m_call0_cst_4
  have m_call0_call0_v1 : FVec F S600000x1 .f32 := (broadcastInDim S600000x1 ![] bcast_S_S600000x1) m_call0_call0_v0
  have m_v4 : FVec F S600000x1 .f32 := (fun p a b => select (broadcastInDim S600000x1 ![] bcast_S_S600000x1 p) a b) m_call0_v13 m_call0_v12 m_call0_call0_v1
  have m_v5 : FVec F S600000x128 .f32 := (broadcastInDim S600000x128 ![0, 1] bcast_S600000x1_S600000x128_0_1 : (⟨S600000x1, .f32⟩ : BufTy).Contents (Elt F) → (⟨S600000x128, .f32⟩ : BufTy).Contents (Elt F)) m_v3
  have m_v6 : FVec F S600000x128 .f32 := (subf : (⟨S600000x128, .f32⟩ : BufTy).Contents (Elt F) → (⟨S600000x128, .f32⟩ : BufTy).Contents (Elt F) → (⟨S600000x128, .f32⟩ : BufTy).Contents (Elt F)) a1 m_v5
  have m_cst_1 : FVec F S_ .f32 := (constant S_ .f32 0x3727C5AC#32)
  have m_v7 : FVec F S600000x1 .f32 := (broadcastInDim S600000x1 ![] bcast_S_S600000x1 : (⟨S_, .f32⟩ : BufTy).Contents (Elt F) → (⟨S600000x1, .f32⟩ : BufTy).Contents (Elt F)) m_cst_1
  have m_v8 : FVec F S600000x1 .f32 := (addf : (⟨S600000x1, .f32⟩ : BufTy).Contents (Elt F) → (⟨S600000x1, .f32⟩ : BufTy).Contents (Elt F) → (⟨S600000x1, .f32⟩ : BufTy).Contents (Elt F)) m_v4 m_v7
  have m_v9 : FVec F S600000x1 .f32 := (Host.rsqrt : (⟨S600000x1, .f32⟩ : BufTy).Contents (Elt F) → (⟨S600000x1, .f32⟩ : BufTy).Contents (Elt F)) m_v8
  have m_v10 : FVec F S600000x128 .f32 := (broadcastInDim S600000x128 ![0, 1] bcast_S600000x1_S600000x128_0_1 : (⟨S600000x1, .f32⟩ : BufTy).Contents (Elt F) → (⟨S600000x128, .f32⟩ : BufTy).Contents (Elt F)) m_v9
  have m_v11 : FVec F S600000x128 .f32 := (mulf : (⟨S600000x128, .f32⟩ : BufTy).Contents (Elt F) → (⟨S600000x128, .f32⟩ : BufTy).Contents (Elt F) → (⟨S600000x128, .f32⟩ : BufTy).Contents (Elt F)) m_v6 m_v10
  have m_v12 : FVec F S1x128 .f32 := (broadcastInDim S1x128 ![1] bcast_S128_S1x128_1 : (⟨S128, .f32⟩ : BufTy).Contents (Elt F) → (⟨S1x128, .f32⟩ : BufTy).Contents (Elt F)) a4
  have m_v13 : FVec F S600000x128 .f32 := (broadcastInDim S600000x128 ![0, 1] bcast_S1x128_S600000x128_0_1 : (⟨S1x128, .f32⟩ : BufTy).Contents (Elt F) → (⟨S600000x128, .f32⟩ : BufTy).Contents (Elt F)) m_v12
  have m_v14 : FVec F S600000x128 .f32 := (mulf : (⟨S600000x128, .f32⟩ : BufTy).Contents (Elt F) → (⟨S600000x128, .f32⟩ : BufTy).Contents (Elt F) → (⟨S600000x128, .f32⟩ : BufTy).Contents (Elt F)) m_v11 m_v13
  have m_v15 : FVec F S1x128 .f32 := (broadcastInDim S1x128 ![1] bcast_S128_S1x128_1 : (⟨S128, .f32⟩ : BufTy).Contents (Elt F) → (⟨S1x128, .f32⟩ : BufTy).Contents (Elt F)) a5
  have m_v16 : FVec F S600000x128 .f32 := (broadcastInDim S600000x128 ![0, 1] bcast_S1x128_S600000x128_0_1 : (⟨S1x128, .f32⟩ : BufTy).Contents (Elt F) → (⟨S600000x128, .f32⟩ : BufTy).Contents (Elt F)) m_v15
  have m_v17 : FVec F S600000x128 .f32 := (addf : (⟨S600000x128, .f32⟩ : BufTy).Contents (Elt F) → (⟨S600000x128, .f32⟩ : BufTy).Contents (Elt F) → (⟨S600000x128, .f32⟩ : BufTy).Contents (Elt F)) m_v14 m_v16
  have m_v18 : FVec F S600000x128 .f32 := ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)) m_v17 a6
  have m_v19 : FVec F S1x128 .f32 := (broadcastInDim S1x128 ![1] bcast_S128_S1x128_1 : (⟨S128, .f32⟩ : BufTy).Contents (Elt F) → (⟨S1x128, .f32⟩ : BufTy).Contents (Elt F)) a7
  have m_v20 : FVec F S600000x128 .f32 := (broadcastInDim S600000x128 ![0, 1] bcast_S1x128_S600000x128_0_1 : (⟨S1x128, .f32⟩ : BufTy).Contents (Elt F) → (⟨S600000x128, .f32⟩ : BufTy).Contents (Elt F)) m_v19
  have m_v21 : FVec F S600000x128 .f32 := (addf : (⟨S600000x128, .f32⟩ : BufTy).Contents (Elt F) → (⟨S600000x128, .f32⟩ : BufTy).Contents (Elt F) → (⟨S600000x128, .f32⟩ : BufTy).Contents (Elt F)) m_v18 m_v20
  have m_call1_cst : FVec F S_ .f32 := (constant S_ .f32 0x00000000#32)
  have m_call1_v0 : FVec F S600000x128 .f32 := (broadcastInDim S600000x128 ![] bcast_S_S600000x128) m_call1_cst
  have m_v22 : FVec F S600000x128 .f32 := maximumf m_v21 m_call1_v0
  have m_v23 : FVec F S600000x128 .f32 := ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)) m_v22 a8
  have m_v24 : FVec F S600000x128 .f32 := (addf : (⟨S600000x128, .f32⟩ : BufTy).Contents (Elt F) → (⟨S600000x128, .f32⟩ : BufTy).Contents (Elt F) → (⟨S600000x128, .f32⟩ : BufTy).Contents (Elt F)) m_v17 m_v23
  have m_v25 : FVec F S1x128 .f32 := (broadcastInDim S1x128 ![1] bcast_S128_S1x128_1 : (⟨S128, .f32⟩ : BufTy).Contents (Elt F) → (⟨S1x128, .f32⟩ : BufTy).Contents (Elt F)) a9
  have m_v26 : FVec F S600000x128 .f32 := (broadcastInDim S600000x128 ![0, 1] bcast_S1x128_S600000x128_0_1 : (⟨S1x128, .f32⟩ : BufTy).Contents (Elt F) → (⟨S600000x128, .f32⟩ : BufTy).Contents (Elt F)) m_v25
  have m_v27 : FVec F S600000x128 .f32 := (addf : (⟨S600000x128, .f32⟩ : BufTy).Contents (Elt F) → (⟨S600000x128, .f32⟩ : BufTy).Contents (Elt F) → (⟨S600000x128, .f32⟩ : BufTy).Contents (Elt F)) m_v24 m_v26
  m_v27

/-- The source node of each edge as a column of gather indices, a negative entry wrapped by the table's length. -/
def tRowIdx (a3 : IVec S2x600000 32) : IVec S600000x1 32 :=
  have m_v28 : IVec S1x600000 32 := ((extractStridedSlice S1x600000 ![0, 0] · slices_S2x600000_S1x600000_0_0) : (⟨S2x600000, .i32⟩ : BufTy).Contents (Elt F) → (⟨S1x600000, .i32⟩ : BufTy).Contents (Elt F)) a3
  have m_v29 : IVec S600000 32 := shapeCast S600000 m_v28 shapeCasts_S1x600000_S600000
  have m_c_2 : IVec S_ 32 := (constantI S_ 32 0#32)
  have m_v33 : IVec S600000 32 := (broadcastInDim S600000 ![] bcast_S_S600000 : (⟨S_, .i32⟩ : BufTy).Contents (Elt F) → (⟨S600000, .i32⟩ : BufTy).Contents (Elt F)) m_c_2
  have m_v34 : IVec S600000 1 := (cmpi .slt : (⟨S600000, .i32⟩ : BufTy).Contents (Elt F) → (⟨S600000, .i32⟩ : BufTy).Contents (Elt F) → (⟨S600000, .i1⟩ : BufTy).Contents (Elt F)) m_v29 m_v33
  have m_c_3 : IVec S_ 32 := (constantI S_ 32 50000#32)
  have m_v35 : IVec S600000 32 := (broadcastInDim S600000 ![] bcast_S_S600000 : (⟨S_, .i32⟩ : BufTy).Contents (Elt F) → (⟨S600000, .i32⟩ : BufTy).Contents (Elt F)) m_c_3
  have m_v36 : IVec S600000 32 := (addi : (⟨S600000, .i32⟩ : BufTy).Contents (Elt F) → (⟨S600000, .i32⟩ : BufTy).Contents (Elt F) → (⟨S600000, .i32⟩ : BufTy).Contents (Elt F)) m_v29 m_v35
  have m_v37 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v34 m_v36 m_v29
  have m_v38 : IVec S600000x1 32 := (broadcastInDim S600000x1 ![0] bcast_S600000_S600000x1_0 : (⟨S600000, .i32⟩ : BufTy).Contents (Elt F) → (⟨S600000x1, .i32⟩ : BufTy).Contents (Elt F)) m_v37
  m_v38

/-- The target node of each edge as a column of gather indices, a negative entry wrapped by the table's length. -/
def tColIdx (a3 : IVec S2x600000 32) : IVec S600000x1 32 :=
  have m_v30 : IVec S1x600000 32 := ((extractStridedSlice S1x600000 ![1, 0] · slices_S2x600000_S1x600000_1_0) : (⟨S2x600000, .i32⟩ : BufTy).Contents (Elt F) → (⟨S1x600000, .i32⟩ : BufTy).Contents (Elt F)) a3
  have m_v31 : IVec S600000 32 := shapeCast S600000 m_v30 shapeCasts_S1x600000_S600000
  have m_c_4 : IVec S_ 32 := (constantI S_ 32 0#32)
  have m_v40 : IVec S600000 32 := (broadcastInDim S600000 ![] bcast_S_S600000 : (⟨S_, .i32⟩ : BufTy).Contents (Elt F) → (⟨S600000, .i32⟩ : BufTy).Contents (Elt F)) m_c_4
  have m_v41 : IVec S600000 1 := (cmpi .slt : (⟨S600000, .i32⟩ : BufTy).Contents (Elt F) → (⟨S600000, .i32⟩ : BufTy).Contents (Elt F) → (⟨S600000, .i1⟩ : BufTy).Contents (Elt F)) m_v31 m_v40
  have m_c_5 : IVec S_ 32 := (constantI S_ 32 50000#32)
  have m_v42 : IVec S600000 32 := (broadcastInDim S600000 ![] bcast_S_S600000 : (⟨S_, .i32⟩ : BufTy).Contents (Elt F) → (⟨S600000, .i32⟩ : BufTy).Contents (Elt F)) m_c_5
  have m_v43 : IVec S600000 32 := (addi : (⟨S600000, .i32⟩ : BufTy).Contents (Elt F) → (⟨S600000, .i32⟩ : BufTy).Contents (Elt F) → (⟨S600000, .i32⟩ : BufTy).Contents (Elt F)) m_v31 m_v42
  have m_v44 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v41 m_v43 m_v31
  have m_v45 : IVec S600000x1 32 := (broadcastInDim S600000x1 ![0] bcast_S600000_S600000x1_0 : (⟨S600000, .i32⟩ : BufTy).Contents (Elt F) → (⟨S600000x1, .i32⟩ : BufTy).Contents (Elt F)) m_v44
  m_v45

/-- The edge weight as a column: the node norms gathered at both ends, the gathered vector features' product summed over the
    three components, the cosine, the row of 48 invariants, the gate perceptron and the logistic spelt out. -/
def tAlpha (a2 : FVec F S50000x3x16 .f32) (a3 : IVec S2x600000 32) (a14 : FVec F S48x128 .f32) (a15 : FVec F S128 .f32) (a16 : FVec F S128x1 .f32) (a17 : FVec F S1 .f32) : FVec F S600000x1 .f32 :=
  have m_v28 : IVec S1x600000 32 := ((extractStridedSlice S1x600000 ![0, 0] · slices_S2x600000_S1x600000_0_0) : (⟨S2x600000, .i32⟩ : BufTy).Contents (Elt F) → (⟨S1x600000, .i32⟩ : BufTy).Contents (Elt F)) a3
  have m_v29 : IVec S600000 32 := shapeCast S600000 m_v28 shapeCasts_S1x600000_S600000
  have m_v30 : IVec S1x600000 32 := ((extractStridedSlice S1x600000 ![1, 0] · slices_S2x600000_S1x600000_1_0) : (⟨S2x600000, .i32⟩ : BufTy).Contents (Elt F) → (⟨S1x600000, .i32⟩ : BufTy).Contents (Elt F)) a3
  have m_v31 : IVec S600000 32 := shapeCast S600000 m_v30 shapeCasts_S1x600000_S600000
  have m_call2_v0 : FVec F S50000x3x16 .f32 := mulf a2 a2
  have m_call2_cst : FVec F S_ .f32 := (constant S_ .f32 0x00000000#32)
  have m_call2_v1 : FVec F S50000x16 .f32 := (fun x v => Host.reduceAdd x v reducesTo_S50000x3x16_S50000x16_d1 h_S_) m_call2_v0 m_call2_cst
  have m_v32 : FVec F S50000x16 .f32 := (Host.sqrt) m_call2_v1
  have m_c_2 : IVec S_ 32 := (constantI S_ 32 0#32)
  have m_v33 : IVec S600000 32 := (broadcastInDim S600000 ![] bcast_S_S600000 : (⟨S_, .i32⟩ : BufTy).Contents (Elt F) → (⟨S600000, .i32⟩ : BufTy).Contents (Elt F)) m_c_2
  have m_v34 : IVec S600000 1 := (cmpi .slt : (⟨S600000, .i32⟩ : BufTy).Contents (Elt F) → (⟨S600000, .i32⟩ : BufTy).Contents (Elt F) → (⟨S600000, .i1⟩ : BufTy).Contents (Elt F)) m_v29 m_v33
  have m_c_3 : IVec S_ 32 := (constantI S_ 32 50000#32)
  have m_v35 : IVec S600000 32 := (broadcastInDim S600000 ![] bcast_S_S600000 : (⟨S_, .i32⟩ : BufTy).Contents (Elt F) → (⟨S600000, .i32⟩ : BufTy).Contents (Elt F)) m_c_3
  have m_v36 : IVec S600000 32 := (addi : (⟨S600000, .i32⟩ : BufTy).Contents (Elt F) → (⟨S600000, .i32⟩ : BufTy).Contents (Elt F) → (⟨S600000, .i32⟩ : BufTy).Contents (Elt F)) m_v29 m_v35
  have m_v37 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v34 m_v36 m_v29
  have m_v38 : IVec S600000x1 32 := (broadcastInDim S600000x1 ![0] bcast_S600000_S600000x1_0 : (⟨S600000, .i32⟩ : BufTy).Contents (Elt F) → (⟨S600000x1, .i32⟩ : BufTy).Contents (Elt F)) m_v37
  have m_v39 : FVec F S600000x16 .f32 := ((fun x i => Host.gather gather_S50000x16_S600000x1_S600000x16_1_0_n_n_0_1_116 x i) : (⟨S50000x16, .f32⟩ : BufTy).Contents (Elt F) → (⟨S600000x1, .i32⟩ : BufTy).Contents (Elt F) → (⟨S600000x16, .f32⟩ : BufTy).Contents (Elt F)) m_v32 m_v38
  have m_c_4 : IVec S_ 32 := (constantI S_ 32 0#32)
  have m_v40 : IVec S600000 32 := (broadcastInDim S600000 ![] bcast_S_S600000 : (⟨S_, .i32⟩ : BufTy).Contents (Elt F) → (⟨S600000, .i32⟩ : BufTy).Contents (Elt F)) m_c_4
  have m_v41 : IVec S600000 1 := (cmpi .slt : (⟨S600000, .i32⟩ : BufTy).Contents (Elt F) → (⟨S600000, .i32⟩ : BufTy).Contents (Elt F) → (⟨S600000, .i1⟩ : BufTy).Contents (Elt F)) m_v31 m_v40
  have m_c_5 : IVec S_ 32 := (constantI S_ 32 50000#32)
  have m_v42 : IVec S600000 32 := (broadcastInDim S600000 ![] bcast_S_S600000 : (⟨S_, .i32⟩ : BufTy).Contents (Elt F) → (⟨S600000, .i32⟩ : BufTy).Contents (Elt F)) m_c_5
  have m_v43 : IVec S600000 32 := (addi : (⟨S600000, .i32⟩ : BufTy).Contents (Elt F) → (⟨S600000, .i32⟩ : BufTy).Contents (Elt F) → (⟨S600000, .i32⟩ : BufTy).Contents (Elt F)) m_v31 m_v42
  have m_v44 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v41 m_v43 m_v31
  have m_v45 : IVec S600000x1 32 := (broadcastInDim S600000x1 ![0] bcast_S600000_S600000x1_0 : (⟨S600000, .i32⟩ : BufTy).Contents (Elt F) → (⟨S600000x1, .i32⟩ : BufTy).Contents (Elt F)) m_v44
  have m_v46 : FVec F S600000x16 .f32 := ((fun x i => Host.gather gather_S50000x16_S600000x1_S600000x16_1_0_n_n_0_1_116 x i) : (⟨S50000x16, .f32⟩ : BufTy).Contents (Elt F) → (⟨S600000x1, .i32⟩ : BufTy).Contents (Elt F) → (⟨S600000x16, .f32⟩ : BufTy).Contents (Elt F)) m_v32 m_v45
  have m_c_6 : IVec S_ 32 := (constantI S_ 32 0#32)
  have m_v47 : IVec S600000 32 := (broadcastInDim S600000 ![] bcast_S_S600000 : (⟨S_, .i32⟩ : BufTy).Contents (Elt F) → (⟨S600000, .i32⟩ : BufTy).Contents (Elt F)) m_c_6
  have m_v48 : IVec S600000 1 := (cmpi .slt : (⟨S600000, .i32⟩ : BufTy).Contents (Elt F) → (⟨S600000, .i32⟩ : BufTy).Contents (Elt F) → (⟨S600000, .i1⟩ : BufTy).Contents (Elt F)) m_v29 m_v47
  have m_c_7 : IVec S_ 32 := (constantI S_ 32 50000#32)
  have m_v49 : IVec S600000 32 := (broadcastInDim S600000 ![] bcast_S_S600000 : (⟨S_, .i32⟩ : BufTy).Contents (Elt F) → (⟨S600000, .i32⟩ : BufTy).Contents (Elt F)) m_c_7
  have m_v50 : IVec S600000 32 := (addi : (⟨S600000, .i32⟩ : BufTy).Contents (Elt F) → (⟨S600000, .i32⟩ : BufTy).Contents (Elt F) → (⟨S600000, .i32⟩ : BufTy).Contents (Elt F)) m_v29 m_v49
  have m_v51 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v48 m_v50 m_v29
  have m_v52 : IVec S600000x1 32 := (broadcastInDim S600000x1 ![0] bcast_S600000_S600000x1_0 : (⟨S600000, .i32⟩ : BufTy).Contents (Elt F) → (⟨S600000x1, .i32⟩ : BufTy).Contents (Elt F)) m_v51
  have m_v53 : FVec F S600000x3x16 .f32 := ((fun x i => Host.gather gather_S50000x3x16_S600000x1_S600000x3x16_12_0_n_n_0_1_1316 x i) : (⟨S50000x3x16, .f32⟩ : BufTy).Contents (Elt F) → (⟨S600000x1, .i32⟩ : BufTy).Contents (Elt F) → (⟨S600000x3x16, .f32⟩ : BufTy).Contents (Elt F)) a2 m_v52
  have m_c_8 : IVec S_ 32 := (constantI S_ 32 0#32)
  have m_v54 : IVec S600000 32 := (broadcastInDim S600000 ![] bcast_S_S600000 : (⟨S_, .i32⟩ : BufTy).Contents (Elt F) → (⟨S600000, .i32⟩ : BufTy).Contents (Elt F)) m_c_8
  have m_v55 : IVec S600000 1 := (cmpi .slt : (⟨S600000, .i32⟩ : BufTy).Contents (Elt F) → (⟨S600000, .i32⟩ : BufTy).Contents (Elt F) → (⟨S600000, .i1⟩ : BufTy).Contents (Elt F)) m_v31 m_v54
  have m_c_9 : IVec S_ 32 := (constantI S_ 32 50000#32)
  have m_v56 : IVec S600000 32 := (broadcastInDim S600000 ![] bcast_S_S600000 : (⟨S_, .i32⟩ : BufTy).Contents (Elt F) → (⟨S600000, .i32⟩ : BufTy).Contents (Elt F)) m_c_9
  have m_v57 : IVec S600000 32 := (addi : (⟨S600000, .i32⟩ : BufTy).Contents (Elt F) → (⟨S600000, .i32⟩ : BufTy).Contents (Elt F) → (⟨S600000, .i32⟩ : BufTy).Contents (Elt F)) m_v31 m_v56
  have m_v58 : IVec S600000 32 := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) m_v55 m_v57 m_v31
  have m_v59 : IVec S600000x1 32 := (broadcastInDim S600000x1 ![0] bcast_S600000_S600000x1_0 : (⟨S600000, .i32⟩ : BufTy).Contents (Elt F) → (⟨S600000x1, .i32⟩ : BufTy).Contents (Elt F)) m_v58
  have m_v60 : FVec F S600000x3x16 .f32 := ((fun x i => Host.gather gather_S50000x3x16_S600000x1_S600000x3x16_12_0_n_n_0_1_1316 x i) : (⟨S50000x3x16, .f32⟩ : BufTy).Contents (Elt F) → (⟨S600000x1, .i32⟩ : BufTy).Contents (Elt F) → (⟨S600000x3x16, .f32⟩ : BufTy).Contents (Elt F)) a2 m_v59
  have m_v61 : FVec F S600000x3x16 .f32 := (mulf : (⟨S600000x3x16, .f32⟩ : BufTy).Contents (Elt F) → (⟨S600000x3x16, .f32⟩ : BufTy).Contents (Elt F) → (⟨S600000x3x16, .f32⟩ : BufTy).Contents (Elt F)) m_v53 m_v60
  have m_cst_10 : FVec F S_ .f32 := (constant S_ .f32 0x00000000#32)
  have m_v62 : FVec F S600000x16 .f32 := ((fun x v => Host.reduceAdd x v reducesTo_S600000x3x16_S600000x16_d1 h_S_) : (⟨S600000x3x16, .f32⟩ : BufTy).Contents (Elt F) → (⟨S_, .f32⟩ : BufTy).Contents (Elt F) → (⟨S600000x16, .f32⟩ : BufTy).Contents (Elt F)) m_v61 m_cst_10
  have m_v63 : FVec F S600000x16 .f32 := (mulf : (⟨S600000x16, .f32⟩ : BufTy).Contents (Elt F) → (⟨S600000x16, .f32⟩ : BufTy).Contents (Elt F) → (⟨S600000x16, .f32⟩ : BufTy).Contents (Elt F)) m_v39 m_v46
  have m_cst_11 : FVec F S_ .f32 := (constant S_ .f32 0x322BCC77#32)
  have m_v64 : FVec F S600000x16 .f32 := (broadcastInDim S600000x16 ![] bcast_S_S600000x16 : (⟨S_, .f32⟩ : BufTy).Contents (Elt F) → (⟨S600000x16, .f32⟩ : BufTy).Contents (Elt F)) m_cst_11
  have m_v65 : FVec F S600000x16 .f32 := (addf : (⟨S600000x16, .f32⟩ : BufTy).Contents (Elt F) → (⟨S600000x16, .f32⟩ : BufTy).Contents (Elt F) → (⟨S600000x16, .f32⟩ : BufTy).Contents (Elt F)) m_v63 m_v64
  have m_v66 : FVec F S600000x16 .f32 := (Host.divf : (⟨S600000x16, .f32⟩ : BufTy).Contents (Elt F) → (⟨S600000x16, .f32⟩ : BufTy).Contents (Elt F) → (⟨S600000x16, .f32⟩ : BufTy).Contents (Elt F)) m_v62 m_v65
  have m_v67 : FVec F S600000x48 .f32 := concatenate S600000x48 1 [⟨S600000x16, m_v39⟩, ⟨S600000x16, m_v46⟩, ⟨S600000x16, m_v66⟩] concatenates_S600000x16_S600000x16_S600000x16_S600000x48_d1
  have m_v68 : FVec F S600000x128 .f32 := ((fun l r => Host.dotGeneral dot_S600000x48_S48x128_S600000x128_1_0_0_1_n_n none l r) : (⟨S600000x48, .f32⟩ : BufTy).Contents (Elt F) → (⟨S48x128, .f32⟩ : BufTy).Contents (Elt F) → (⟨S600000x128, .f32⟩ : BufTy).Contents (Elt F)) m_v67 a14
  have m_v69 : FVec F S1x128 .f32 := (broadcastInDim S1x128 ![1] bcast_S128_S1x128_1 : (⟨S128, .f32⟩ : BufTy).Contents (Elt F) → (⟨S1x128, .f32⟩ : BufTy).Contents (Elt F)) a15
  have m_v70 : FVec F S600000x128 .f32 := (broadcastInDim S600000x128 ![0, 1] bcast_S1x128_S600000x128_0_1 : (⟨S1x128, .f32⟩ : BufTy).Contents (Elt F) → (⟨S600000x128, .f32⟩ : BufTy).Contents (Elt F)) m_v69
  have m_v71 : FVec F S600000x128 .f32 := (addf : (⟨S600000x128, .f32⟩ : BufTy).Contents (Elt F) → (⟨S600000x128, .f32⟩ : BufTy).Contents (Elt F) → (⟨S600000x128, .f32⟩ : BufTy).Contents (Elt F)) m_v68 m_v70
  have m_call3_cst : FVec F S_ .f32 := (constant S_ .f32 0x00000000#32)
  have m_call3_v0 : FVec F S600000x128 .f32 := (broadcastInDim S600000x128 ![] bcast_S_S600000x128) m_call3_cst
  have m_v72 : FVec F S600000x128 .f32 := maximumf m_v71 m_call3_v0
  have m_v73 : FVec F S600000x1 .f32 := ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)) m_v72 a16
  have m_v74 : FVec F S1x1 .f32 := (broadcastInDim S1x1 ![1] bcast_S1_S1x1_1 : (⟨S1, .f32⟩ : BufTy).Contents (Elt F) → (⟨S1x1, .f32⟩ : BufTy).Contents (Elt F)) a17
  have m_v75 : FVec F S600000x1 .f32 := (broadcastInDim S600000x1 ![0, 1] bcast_S1x1_S600000x1_0_1 : (⟨S1x1, .f32⟩ : BufTy).Contents (Elt F) → (⟨S600000x1, .f32⟩ : BufTy).Contents (Elt F)) m_v74
  have m_v76 : FVec F S600000x1 .f32 := (addf : (⟨S600000x1, .f32⟩ : BufTy).Contents (Elt F) → (⟨S600000x1, .f32⟩ : BufTy).Contents (Elt F) → (⟨S600000x1, .f32⟩ : BufTy).Contents (Elt F)) m_v73 m_v75
  have m_v77 : FVec F S600000x1 .f32 := (Host.negf : (⟨S600000x1, .f32⟩ : BufTy).Contents (Elt F) → (⟨S600000x1, .f32⟩ : BufTy).Contents (Elt F)) m_v76
  have m_v78 : FVec F S600000x1 .f32 := (Host.exp : (⟨S600000x1, .f32⟩ : BufTy).Contents (Elt F) → (⟨S600000x1, .f32⟩ : BufTy).Contents (Elt F)) m_v77
  have m_cst_12 : FVec F S_ .f32 := (constant S_ .f32 0x3F800000#32)
  have m_v79 : FVec F S600000x1 .f32 := (broadcastInDim S600000x1 ![] bcast_S_S600000x1 : (⟨S_, .f32⟩ : BufTy).Contents (Elt F) → (⟨S600000x1, .f32⟩ : BufTy).Contents (Elt F)) m_cst_12
  have m_v80 : FVec F S600000x1 .f32 := (addf : (⟨S600000x1, .f32⟩ : BufTy).Contents (Elt F) → (⟨S600000x1, .f32⟩ : BufTy).Contents (Elt F) → (⟨S600000x1, .f32⟩ : BufTy).Contents (Elt F)) m_v79 m_v78
  have m_cst_13 : FVec F S_ .f32 := (constant S_ .f32 0x3F800000#32)
  have m_v81 : FVec F S600000x1 .f32 := (broadcastInDim S600000x1 ![] bcast_S_S600000x1 : (⟨S_, .f32⟩ : BufTy).Contents (Elt F) → (⟨S600000x1, .f32⟩ : BufTy).Contents (Elt F)) m_cst_13
  have m_v82 : FVec F S600000x1 .f32 := (Host.divf : (⟨S600000x1, .f32⟩ : BufTy).Contents (Elt F) → (⟨S600000x1, .f32⟩ : BufTy).Contents (Elt F) → (⟨S600000x1, .f32⟩ : BufTy).Contents (Elt F)) m_v81 m_v80
  m_v82

/-- The weighted messages from the updated edge features and the weight column. -/
def tWt (m2 : FVec F S600000x128 .f32) (alpha : FVec F S600000x1 .f32) : FVec F S600000x128 .f32 :=
  have m_v83 : FVec F S600000x128 .f32 := (broadcastInDim S600000x128 ![0, 1] bcast_S600000x1_S600000x128_0_1 : (⟨S600000x1, .f32⟩ : BufTy).Contents (Elt F) → (⟨S600000x128, .f32⟩ : BufTy).Contents (Elt F)) alpha
  have m_v84 : FVec F S600000x128 .f32 := (mulf : (⟨S600000x128, .f32⟩ : BufTy).Contents (Elt F) → (⟨S600000x128, .f32⟩ : BufTy).Contents (Elt F) → (⟨S600000x128, .f32⟩ : BufTy).Contents (Elt F)) m2 m_v83
  m_v84

/-- The weighted messages scatter-added into the nodes at each edge's source. -/
def tMi (a3 : IVec S2x600000 32) (wt : FVec F S600000x128 .f32) : FVec F S50000x128 .f32 :=
  have m_v28 : IVec S1x600000 32 := ((extractStridedSlice S1x600000 ![0, 0] · slices_S2x600000_S1x600000_0_0) : (⟨S2x600000, .i32⟩ : BufTy).Contents (Elt F) → (⟨S1x600000, .i32⟩ : BufTy).Contents (Elt F)) a3
  have m_v29 : IVec S600000 32 := shapeCast S600000 m_v28 shapeCasts_S1x600000_S600000
  have m_cst_14 : FVec F S_ .f32 := (constant S_ .f32 0x00000000#32)
  have m_v85 : FVec F S50000x128 .f32 := (broadcastInDim S50000x128 ![] bcast_S_S50000x128 : (⟨S_, .f32⟩ : BufTy).Contents (Elt F) → (⟨S50000x128, .f32⟩ : BufTy).Contents (Elt F)) m_cst_14
  have m_v86 : IVec S600000x1 32 := (broadcastInDim S600000x1 ![0] bcast_S600000_S600000x1_0 : (⟨S600000, .i32⟩ : BufTy).Contents (Elt F) → (⟨S600000x1, .i32⟩ : BufTy).Contents (Elt F)) m_v29
  have m_v87 : FVec F S50000x128 .f32 := ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) m_v85 m_v86 wt
  m_v87

/-- The updated node features from the node features and the scattered sums. -/
def tX2 (a0 : FVec F S50000x128 .f32) (a10 : FVec F S128x128 .f32) (a11 : FVec F S128 .f32) (a12 : FVec F S128x128 .f32) (a13 : FVec F S128 .f32) (mi : FVec F S50000x128 .f32) : FVec F S50000x128 .f32 :=
  have m_v88 : FVec F S50000x128 .f32 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) mi a10
  have m_v89 : FVec F S1x128 .f32 := (broadcastInDim S1x128 ![1] bcast_S128_S1x128_1 : (⟨S128, .f32⟩ : BufTy).Contents (Elt F) → (⟨S1x128, .f32⟩ : BufTy).Contents (Elt F)) a11
  have m_v90 : FVec F S50000x128 .f32 := (broadcastInDim S50000x128 ![0, 1] bcast_S1x128_S50000x128_0_1 : (⟨S1x128, .f32⟩ : BufTy).Contents (Elt F) → (⟨S50000x128, .f32⟩ : BufTy).Contents (Elt F)) m_v89
  have m_v91 : FVec F S50000x128 .f32 := (addf : (⟨S50000x128, .f32⟩ : BufTy).Contents (Elt F) → (⟨S50000x128, .f32⟩ : BufTy).Contents (Elt F) → (⟨S50000x128, .f32⟩ : BufTy).Contents (Elt F)) m_v88 m_v90
  have m_call4_cst : FVec F S_ .f32 := (constant S_ .f32 0x00000000#32)
  have m_call4_v0 : FVec F S50000x128 .f32 := (broadcastInDim S50000x128 ![] bcast_S_S50000x128) m_call4_cst
  have m_v92 : FVec F S50000x128 .f32 := maximumf m_v91 m_call4_v0
  have m_v93 : FVec F S50000x128 .f32 := ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) m_v92 a12
  have m_v94 : FVec F S50000x128 .f32 := (addf : (⟨S50000x128, .f32⟩ : BufTy).Contents (Elt F) → (⟨S50000x128, .f32⟩ : BufTy).Contents (Elt F) → (⟨S50000x128, .f32⟩ : BufTy).Contents (Elt F)) a0 m_v93
  have m_v95 : FVec F S1x128 .f32 := (broadcastInDim S1x128 ![1] bcast_S128_S1x128_1 : (⟨S128, .f32⟩ : BufTy).Contents (Elt F) → (⟨S1x128, .f32⟩ : BufTy).Contents (Elt F)) a13
  have m_v96 : FVec F S50000x128 .f32 := (broadcastInDim S50000x128 ![0, 1] bcast_S1x128_S50000x128_0_1 : (⟨S1x128, .f32⟩ : BufTy).Contents (Elt F) → (⟨S50000x128, .f32⟩ : BufTy).Contents (Elt F)) m_v95
  have m_v97 : FVec F S50000x128 .f32 := (addf : (⟨S50000x128, .f32⟩ : BufTy).Contents (Elt F) → (⟨S50000x128, .f32⟩ : BufTy).Contents (Elt F) → (⟨S50000x128, .f32⟩ : BufTy).Contents (Elt F)) m_v94 m_v96
  m_v97

/-- The gated vector features from the vector features and the updated node features. -/
def tV2 (a2 : FVec F S50000x3x16 .f32) (a18 : FVec F S128x16 .f32) (a19 : FVec F S16 .f32) (x2 : FVec F S50000x128 .f32) : FVec F S50000x3x16 .f32 :=
  have m_v98 : FVec F S50000x16 .f32 := ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)) x2 a18
  have m_v99 : FVec F S1x16 .f32 := (broadcastInDim S1x16 ![1] bcast_S16_S1x16_1 : (⟨S16, .f32⟩ : BufTy).Contents (Elt F) → (⟨S1x16, .f32⟩ : BufTy).Contents (Elt F)) a19
  have m_v100 : FVec F S50000x16 .f32 := (broadcastInDim S50000x16 ![0, 1] bcast_S1x16_S50000x16_0_1 : (⟨S1x16, .f32⟩ : BufTy).Contents (Elt F) → (⟨S50000x16, .f32⟩ : BufTy).Contents (Elt F)) m_v99
  have m_v101 : FVec F S50000x16 .f32 := (addf : (⟨S50000x16, .f32⟩ : BufTy).Contents (Elt F) → (⟨S50000x16, .f32⟩ : BufTy).Contents (Elt F) → (⟨S50000x16, .f32⟩ : BufTy).Contents (Elt F)) m_v98 m_v100
  have m_v102 : FVec F S50000x16 .f32 := (Host.negf : (⟨S50000x16, .f32⟩ : BufTy).Contents (Elt F) → (⟨S50000x16, .f32⟩ : BufTy).Contents (Elt F)) m_v101
  have m_v103 : FVec F S50000x16 .f32 := (Host.exp : (⟨S50000x16, .f32⟩ : BufTy).Contents (Elt F) → (⟨S50000x16, .f32⟩ : BufTy).Contents (Elt F)) m_v102
  have m_cst_15 : FVec F S_ .f32 := (constant S_ .f32 0x3F800000#32)
  have m_v104 : FVec F S50000x16 .f32 := (broadcastInDim S50000x16 ![] bcast_S_S50000x16 : (⟨S_, .f32⟩ : BufTy).Contents (Elt F) → (⟨S50000x16, .f32⟩ : BufTy).Contents (Elt F)) m_cst_15
  have m_v105 : FVec F S50000x16 .f32 := (addf : (⟨S50000x16, .f32⟩ : BufTy).Contents (Elt F) → (⟨S50000x16, .f32⟩ : BufTy).Contents (Elt F) → (⟨S50000x16, .f32⟩ : BufTy).Contents (Elt F)) m_v104 m_v103
  have m_cst_16 : FVec F S_ .f32 := (constant S_ .f32 0x3F800000#32)
  have m_v106 : FVec F S50000x16 .f32 := (broadcastInDim S50000x16 ![] bcast_S_S50000x16 : (⟨S_, .f32⟩ : BufTy).Contents (Elt F) → (⟨S50000x16, .f32⟩ : BufTy).Contents (Elt F)) m_cst_16
  have m_v107 : FVec F S50000x16 .f32 := (Host.divf : (⟨S50000x16, .f32⟩ : BufTy).Contents (Elt F) → (⟨S50000x16, .f32⟩ : BufTy).Contents (Elt F) → (⟨S50000x16, .f32⟩ : BufTy).Contents (Elt F)) m_v106 m_v105
  have m_v108 : FVec F S50000x1x16 .f32 := (broadcastInDim S50000x1x16 ![0, 2] bcast_S50000x16_S50000x1x16_0_2 : (⟨S50000x16, .f32⟩ : BufTy).Contents (Elt F) → (⟨S50000x1x16, .f32⟩ : BufTy).Contents (Elt F)) m_v107
  have m_v109 : FVec F S50000x3x16 .f32 := (broadcastInDim S50000x3x16 ![0, 1, 2] bcast_S50000x1x16_S50000x3x16_0_1_2 : (⟨S50000x1x16, .f32⟩ : BufTy).Contents (Elt F) → (⟨S50000x3x16, .f32⟩ : BufTy).Contents (Elt F)) m_v108
  have m_v110 : FVec F S50000x3x16 .f32 := (mulf : (⟨S50000x3x16, .f32⟩ : BufTy).Contents (Elt F) → (⟨S50000x3x16, .f32⟩ : BufTy).Contents (Elt F) → (⟨S50000x3x16, .f32⟩ : BufTy).Contents (Elt F)) a2 m_v109
  m_v110

end Cert.ReferenceIdeal.RefTerms

end
-- ==== Proof.LibNary3.lean ====
/-
  A host operation over a LITERAL family of three references (a concatenation of three operands): its result, with each
  operand's contents read at its own reference.

  The general result of an operation over a family xs of references is  f (fun k => F (xs k)) : under the binder the
  reference  ![a, b, c] k  is not a literal, so nothing further can be said about the contents there. For a literal
  family the function  fun k => F (![a, b, c] k)  is the tuple of the three contents, Fin.cons (F a) (Fin.cons (F b)
  (Fin.cons (F c) nil)); with the result in that form the contents of a, b and c can be read in turn. The library states
  this for four references; this file states it for three, in the same shape, and gives the two ways of reading a
  buffer after a list of operations (rewriting outermost first, or one simplification pass) with the three-reference
  form ahead of the general one.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an operation over the literal family ![x, a, b], at its result buffer: its function of the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, for the simplifier (the buffer argument outside the discrimination tree's keys). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

namespace Idealize.ShloMosaic

/-- Reads a buffer after a literal list of operations, rewriting each operation's result outermost first; a
    three-reference operation is read operand by operand. -/
macro "after_results3" : tactic =>
  `(tactic| (simp only [StableHlo.after_cons, StableHlo.after_nil]
             repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [StableHlo.nary4_result] | rw [StableHlo.nary3_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-- The same reading as one simplification pass, for long lists. -/
macro "after_results3_simp" : tactic =>
  `(tactic| (simp (disch := decide) only [StableHlo.after_cons, StableHlo.after_nil,
      StableHlo.nullary_result', StableHlo.unary_result', StableHlo.binary_result', StableHlo.ternary_result', StableHlo.quaternary_result', StableHlo.reshape_result',
      StableHlo.nary4_result', StableHlo.nary3_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne']))

end Idealize.ShloMosaic

end
-- ==== Proof.RefStages.lean ====
/-
  What the reference's three results hold after its run, as the program's own stage terms of the argument arrays:
  the fold of the operations' results read at a result buffer rewrites, operation by operation (each operation's
  result at the buffer it writes, the contents before it at any other), to that buffer's term; and an argument's buffer, which no operation writes, keeps its launch contents.
-/
import proofs.«422732_j45208825757707_3_alg».proof.Proof.RefRun
import proofs.«422732_j45208825757707_3_alg».proof.Proof.RefTerms
import proofs.«422732_j45208825757707_3_alg».proof.Proof.LibNary3

noncomputable section

namespace Cert.ReferenceIdeal.RefStages

open Cert.ReferenceIdeal Cert.ReferenceIdeal.Gen Cert.ReferenceIdeal.RefOps Cert.ReferenceIdeal.RefRun Cert.ReferenceIdeal.RefTerms
open Idealize.ShloMosaic Idealize.ShloMosaic.TcCoe Idealize.SL.Sem Idealize.ShloMosaic.StableHlo

variable {F : FTy → Type} [FloatOps F]

set_option maxRecDepth 65536 in
set_option maxHeartbeats 8000000 in
/-- The updated edge features. -/
theorem v27_eq (V : Valuation τ sig (Elt F)) :
    after ops V (main_v27 : DevRef τ sig) = (tM2 (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))) := by
  simp only [ops, ops0, ops1, ops2, List.cons_append, List.nil_append]
  after_results3_simp
  rfl

set_option maxRecDepth 65536 in
set_option maxHeartbeats 8000000 in
/-- The updated node features. -/
theorem v97_eq (V : Valuation τ sig (Elt F)) :
    after ops V (main_v97 : DevRef τ sig) = (tX2 (V (main_arg0 : DevRef τ sig)) (V (main_arg10 : DevRef τ sig)) (V (main_arg11 : DevRef τ sig)) (V (main_arg12 : DevRef τ sig)) (V (main_arg13 : DevRef τ sig)) (tMi (V (main_arg3 : DevRef τ sig)) (tWt (tM2 (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))) (tAlpha (V (main_arg2 : DevRef τ sig)) (V (main_arg3 : DevRef τ sig)) (V (main_arg14 : DevRef τ sig)) (V (main_arg15 : DevRef τ sig)) (V (main_arg16 : DevRef τ sig)) (V (main_arg17 : DevRef τ sig)))))) := by
  simp only [ops, ops0, ops1, ops2, List.cons_append, List.nil_append]
  after_results3_simp
  rfl

set_option maxRecDepth 65536 in
set_option maxHeartbeats 8000000 in
/-- The gated vector features. -/
theorem v110_eq (V : Valuation τ sig (Elt F)) :
    after ops V (main_v110 : DevRef τ sig) = tV2 (V (main_arg2 : DevRef τ sig)) (V (main_arg18 : DevRef τ sig)) (V (main_arg19 : DevRef τ sig)) (tX2 (V (main_arg0 : DevRef τ sig)) (V (main_arg10 : DevRef τ sig)) (V (main_arg11 : DevRef τ sig)) (V (main_arg12 : DevRef τ sig)) (V (main_arg13 : DevRef τ sig)) (tMi (V (main_arg3 : DevRef τ sig)) (tWt (tM2 (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))) (tAlpha (V (main_arg2 : DevRef τ sig)) (V (main_arg3 : DevRef τ sig)) (V (main_arg14 : DevRef τ sig)) (V (main_arg15 : DevRef τ sig)) (V (main_arg16 : DevRef τ sig)) (V (main_arg17 : DevRef τ sig)))))) := by
  simp only [ops, ops0, ops1, ops2, List.cons_append, List.nil_append]
  after_results3_simp
  rfl

set_option maxRecDepth 65536 in
set_option maxHeartbeats 8000000 in
/-- No operation writes an argument's buffer. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig)
    ∧ after ops V (main_arg16 : DevRef τ sig) = V (main_arg16 : DevRef τ sig)
    ∧ after ops V (main_arg17 : DevRef τ sig) = V (main_arg17 : DevRef τ sig)
    ∧ after ops V (main_arg18 : DevRef τ sig) = V (main_arg18 : DevRef τ sig)
    ∧ after ops V (main_arg19 : DevRef τ sig) = V (main_arg19 : DevRef τ sig) := by
  simp only [ops, ops0, ops1, ops2, List.cons_append, List.nil_append]
  after_results3_simp
  exact ⟨trivial, trivial, trivial, trivial, trivial, trivial, trivial, trivial, trivial, trivial, trivial, trivial, trivial, trivial, trivial, trivial, trivial, trivial, trivial, trivial⟩

end Cert.ReferenceIdeal.RefStages

end
-- ==== Proof.RefM2.lean ====
/-
  The reference's updated edge features read at an index: the layer norm written with host reductions and broadcasts
  (the variance through its outlined function with a guard, whose divisor 128 - 0 is 128 and whose guard 128 - 0 > 0 holds), then the
  message perceptron with its residual, is the row function of the specification applied to row e of the edge features.
-/
import proofs.«422732_j45208825757707_3_alg».proof.Proof.RefTerms
import proofs.«422732_j45208825757707_3_alg».proof.Proof.Spec
import proofs.«422732_j45208825757707_3_alg».proof.Proof.SpecIdx
import proofs.«422732_j45208825757707_3_alg».proof.Proof.LibPlainDot
import Idealize.ShloMosaic.PureOps.Ideal.Laws
import Idealize.ShloMosaic.Lib.Pipeline.Value
import Idealize.ShloMosaic.Lib.ValueLayout
set_option maxRecDepth 16384

noncomputable section

namespace Cert.ReferenceIdeal.RefRead

open Cert.ReferenceIdeal Cert.ReferenceIdeal.Gen Cert.ReferenceIdeal.RefTerms Idealize.ShloMosaic Idealize.ShloMosaic.TcCoe Idealize.ShloMosaic.ValueIdx
open scoped BigOperators

/-- A vector laid as a column reads, at (p, 0), the vector at p. -/
private theorem bc_col {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector laid as a row reads, at (0, q), the vector at q. -/
private theorem bc_row {α : Type} {m : Nat} (h : (⟨1, ![m]⟩ : Shape).BroadcastsInDim ⟨2, ![1, m]⟩ ![1])
    (v : (⟨1, ![m]⟩ : Shape).Idx → α) (q : Fin m) :
    broadcastInDim ⟨2, ![1, m]⟩ ![1] h v (ix2 (0 : Fin 1) q) = v (ix1 q) := by
  simp only [broadcastInDim]
  congr 1
  funext a
  have ha : a = 0 := Subsingleton.elim _ _
  subst ha
  apply Fin.ext
  have hq := q.isLt
  split
  · next h1 => change m = 1 at h1; show (0 : Nat) = q.val; omega
  · rfl

/-- A column spread over the columns of a rectangle reads, at (p, q), the column at (p, 0). -/
private theorem bc_of_col {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h => exact absurd rfl h

/-- A row spread over the rows of a rectangle reads, at (p, q), the row at (0, q). -/
private theorem bc_of_row {α : Type} {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 (0 : Fin 1) q) := by
  simp only [broadcastInDim]
  congr 1
  funext a
  match a with
  | ⟨0, _⟩ =>
    apply Fin.ext
    split
    · rfl
    · next h => exact absurd rfl h
  | ⟨1, _⟩ =>
    apply Fin.ext
    have hq := q.isLt
    split
    · next h1 => change m = 1 at h1; show (0 : Nat) = q.val; omega
    · rfl

/-- A scalar spread over any shape reads the scalar everywhere. -/
private theorem bc_scalar {α : Type} {t : Shape} (h : (⟨0, ![]⟩ : Shape).BroadcastsInDim t ![])
    (v : (⟨0, ![]⟩ : Shape).Idx → α) (j : t.Idx) :
    broadcastInDim t ![] h v j = v ix0 := by
  simp only [broadcastInDim]
  congr 1
  funext a
  exact Fin.elim0 a

/-- A vector laid as a row and spread over the rows of a rectangle reads, at (p, q), the vector at q. -/
private theorem bc_vec_rows {α : Type} (v : (⟨1, ![128]⟩ : Shape).Idx → α) (p : Fin 600000) (q : Fin 128) :
    broadcastInDim S600000x128 ![0, 1] bcast_S1x128_S600000x128_0_1 (broadcastInDim S1x128 ![1] bcast_S128_S1x128_1 v) (ix2 p q)
      = v (ix1 q) := by
  rw [bc_of_row, bc_row]

/-- The host's sum over the second axis of a rectangle, at row e: the initial value plus the sum of the row. -/
private theorem rowsum (x : FVec Ideal S600000x128 .f32) (c : FVec Ideal S_ .f32) (e : Fin 600000) :
    Host.reduceAdd x c reducesTo_S600000x128_S600000_d1 h_S_ (ix1 e) = c ix0 + ∑ k : Fin 128, x (ix2 e k) := by
  have hR : S600000x128.Reduces [1] S600000 := by decide
  show Ideal.hostReduceAdd reducesTo_S600000x128_S600000_d1 x (c (Shape.Idx.first h_S_)) (ix1 e) = _
  rw [Ideal.hostReduceAdd_single reducesTo_S600000x128_S600000_d1 hR]
  have h0 : Shape.Idx.first h_S_ = (ix0 : S_.Idx) := funext fun a => a.elim0
  rw [h0]
  congr 1
  refine Finset.sum_congr rfl fun k _ => ?_
  congr 1
  funext a
  match a with
  | ⟨0, _⟩ => rfl
  | ⟨1, _⟩ => rfl

/-- The word 0x43000000 is 128. -/
private theorem ofBits_128 : Ideal.ofBits .f32 0x43000000#32 = ((128 : ℝ) : EReal) := by
  simp [Ideal.ofBits, Ideal.ieee]
  rw [← EReal.coe_mul]; norm_num

/-- The integer zero converts to the number zero. -/
private theorem sitofp_zero : Scalar.sitofp (F := Ideal) .f32 (0#32) = 0 := by
  rw [Ideal.scalar_sitofp_def]; simp

/-- The variance's divisor: 128 minus the conversion of the integer zero is 128. -/
private theorem divisor_eq : Spec.c128 - Scalar.sitofp (F := Ideal) .f32 (0#32) = Spec.c128 := by
  rw [sitofp_zero, sub_zero]

/-- The guard of the variance: 128 exceeds 0. -/
private theorem guard_eq : Ideal.cmp .ogt Spec.c128 0 = 1#1 := by
  unfold Spec.c128
  rw [ofBits_128]
  simp [Ideal.cmp]

/-! ## The term, cut at its stages -/

private theorem hdivf_apply {s : Shape} (a b : FVec Ideal s .f32) (i : s.Idx) : Host.divf a b i = Ideal.div (a i) (b i) := rfl
private theorem hrsqrt_apply {s : Shape} (a : FVec Ideal s .f32) (i : s.Idx) : Host.rsqrt a i = Ideal.rsqrt (a i) := rfl

/-- The mean of each row, as a column: the row sum from the zero word, divided by the word of 128. -/
private def meanT (x : FVec Ideal S600000x128 .f32) : FVec Ideal S600000x1 .f32 :=
  Host.divf
    (broadcastInDim S600000x1 ![0] bcast_S600000_S600000x1_0
      ((fun x v => Host.reduceAdd x v reducesTo_S600000x128_S600000_d1 h_S_) x (constant S_ .f32 0x00000000#32)))
    (broadcastInDim S600000x1 ![] bcast_S_S600000x1 (constant S_ .f32 0x43000000#32))

/-- The mean read at row e. -/
private theorem meanT_apply (x : FVec Ideal S600000x128 .f32) (e : Fin 600000) :
    meanT x (ix2 e (0 : Fin 1)) = Spec.mean128 (Spec.rowOf x e) := by
  unfold meanT
  show Ideal.div _ _ = _
  rw [bc_col, bc_scalar]
  show Ideal.div (Host.reduceAdd x (constant S_ .f32 0x00000000#32) reducesTo_S600000x128_S600000_d1 h_S_ (ix1 e)) _ = _
  rw [rowsum, constant_apply, constant_apply, Ideal.ofBits_zero_f32, zero_add]
  rfl

/-- The centred features: each entry minus its row's mean. -/
private def ctrT (x : FVec Ideal S600000x128 .f32) : FVec Ideal S600000x128 .f32 :=
  subf x (broadcastInDim S600000x128 ![0, 1] bcast_S600000x1_S600000x128_0_1 (meanT x))

private theorem ctrT_apply (x : FVec Ideal S600000x128 .f32) (e : Fin 600000) (j : Fin 128) :
    ctrT x (ix2 e j) = Spec.rowOf x e j - Spec.mean128 (Spec.rowOf x e) := by
  unfold ctrT
  rw [subf_apply, bc_of_col, meanT_apply]
  rfl

/-- The variance's divisor as the program writes it: the word of 128 minus the conversion of the integer zero. -/
private def divT : FVec Ideal S_ .f32 :=
  subf (constant S_ .f32 0x43000000#32) ((sitofp .f32) (constantI S_ 32 0#32))

private theorem divT_apply : divT ix0 = Spec.c128 := divisor_eq

/-- The variance of each row, as a column, through its guard. -/
private def varT (x : FVec Ideal S600000x128 .f32) : FVec Ideal S600000x1 .f32 :=
  select (broadcastInDim S600000x1 ![] bcast_S_S600000x1 ((cmpf .ogt) divT (constant S_ .f32 0x00000000#32)))
    (Host.divf
      (broadcastInDim S600000x1 ![0] bcast_S600000_S600000x1_0
        ((fun x v => Host.reduceAdd x v reducesTo_S600000x128_S600000_d1 h_S_) (mulf (ctrT x) (ctrT x)) (constant S_ .f32 0x00000000#32)))
      (broadcastInDim S600000x1 ![] bcast_S_S600000x1 divT))
    (broadcastInDim S600000x1 ![] bcast_S_S600000x1 (id (constant S_ .f32 0x7FC00000#32)))

/-- The variance read at row e: the guard holds and the divisor is 128. -/
private theorem varT_apply (x : FVec Ideal S600000x128 .f32) (e : Fin 600000) :
    varT x (ix2 e (0 : Fin 1))
      = Spec.mean128 (fun k => (Spec.rowOf x e k - Spec.mean128 (Spec.rowOf x e)) * (Spec.rowOf x e k - Spec.mean128 (Spec.rowOf x e))) := by
  unfold varT
  rw [select_apply, bc_scalar]
  have hg : (cmpf .ogt) divT (constant (F := Ideal) S_ .f32 0x00000000#32) ix0 = 1#1 := by
    show Ideal.cmp .ogt (divT ix0) (Ideal.ofBits .f32 0x00000000#32) = 1#1
    rw [divT_apply, Ideal.ofBits_zero_f32]
    exact guard_eq
  rw [hg, select_one, hdivf_apply, bc_col, bc_scalar, divT_apply]
  show Ideal.div (Host.reduceAdd (mulf (ctrT x) (ctrT x)) (constant S_ .f32 0x00000000#32) reducesTo_S600000x128_S600000_d1 h_S_ (ix1 e)) _ = _
  rw [rowsum, constant_apply, Ideal.ofBits_zero_f32, zero_add]
  have hs : (∑ k : Fin 128, mulf (ctrT x) (ctrT x) (ix2 e k))
      = ∑ k : Fin 128, (Spec.rowOf x e k - Spec.mean128 (Spec.rowOf x e)) * (Spec.rowOf x e k - Spec.mean128 (Spec.rowOf x e)) :=
    Finset.sum_congr rfl fun k _ => by rw [mulf_apply, ctrT_apply]
  rw [hs]
  rfl

/-- The layer norm: centre, scale by the reciprocal root of the variance plus the small constant, scale and shift. -/
private def lnT (x : FVec Ideal S600000x128 .f32) (g b : FVec Ideal S128 .f32) : FVec Ideal S600000x128 .f32 :=
  addf
    (mulf
      (mulf (ctrT x)
        (broadcastInDim S600000x128 ![0, 1] bcast_S600000x1_S600000x128_0_1
          (Host.rsqrt (addf (varT x) (broadcastInDim S600000x1 ![] bcast_S_S600000x1 (constant S_ .f32 0x3727C5AC#32))))))
      (broadcastInDim S600000x128 ![0, 1] bcast_S1x128_S600000x128_0_1 (broadcastInDim S1x128 ![1] bcast_S128_S1x128_1 g)))
    (broadcastInDim S600000x128 ![0, 1] bcast_S1x128_S600000x128_0_1 (broadcastInDim S1x128 ![1] bcast_S128_S1x128_1 b))

/-- The layer norm read at (e, j). -/
private theorem lnT_apply (x : FVec Ideal S600000x128 .f32) (g b : FVec Ideal S128 .f32) (e : Fin 600000) (j : Fin 128) :
    lnT x g b (ix2 e j) = Spec.lnRow (Spec.vecOf g) (Spec.vecOf b) (Spec.rowOf x e) j := by
  unfold lnT
  rw [addf_apply, mulf_apply, mulf_apply, bc_vec_rows, bc_vec_rows, bc_of_col, hrsqrt_apply, addf_apply, bc_scalar,
    constant_apply, ctrT_apply, varT_apply]
  rfl

/-- The residual perceptron on an array of rows: a product with the first weights plus its bias, the maximum with zero, a product
    with the second weights, plus the rows, plus the second bias. -/
private def mlpT (u : FVec Ideal S600000x128 .f32) (w1 : FVec Ideal S128x128 .f32) (b1 : FVec Ideal S128 .f32)
    (w2 : FVec Ideal S128x128 .f32) (b2 : FVec Ideal S128 .f32) : FVec Ideal S600000x128 .f32 :=
  addf
    (addf u
      ((fun l r => Host.dotGeneral dot_S600000x128_S128x128_S600000x128_1_0_0_1_n_n none l r)
        (maximumf
          (addf ((fun l r => Host.dotGeneral dot_S600000x128_S128x128_S600000x128_1_0_0_1_n_n none l r) u w1)
            (broadcastInDim S600000x128 ![0, 1] bcast_S1x128_S600000x128_0_1 (broadcastInDim S1x128 ![1] bcast_S128_S1x128_1 b1)))
          (broadcastInDim S600000x128 ![] bcast_S_S600000x128 (constant S_ .f32 0x00000000#32)))
        w2))
    (broadcastInDim S600000x128 ![0, 1] bcast_S1x128_S600000x128_0_1 (broadcastInDim S1x128 ![1] bcast_S128_S1x128_1 b2))

/-- The hidden layer read at (e, k). -/
private theorem hid_apply (u : FVec Ideal S600000x128 .f32) (w1 : FVec Ideal S128x128 .f32) (b1 : FVec Ideal S128 .f32)
    (e : Fin 600000) (k : Fin 128) :
    maximumf
        (addf (Host.dotGeneral dot_S600000x128_S128x128_S600000x128_1_0_0_1_n_n none u w1)
          (broadcastInDim S600000x128 ![0, 1] bcast_S1x128_S600000x128_0_1 (broadcastInDim S1x128 ![1] bcast_S128_S1x128_1 b1)))
        (broadcastInDim S600000x128 ![] bcast_S_S600000x128 (constant S_ .f32 0x00000000#32)) (ix2 e k)
      = Spec.relu (Spec.lin (Spec.matOf w1) (Spec.vecOf b1) (Spec.rowOf u e) k) := by
  rw [maximumf_apply, addf_apply, bc_vec_rows, bc_scalar, constant_apply, Ideal.ofBits_zero_f32,
    Cert.LibPlainDot.dotGeneral_apply dot_S600000x128_S128x128_S600000x128_1_0_0_1_n_n rfl]
  rfl

/-- The perceptron read at (e, j). -/
private theorem mlpT_apply (u : FVec Ideal S600000x128 .f32) (w1 : FVec Ideal S128x128 .f32) (b1 : FVec Ideal S128 .f32)
    (w2 : FVec Ideal S128x128 .f32) (b2 : FVec Ideal S128 .f32) (e : Fin 600000) (j : Fin 128) :
    mlpT u w1 b1 w2 b2 (ix2 e j)
      = Spec.resMlp (Spec.matOf w1) (Spec.vecOf b1) (Spec.matOf w2) (Spec.vecOf b2) (Spec.rowOf u e) (Spec.rowOf u e) j := by
  unfold mlpT
  rw [addf_apply, addf_apply, bc_vec_rows]
  dsimp only
  rw [Cert.LibPlainDot.dotGeneral_apply dot_S600000x128_S128x128_S600000x128_1_0_0_1_n_n rfl]
  unfold Spec.resMlp
  congr 2
  refine Finset.sum_congr rfl fun k _ => ?_
  rw [hid_apply]
  rfl

/-- The program's term is the perceptron of the layer norm. -/
private theorem tM2_split (a1 : FVec Ideal S600000x128 .f32) (a4 a5 : FVec Ideal S128 .f32) (a6 : FVec Ideal S128x128 .f32) (a7 : FVec Ideal S128 .f32)
    (a8 : FVec Ideal S128x128 .f32) (a9 : FVec Ideal S128 .f32) :
    tM2 (F := Ideal) a1 a4 a5 a6 a7 a8 a9 = mlpT (lnT a1 a4 a5) a6 a7 a8 a9 := rfl

/-- The updated edge features, as one whole-array function of the arguments. -/
theorem tM2_eq (a1 : FVec Ideal S600000x128 .f32) (a4 a5 : FVec Ideal S128 .f32) (a6 : FVec Ideal S128x128 .f32) (a7 : FVec Ideal S128 .f32)
    (a8 : FVec Ideal S128x128 .f32) (a9 : FVec Ideal S128 .f32) :
    tM2 (F := Ideal) a1 a4 a5 a6 a7 a8 a9 = Spec.M2 a1 a4 a5 a6 a7 a8 a9 := by
  rw [tM2_split]
  funext i
  obtain ⟨e, j, rfl⟩ : ∃ (e : Fin 600000) (j : Fin 128), i = ix2 e j := ⟨i 0, i 1, eq_ix2 i⟩
  rw [mlpT_apply]
  have hrow : Spec.rowOf (lnT a1 a4 a5) e = Spec.lnRow (Spec.vecOf a4) (Spec.vecOf a5) (Spec.rowOf a1 e) := by
    funext k
    exact lnT_apply a1 a4 a5 e k
  rw [hrow]
  rfl

end Cert.ReferenceIdeal.RefRead
end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.RefAlpha.lean ====
/-
  The reference's edge weight read at an edge: the node norms gathered at both ends, the gathered vector features'
  product summed over the three components, the cosine, the row of 48 invariants, the gate perceptron and the logistic
  spelt out as 1 / (1 + exp (-x)), is the specification's weight of the vector features of the edge's two end nodes.
  With every entry of edge_index a node number, wrapping a negative index does nothing and the row a gather reads is
  that node.
-/
import proofs.«422732_j45208825757707_3_alg».proof.Proof.RefTerms
import proofs.«422732_j45208825757707_3_alg».proof.Proof.Spec
import proofs.«422732_j45208825757707_3_alg».proof.Proof.SpecIdx
import proofs.«422732_j45208825757707_3_alg».proof.Proof.LibPlainDot
import Idealize.ShloMosaic.PureOps.Ideal.Laws
import Idealize.ShloMosaic.Lib.Pipeline.Value
import Idealize.ShloMosaic.Lib.ValueLayout
import proofs.«422732_j45208825757707_3_alg».proof.Proof.LibHostIdx2
import proofs.«422732_j45208825757707_3_alg».proof.Proof.LibGather3
import Idealize.ShloMosaic.Lib.StableHlo.Predicate
set_option maxRecDepth 16384

noncomputable section

namespace Cert.ReferenceIdeal.RefRead

open Cert.ReferenceIdeal Cert.ReferenceIdeal.Gen Cert.ReferenceIdeal.RefTerms Idealize.ShloMosaic Idealize.ShloMosaic.TcCoe Idealize.ShloMosaic.ValueIdx
open scoped BigOperators

/-- The word 0x3F800000 is the number one. -/
private theorem one_f32 : Ideal.ofBits .f32 0x3F800000#32 = 1 := by
  rw [show (1 : EReal) = ((1 : ℝ) : EReal) by norm_cast]
  simp [Ideal.ofBits, Ideal.ieee, -EReal.coe_mul]
  norm_num

/-- A splat of a constant reads the constant everywhere. -/
private theorem splat_apply {T : Shape} (h : S_.BroadcastsInDim T ![]) (b : BitVec 32) (j : T.Idx) :
    broadcastInDim T ![] h (constant (F := Ideal) S_ .f32 b) j = Ideal.ofBits .f32 b := rfl

/-- A bias row laid under every one of the rows. -/
private theorem biasRow_apply (v : FVec Ideal S128 .f32) (e : Fin 600000) (k : Fin 128) :
    broadcastInDim S600000x128 ![0, 1] bcast_S1x128_S600000x128_0_1 (broadcastInDim S1x128 ![1] bcast_S128_S1x128_1 v) (ix2 e k)
      = v (ix1 k) := by
  rw [broadcastInDim_apply _ _ _ _ (ix2 (0 : Fin 1) k) (fun a => by
    match a with
    | ⟨0, _⟩ => rfl
    | ⟨1, _⟩ => rfl)]
  exact broadcastInDim_apply _ _ _ _ (ix1 k) (fun a => by
    match a with
    | ⟨0, _⟩ => rfl)

/-- The one bias laid under every row of a column. -/
private theorem biasOne_apply (v : FVec Ideal S1 .f32) (e : Fin 600000) :
    broadcastInDim S600000x1 ![0, 1] bcast_S1x1_S600000x1_0_1 (broadcastInDim S1x1 ![1] bcast_S1_S1x1_1 v) (ix2 e (0 : Fin 1))
      = v (ix1 (0 : Fin 1)) := by
  rw [broadcastInDim_apply _ _ _ _ (ix2 (0 : Fin 1) (0 : Fin 1)) (fun a => by
    match a with
    | ⟨0, _⟩ => rfl
    | ⟨1, _⟩ => rfl)]
  exact broadcastInDim_apply _ _ _ _ (ix1 (0 : Fin 1)) (fun a => by
    match a with
    | ⟨0, _⟩ => rfl)

/-- The logistic spelt out, on a column plus its bias, at an edge. -/
private theorem logisticCol_apply (z : FVec Ideal S600000x1 .f32) (a17 : FVec Ideal S1 .f32) (e : Fin 600000) :
    Host.divf (broadcastInDim S600000x1 ![] bcast_S_S600000x1 (constant (F := Ideal) S_ .f32 0x3F800000#32))
      (addf (broadcastInDim S600000x1 ![] bcast_S_S600000x1 (constant (F := Ideal) S_ .f32 0x3F800000#32))
        (Host.exp (Host.negf (addf z (broadcastInDim S600000x1 ![0, 1] bcast_S1x1_S600000x1_0_1
          (broadcastInDim S1x1 ![1] bcast_S1_S1x1_1 a17)))))) (ix2 e (0 : Fin 1))
      = Ideal.logistic (z (ix2 e (0 : Fin 1)) + a17 (ix1 (0 : Fin 1))) := by
  have e1 : ∀ (A B : FVec Ideal S600000x1 .f32), Host.divf A B (ix2 e (0 : Fin 1)) = Ideal.div (A (ix2 e 0)) (B (ix2 e 0)) := fun _ _ => rfl
  have e2 : ∀ (A B : FVec Ideal S600000x1 .f32), addf A B (ix2 e (0 : Fin 1)) = A (ix2 e 0) + B (ix2 e 0) := fun _ _ => rfl
  have e3 : ∀ (A : FVec Ideal S600000x1 .f32), Host.exp A (ix2 e (0 : Fin 1)) = Ideal.exp (A (ix2 e 0)) := fun _ => rfl
  have e4 : ∀ (A : FVec Ideal S600000x1 .f32), Host.negf A (ix2 e (0 : Fin 1)) = -(A (ix2 e 0)) := fun _ => rfl
  rw [e1, e2, e3, e4, e2, biasOne_apply, splat_apply, one_f32]
  rfl

/-- The first layer of the gate perceptron with its rectifier, at (e, k). -/
private theorem reluLin_apply (X : FVec Ideal S600000x48 .f32) (a14 : FVec Ideal S48x128 .f32) (a15 : FVec Ideal S128 .f32) (e : Fin 600000) (k : Fin 128) :
    maximumf (addf (Host.dotGeneral dot_S600000x48_S48x128_S600000x128_1_0_0_1_n_n none X a14)
        (broadcastInDim S600000x128 ![0, 1] bcast_S1x128_S600000x128_0_1 (broadcastInDim S1x128 ![1] bcast_S128_S1x128_1 a15)))
      (broadcastInDim S600000x128 ![] bcast_S_S600000x128 (constant (F := Ideal) S_ .f32 0x00000000#32)) (ix2 e k)
      = Spec.relu (Spec.lin (Spec.matOf a14) (Spec.vecOf a15) (fun q => X (ix2 e q)) k) := by
  have e1 : ∀ (A B : FVec Ideal S600000x128 .f32), maximumf A B (ix2 e k) = max (A (ix2 e k)) (B (ix2 e k)) := fun _ _ => rfl
  have e2 : ∀ (A B : FVec Ideal S600000x128 .f32), addf A B (ix2 e k) = A (ix2 e k) + B (ix2 e k) := fun _ _ => rfl
  rw [e1, e2, Cert.LibPlainDot.dotGeneral_apply dot_S600000x48_S48x128_S600000x128_1_0_0_1_n_n rfl, biasRow_apply, splat_apply, Ideal.ofBits_zero_f32]
  rfl

/-- A sum over the middle axis of three, from zero, read at an index. -/
private theorem reduce3_apply {N : Nat} (X : FVec Ideal ⟨3, ![N, 3, 16]⟩ .f32)
    (h' : (⟨3, ![N, 3, 16]⟩ : Shape).ReducesTo [1] ⟨2, ![N, 16]⟩) (h : (⟨3, ![N, 3, 16]⟩ : Shape).Reduces [1] ⟨2, ![N, 16]⟩)
    (hu : 0 < S_.numel) (n : Fin N) (w : Fin 16) :
    Host.reduceAdd X (constant (F := Ideal) S_ .f32 0x00000000#32) h' hu (ix2 n w) = ∑ a : Fin 3, X (ix3 n a w) := by
  show Ideal.hostReduceAdd h' X (Ideal.ofBits .f32 0x00000000#32) (ix2 n w) = _
  rw [Ideal.hostReduceAdd_single h' h, Ideal.ofBits_zero_f32, zero_add]
  refine Finset.sum_congr rfl (fun a _ => congrArg X (funext fun c => ?_))
  match c with
  | ⟨0, _⟩ => rfl
  | ⟨1, _⟩ => rfl
  | ⟨2, _⟩ => rfl

/-- The table of node norms at node n and wavelet w. -/
private theorem normTable_apply (a2 : FVec Ideal S50000x3x16 .f32) (n : Fin 50000) (w : Fin 16) :
    Host.sqrt (Host.reduceAdd (mulf a2 a2) (constant (F := Ideal) S_ .f32 0x00000000#32) reducesTo_S50000x3x16_S50000x16_d1 h_S_) (ix2 n w)
      = Spec.norm3 (fun a => a2 (ix3 n a w)) := by
  have e : ∀ (T : FVec Ideal S50000x16 .f32), Host.sqrt T (ix2 n w) = Ideal.sqrt (T (ix2 n w)) := fun T => rfl
  rw [e, reduce3_apply _ _ (by decide)]
  rfl

/-- The cosine column at (e, w), from the two gathered features and the two norm columns. -/
private theorem cosCol_apply (ns nd : FVec Ideal S600000x16 .f32) (G1 G2 : FVec Ideal S600000x3x16 .f32) (e : Fin 600000) (w : Fin 16) :
    Host.divf (Host.reduceAdd (mulf G1 G2) (constant (F := Ideal) S_ .f32 0x00000000#32) reducesTo_S600000x3x16_S600000x16_d1 h_S_)
      (addf (mulf ns nd) (broadcastInDim S600000x16 ![] bcast_S_S600000x16 (constant (F := Ideal) S_ .f32 0x322BCC77#32))) (ix2 e w)
      = Ideal.div (∑ a : Fin 3, G1 (ix3 e a w) * G2 (ix3 e a w)) (ns (ix2 e w) * nd (ix2 e w) + Spec.epsCos) := by
  have e1 : ∀ (A B : FVec Ideal S600000x16 .f32), Host.divf A B (ix2 e w) = Ideal.div (A (ix2 e w)) (B (ix2 e w)) := fun _ _ => rfl
  have e2 : ∀ (A B : FVec Ideal S600000x16 .f32), addf A B (ix2 e w) = A (ix2 e w) + B (ix2 e w) := fun _ _ => rfl
  rw [e1, e2, reduce3_apply _ _ (by decide), splat_apply]
  rfl

/-- A row of edge_index, cut out and flattened, read at an edge. -/
private theorem sliceRow_apply (a3 : IVec S2x600000 32) (o : Nat) (h : S2x600000.Slices ![o, 0] S1x600000)
    (hc : S1x600000.ShapeCasts S600000) (e : Fin 600000) (k : Fin 2) (hk : k.val = o) :
    shapeCast S600000 (extractStridedSlice S1x600000 ![o, 0] a3 h) hc (ix1 e) = a3 (ix2 k e) := by
  rw [shapeCast_1a_a_apply]
  exact slice2_axis0_apply o a3 h 0 e k (by rw [hk]; rfl)

/-- A word that reads as a non-negative integer is not below zero. -/
private theorem cmpi_slt_zero (x : BitVec 32) (h0 : 0 ≤ x.toInt) : IntOp.cmpi .slt x 0#32 = 0#1 := by
  unfold IntOp.cmpi
  have : x.slt 0#32 = false := by
    rw [BitVec.slt_eq_decide]
    simp; omega
  rw [this]; rfl

/-- The wrapped index column at an edge whose index is not negative is the index. -/
private theorem wrap_apply (x : IVec S600000 32) (e : Fin 600000) (h0 : 0 ≤ (x (ix1 e)).toInt) :
    broadcastInDim S600000x1 ![0] bcast_S600000_S600000x1_0
      (select (cmpi .slt x (broadcastInDim S600000 ![] bcast_S_S600000 (constantI S_ 32 0#32)))
        (addi x (broadcastInDim S600000 ![] bcast_S_S600000 (constantI S_ 32 50000#32))) x) (ix2 e (0 : Fin 1))
      = x (ix1 e) := by
  rw [broadcastInDim_apply _ _ _ _ (ix1 e) (fun a => by
    obtain rfl : a = 0 := Subsingleton.elim _ _
    rfl)]
  show Scalar.select (IntOp.cmpi .slt (x (ix1 e)) 0#32) _ _ = _
  rw [cmpi_slt_zero _ h0, select_zero]

/-- The row gather of the program read at (e, w): the table's row the start index names. -/
private theorem gatherRow_apply (T : FVec Ideal S50000x16 .f32) (idx : IVec S600000x1 32) (e : Fin 600000) (w : Fin 16) :
    Host.gather gather_S50000x16_S600000x1_S600000x16_1_0_n_n_0_1_116 T idx (ix2 e w)
      = T (ix2 (Spec.clampNode (idx (ix2 e (0 : Fin 1)))) w) :=
  HostIdx2.gather_rows_apply (by decide) _ rfl rfl rfl rfl rfl rfl rfl T idx e w

/-- The slab gather of the program read at (e, a, w). -/
private theorem gatherSlab_apply (V : FVec Ideal S50000x3x16 .f32) (idx : IVec S600000x1 32) (e : Fin 600000) (a : Fin 3) (w : Fin 16) :
    Host.gather gather_S50000x3x16_S600000x1_S600000x3x16_12_0_n_n_0_1_1316 V idx (ix3 e a w)
      = V (ix3 (Spec.clampNode (idx (ix2 e (0 : Fin 1)))) a w) :=
  HostIdx3.gather_slabs_apply (by decide) _ rfl rfl rfl rfl rfl rfl rfl V idx e a w

/-- Three blocks of sixteen columns side by side, read at column q. -/
private theorem concat3_apply (ns nd cs : FVec Ideal S600000x16 .f32)
    (h : Shape.Concatenates [S600000x16, S600000x16, S600000x16] S600000x48 1) (e : Fin 600000) (q : Fin 48) :
    concatenate S600000x48 1 [⟨S600000x16, ns⟩, ⟨S600000x16, nd⟩, ⟨S600000x16, cs⟩] h (ix2 e q)
      = if h1 : q.val < 16 then ns (ix2 e ⟨q.val, h1⟩)
        else if h2 : q.val < 32 then nd (ix2 e ⟨q.val - 16, by omega⟩)
        else cs (ix2 e ⟨q.val - 32, by omega⟩) := by
  by_cases h1 : q.val < 16
  · rw [dif_pos h1]
    refine concatenate_apply_piece (t := S600000x48) 1 [⟨S600000x16, ns⟩, ⟨S600000x16, nd⟩, ⟨S600000x16, cs⟩] h (ix2 e q) 0 (by show 0 < 3; omega) S600000x16 ns rfl rfl 0 rfl (ix2 e ⟨q.val, h1⟩) (fun b hb => ?_) ?_
    · match b with
      | ⟨0, _⟩ => rfl
      | ⟨1, _⟩ => exact absurd rfl hb
    · exact Nat.zero_add _
  · rw [dif_neg h1]
    by_cases h2 : q.val < 32
    · rw [dif_pos h2]
      refine concatenate_apply_piece (t := S600000x48) 1 [⟨S600000x16, ns⟩, ⟨S600000x16, nd⟩, ⟨S600000x16, cs⟩] h (ix2 e q) 1 (by show 1 < 3; omega) S600000x16 nd rfl rfl 16 rfl (ix2 e ⟨q.val - 16, by omega⟩) (fun b hb => ?_) ?_
      · match b with
        | ⟨0, _⟩ => rfl
        | ⟨1, _⟩ => exact absurd rfl hb
      · show 16 + (q.val - 16) = q.val
        omega
    · rw [dif_neg h2]
      refine concatenate_apply_piece (t := S600000x48) 1 [⟨S600000x16, ns⟩, ⟨S600000x16, nd⟩, ⟨S600000x16, cs⟩] h (ix2 e q) 2 (by show 2 < 3; omega) S600000x16 cs rfl rfl 32 rfl (ix2 e ⟨q.val - 32, by omega⟩) (fun b hb => ?_) ?_
      · match b with
        | ⟨0, _⟩ => rfl
        | ⟨1, _⟩ => exact absurd rfl hb
      · show 32 + (q.val - 32) = q.val
        omega

/-- The gate perceptron and the logistic on a row of invariants: the specification's weight of that row. -/
private theorem alpha_of_parts (X : FVec Ideal S600000x48 .f32) (a14 : FVec Ideal S48x128 .f32) (a15 : FVec Ideal S128 .f32)
    (a16 : FVec Ideal S128x1 .f32) (a17 : FVec Ideal S1 .f32) (e : Fin 600000) (vr vc : Fin 3 → Fin 16 → EReal)
    (hX : ∀ q, X (ix2 e q) = Spec.eiRow vr vc q) :
    Host.divf (broadcastInDim S600000x1 ![] bcast_S_S600000x1 (constant (F := Ideal) S_ .f32 0x3F800000#32))
      (addf (broadcastInDim S600000x1 ![] bcast_S_S600000x1 (constant (F := Ideal) S_ .f32 0x3F800000#32))
        (Host.exp (Host.negf (addf
          (Host.dotGeneral dot_S600000x128_S128x1_S600000x1_1_0_0_1_n_n none
            (maximumf (addf (Host.dotGeneral dot_S600000x48_S48x128_S600000x128_1_0_0_1_n_n none X a14)
                (broadcastInDim S600000x128 ![0, 1] bcast_S1x128_S600000x128_0_1 (broadcastInDim S1x128 ![1] bcast_S128_S1x128_1 a15)))
              (broadcastInDim S600000x128 ![] bcast_S_S600000x128 (constant (F := Ideal) S_ .f32 0x00000000#32)))
            a16)
          (broadcastInDim S600000x1 ![0, 1] bcast_S1x1_S600000x1_0_1 (broadcastInDim S1x1 ![1] bcast_S1_S1x1_1 a17)))))) (ix2 e (0 : Fin 1))
      = Spec.alphaRow (Spec.matOf a14) (Spec.vecOf a15) (Spec.colOf a16) (a17 (ix1 (0 : Fin 1))) vr vc := by
  have hX' : (fun q => X (ix2 e q)) = Spec.eiRow vr vc := funext hX
  rw [logisticCol_apply, Cert.LibPlainDot.dotGeneral_apply dot_S600000x128_S128x1_S600000x1_1_0_0_1_n_n rfl]
  unfold Spec.alphaRow
  congr 2
  refine Finset.sum_congr rfl fun k _ => ?_
  rw [reluLin_apply, hX']
  rfl

/-- The row of invariants from its pieces: two norm columns, and the cosine column made of them and of the two gathered features. -/
private theorem eiRow_of_parts (ns nd : FVec Ideal S600000x16 .f32) (G1 G2 : FVec Ideal S600000x3x16 .f32) (e : Fin 600000)
    (vr vc : Fin 3 → Fin 16 → EReal)
    (hns : ∀ w, ns (ix2 e w) = Spec.norm3 (fun a => vr a w)) (hnd : ∀ w, nd (ix2 e w) = Spec.norm3 (fun a => vc a w))
    (hG1 : ∀ a w, G1 (ix3 e a w) = vr a w) (hG2 : ∀ a w, G2 (ix3 e a w) = vc a w) (q : Fin 48) :
    concatenate S600000x48 1 [⟨S600000x16, ns⟩, ⟨S600000x16, nd⟩,
      ⟨S600000x16, Host.divf (Host.reduceAdd (mulf G1 G2) (constant (F := Ideal) S_ .f32 0x00000000#32) reducesTo_S600000x3x16_S600000x16_d1 h_S_)
        (addf (mulf ns nd) (broadcastInDim S600000x16 ![] bcast_S_S600000x16 (constant (F := Ideal) S_ .f32 0x322BCC77#32)))⟩]
      concatenates_S600000x16_S600000x16_S600000x16_S600000x48_d1 (ix2 e q)
      = Spec.eiRow vr vc q := by
  rw [concat3_apply]
  unfold Spec.eiRow
  by_cases h1 : q.val < 16
  · rw [dif_pos h1, dif_pos h1]
    exact hns _
  · rw [dif_neg h1, dif_neg h1]
    by_cases h2 : q.val < 32
    · rw [dif_pos h2, dif_pos h2]
      exact hnd _
    · rw [dif_neg h2, dif_neg h2, cosCol_apply, hns, hnd]
      unfold Spec.cos3
      congr 1
      exact Finset.sum_congr rfl (fun a _ => by rw [hG1, hG2])

/-- The wrapped index column cut from row o of edge_index, at an edge: the entry itself, which is not negative. -/
private theorem idxCol_apply (a3 : IVec S2x600000 32) (hpre : Spec.InRange a3) (o : Nat) (h : S2x600000.Slices ![o, 0] S1x600000)
    (hc : S1x600000.ShapeCasts S600000) (r : Fin 2) (hr : r.val = o) (e : Fin 600000) :
    broadcastInDim S600000x1 ![0] bcast_S600000_S600000x1_0
      (select (cmpi .slt (shapeCast S600000 (extractStridedSlice S1x600000 ![o, 0] a3 h) hc)
          (broadcastInDim S600000 ![] bcast_S_S600000 (constantI S_ 32 0#32)))
        (addi (shapeCast S600000 (extractStridedSlice S1x600000 ![o, 0] a3 h) hc)
          (broadcastInDim S600000 ![] bcast_S_S600000 (constantI S_ 32 50000#32)))
        (shapeCast S600000 (extractStridedSlice S1x600000 ![o, 0] a3 h) hc)) (ix2 e (0 : Fin 1))
      = a3 (ix2 r e) := by
  rw [wrap_apply _ _ (by rw [sliceRow_apply a3 o h hc e r hr]; exact (hpre r e).1), sliceRow_apply a3 o h hc e r hr]

/-- A gathered norm column at (e, w): the norm of the end node's three components at wavelet w. -/
private theorem nsCol_apply (a2 : FVec Ideal S50000x3x16 .f32) (a3 : IVec S2x600000 32) (idx : IVec S600000x1 32) (r : Fin 2) (e : Fin 600000)
    (hidx : idx (ix2 e (0 : Fin 1)) = a3 (ix2 r e)) (w : Fin 16) :
    Host.gather gather_S50000x16_S600000x1_S600000x16_1_0_n_n_0_1_116
      (Host.sqrt (Host.reduceAdd (mulf a2 a2) (constant (F := Ideal) S_ .f32 0x00000000#32) reducesTo_S50000x3x16_S50000x16_d1 h_S_))
      idx (ix2 e w)
      = Spec.norm3 (fun a => Spec.slabOf a2 (Spec.nodeAt a3 r e) a w) := by
  rw [gatherRow_apply, hidx, normTable_apply]
  rfl

/-- A gathered vector feature at (e, a, w): the end node's. -/
private theorem slabCol_apply (a2 : FVec Ideal S50000x3x16 .f32) (a3 : IVec S2x600000 32) (idx : IVec S600000x1 32) (r : Fin 2) (e : Fin 600000)
    (hidx : idx (ix2 e (0 : Fin 1)) = a3 (ix2 r e)) (a : Fin 3) (w : Fin 16) :
    Host.gather gather_S50000x3x16_S600000x1_S600000x3x16_12_0_n_n_0_1_1316 a2 idx (ix3 e a w)
      = Spec.slabOf a2 (Spec.nodeAt a3 r e) a w := by
  rw [gatherSlab_apply, hidx]
  rfl

/-- The edge weight column at edge e. -/
theorem tAlpha_apply (a2 : FVec Ideal S50000x3x16 .f32) (a3 : IVec S2x600000 32) (hpre : Spec.InRange a3)
    (a14 : FVec Ideal S48x128 .f32) (a15 : FVec Ideal S128 .f32) (a16 : FVec Ideal S128x1 .f32) (a17 : FVec Ideal S1 .f32) (e : Fin 600000) :
    tAlpha (F := Ideal) a2 a3 a14 a15 a16 a17 (ix2 e (0 : Fin 1))
      = Spec.alpha (fun e => Spec.slabOf a2 (Spec.nodeAt a3 0 e)) (fun e => Spec.slabOf a2 (Spec.nodeAt a3 1 e)) a14 a15 a16 a17 e := by
  have hc0 := idxCol_apply a3 hpre 0 slices_S2x600000_S1x600000_0_0 shapeCasts_S1x600000_S600000 0 rfl e
  have hc1 := idxCol_apply a3 hpre 1 slices_S2x600000_S1x600000_1_0 shapeCasts_S1x600000_S600000 1 rfl e
  unfold tAlpha Spec.alpha
  dsimp only
  exact alpha_of_parts _ a14 a15 a16 a17 e _ _ (fun q =>
    eiRow_of_parts _ _ _ _ e _ _ (nsCol_apply a2 a3 _ 0 e hc0) (nsCol_apply a2 a3 _ 1 e hc1)
      (slabCol_apply a2 a3 _ 0 e hc0) (slabCol_apply a2 a3 _ 1 e hc1) q)

end Cert.ReferenceIdeal.RefRead

end
-- ==== Proof.RefNode.lean ====
/-
  The reference's node side read at an index: the weighting of the updated edge features by the weight column, the node
  perceptron with its residual over the scattered sums, and the gating of the vector features by the logistic (spelt
  out as 1 / (1 + exp (-x))) of the gate logits, broadcast over the three components.
-/
import proofs.«422732_j45208825757707_3_alg».proof.Proof.RefTerms
import proofs.«422732_j45208825757707_3_alg».proof.Proof.Spec
import proofs.«422732_j45208825757707_3_alg».proof.Proof.SpecIdx
import proofs.«422732_j45208825757707_3_alg».proof.Proof.LibPlainDot
import Idealize.ShloMosaic.PureOps.Ideal.Laws
import Idealize.ShloMosaic.Lib.Pipeline.Value
import Idealize.ShloMosaic.Lib.ValueLayout
import Idealize.ShloMosaic.Lib.IdealHost
set_option maxRecDepth 16384

noncomputable section

namespace Cert.ReferenceIdeal.RefRead

open Cert.ReferenceIdeal Cert.ReferenceIdeal.Gen Cert.ReferenceIdeal.RefTerms Idealize.ShloMosaic Idealize.ShloMosaic.TcCoe Idealize.ShloMosaic.ValueIdx
open scoped BigOperators

/-! ## Broadcasts read at an index -/

/-- A column [N,1] laid along the second axis of [N,C], read at (p, q): the column at (p, 0). -/
private theorem bcast_col_apply {α : Type} {N C : Nat} (h : (⟨2, ![N, 1]⟩ : Shape).BroadcastsInDim ⟨2, ![N, C]⟩ ![0, 1])
    (v : (⟨2, ![N, 1]⟩ : Shape).Idx → α) (p : Fin N) (q : Fin C) :
    broadcastInDim ⟨2, ![N, C]⟩ ![0, 1] h v (ix2 p q) = v (ix2 p (0 : Fin 1)) := by
  refine broadcastInDim_apply _ h v _ _ (fun a => ?_)
  match a with
  | ⟨0, _⟩ =>
    show p.val = if N = 1 then 0 else p.val
    split
    · next h1 => have := p.isLt; omega
    · rfl
  | ⟨1, _⟩ => rfl

/-- A vector [C] as a row [1,C], read at (0, q): the vector at q. -/
private theorem bcast_row1_apply {α : Type} {C : Nat} (h : (⟨1, ![C]⟩ : Shape).BroadcastsInDim ⟨2, ![1, C]⟩ ![1])
    (v : (⟨1, ![C]⟩ : Shape).Idx → α) (p : Fin 1) (q : Fin C) :
    broadcastInDim ⟨2, ![1, C]⟩ ![1] h v (ix2 p q) = v (ix1 q) := by
  refine broadcastInDim_apply _ h v _ _ (fun a => ?_)
  match a with
  | ⟨0, _⟩ =>
    show q.val = if C = 1 then 0 else q.val
    split
    · next h1 => have := q.isLt; omega
    · rfl

/-- A row [1,C] laid down the first axis of [N,C], read at (p, q): the row at (0, q). -/
private theorem bcast_row_apply {α : Type} {N C : Nat} (h : (⟨2, ![1, C]⟩ : Shape).BroadcastsInDim ⟨2, ![N, C]⟩ ![0, 1])
    (v : (⟨2, ![1, C]⟩ : Shape).Idx → α) (p : Fin N) (q : Fin C) :
    broadcastInDim ⟨2, ![N, C]⟩ ![0, 1] h v (ix2 p q) = v (ix2 (0 : Fin 1) q) := by
  refine broadcastInDim_apply _ h v _ _ (fun a => ?_)
  match a with
  | ⟨0, _⟩ => rfl
  | ⟨1, _⟩ =>
    show q.val = if C = 1 then 0 else q.val
    split
    · next h1 => have := q.isLt; omega
    · rfl

/-- A table [N,C] with a unit middle axis inserted, [N,1,C], read at (p, z, q): the table at (p, q). -/
private theorem bcast_mid1_apply {α : Type} {N C : Nat} (h : (⟨2, ![N, C]⟩ : Shape).BroadcastsInDim ⟨3, ![N, 1, C]⟩ ![0, 2])
    (v : (⟨2, ![N, C]⟩ : Shape).Idx → α) (p : Fin N) (z : Fin 1) (q : Fin C) :
    broadcastInDim ⟨3, ![N, 1, C]⟩ ![0, 2] h v (ix3 p z q) = v (ix2 p q) := by
  refine broadcastInDim_apply _ h v _ _ (fun a => ?_)
  match a with
  | ⟨0, _⟩ =>
    show p.val = if N = 1 then 0 else p.val
    split
    · next h1 => have := p.isLt; omega
    · rfl
  | ⟨1, _⟩ =>
    show q.val = if C = 1 then 0 else q.val
    split
    · next h1 => have := q.isLt; omega
    · rfl

/-- An array [N,1,C] repeated along its middle axis to [N,A,C], read at (p, a, q): the array at (p, 0, q). -/
private theorem bcast_mid_apply {α : Type} {N A C : Nat} (h : (⟨3, ![N, 1, C]⟩ : Shape).BroadcastsInDim ⟨3, ![N, A, C]⟩ ![0, 1, 2])
    (v : (⟨3, ![N, 1, C]⟩ : Shape).Idx → α) (p : Fin N) (a : Fin A) (q : Fin C) :
    broadcastInDim ⟨3, ![N, A, C]⟩ ![0, 1, 2] h v (ix3 p a q) = v (ix3 p (0 : Fin 1) q) := by
  refine broadcastInDim_apply _ h v _ _ (fun d => ?_)
  match d with
  | ⟨0, _⟩ =>
    show p.val = if N = 1 then 0 else p.val
    split
    · next h1 => have := p.isLt; omega
    · rfl
  | ⟨1, _⟩ => rfl
  | ⟨2, _⟩ =>
    show q.val = if C = 1 then 0 else q.val
    split
    · next h1 => have := q.isLt; omega
    · rfl

/-! ## The weighted messages -/

/-- The weighted messages at an index: the updated edge feature times the edge's weight. -/
theorem tWt_apply (m2 : FVec Ideal S600000x128 .f32) (alpha : FVec Ideal S600000x1 .f32) (i : S600000x128.Idx) :
    tWt (F := Ideal) m2 alpha i = m2 i * alpha (ix2 (i 0) (0 : Fin 1)) := by
  obtain ⟨e, j, rfl⟩ : ∃ (e : Fin 600000) (j : Fin 128), i = ix2 e j := ⟨i 0, i 1, eq_ix2 i⟩
  unfold tWt
  show m2 (ix2 e j) * broadcastInDim S600000x128 ![0, 1] bcast_S600000x1_S600000x128_0_1 alpha (ix2 e j) = _
  rw [bcast_col_apply]

/-! ## The node perceptron -/

/-- The hidden layer of the node perceptron at (n, k): relu of the linear layer on row n. -/
private theorem hidden_apply (u : FVec Ideal S50000x128 .f32) (w : FVec Ideal S128x128 .f32) (b : FVec Ideal S128 .f32)
    (n : Fin 50000) (k : Fin 128) :
    maximumf (addf (Host.dotGeneral dot_S50000x128_S128x128_S50000x128_1_0_0_1_n_n none u w)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) (ix2 n k)
      = Spec.relu (Spec.lin (Spec.matOf w) (Spec.vecOf b) (Spec.rowOf u n) k) := by
  show max (Host.dotGeneral dot_S50000x128_S128x128_S50000x128_1_0_0_1_n_n none u w (ix2 n k)
        + broadcastInDim S50000x128 ![0, 1] bcast_S1x128_S50000x128_0_1 (broadcastInDim S1x128 ![1] bcast_S128_S1x128_1 b) (ix2 n k))
      (broadcastInDim S50000x128 ![] bcast_S_S50000x128 (constant (F := Ideal) S_ .f32 0x00000000#32) (ix2 n k)) = _
  rw [Cert.LibPlainDot.dotGeneral_apply dot_S50000x128_S128x128_S50000x128_1_0_0_1_n_n rfl, bcast_row_apply, bcast_row1_apply,
    broadcastInDim_scalar_apply, constant_apply, Ideal.ofBits_zero_f32]
  rfl

/-- The updated node features, as one whole-array function of the node features and the scattered sums. -/
theorem tX2_eq (a0 mi : FVec Ideal S50000x128 .f32) (a10 : FVec Ideal S128x128 .f32) (a11 : FVec Ideal S128 .f32)
    (a12 : FVec Ideal S128x128 .f32) (a13 : FVec Ideal S128 .f32) :
    tX2 (F := Ideal) a0 a10 a11 a12 a13 mi = Spec.X2 a0 mi a10 a11 a12 a13 := by
  funext i
  obtain ⟨n, j, rfl⟩ : ∃ (n : Fin 50000) (j : Fin 128), i = ix2 n j := ⟨i 0, i 1, eq_ix2 i⟩
  unfold tX2
  show (a0 (ix2 n j)
      + Host.dotGeneral dot_S50000x128_S128x128_S50000x128_1_0_0_1_n_n none
          (maximumf (addf (Host.dotGeneral dot_S50000x128_S128x128_S50000x128_1_0_0_1_n_n none mi a10)
              (broadcastInDim S50000x128 ![0, 1] bcast_S1x128_S50000x128_0_1 (broadcastInDim S1x128 ![1] bcast_S128_S1x128_1 a11)))
            (broadcastInDim S50000x128 ![] bcast_S_S50000x128 (constant (F := Ideal) S_ .f32 0x00000000#32))) a12 (ix2 n j))
      + broadcastInDim S50000x128 ![0, 1] bcast_S1x128_S50000x128_0_1 (broadcastInDim S1x128 ![1] bcast_S128_S1x128_1 a13) (ix2 n j) = _
  rw [Cert.LibPlainDot.dotGeneral_apply dot_S50000x128_S128x128_S50000x128_1_0_0_1_n_n rfl, bcast_row_apply, bcast_row1_apply]
  show _ = (a0 (ix2 n j) + ∑ k, Spec.relu (Spec.lin (Spec.matOf a10) (Spec.vecOf a11) (Spec.rowOf mi n) k) * a12 (ix2 k j))
      + a13 (ix1 j)
  refine congrArg (· + a13 (ix1 j)) (congrArg (a0 (ix2 n j) + ·) (Finset.sum_congr rfl (fun c _ => ?_)))
  rw [hidden_apply]

/-! ## The gates -/

/-- The gate array at (n, w): the logistic, spelt out, of the gate logit. -/
private theorem gate_apply (x2 : FVec Ideal S50000x128 .f32) (gw : FVec Ideal S128x16 .f32) (gb : FVec Ideal S16 .f32)
    (n : Fin 50000) (w : Fin 16) :
    Host.divf (broadcastInDim S50000x16 ![] bcast_S_S50000x16 (constant (F := Ideal) S_ .f32 0x3F800000#32))
      (addf (broadcastInDim S50000x16 ![] bcast_S_S50000x16 (constant (F := Ideal) S_ .f32 0x3F800000#32))
        (Host.exp (Host.negf (addf (Host.dotGeneral dot_S50000x128_S128x16_S50000x16_1_0_0_1_n_n none x2 gw)
          (broadcastInDim S50000x16 ![0, 1] bcast_S1x16_S50000x16_0_1 (broadcastInDim S1x16 ![1] bcast_S16_S1x16_1 gb)))))) (ix2 n w)
      = Spec.gateRow (Spec.matOf gw) (Spec.vecOf gb) (Spec.rowOf x2 n) w := by
  show Ideal.div (broadcastInDim S50000x16 ![] bcast_S_S50000x16 (constant (F := Ideal) S_ .f32 0x3F800000#32) (ix2 n w))
      (broadcastInDim S50000x16 ![] bcast_S_S50000x16 (constant (F := Ideal) S_ .f32 0x3F800000#32) (ix2 n w)
        + Ideal.exp (-(Host.dotGeneral dot_S50000x128_S128x16_S50000x16_1_0_0_1_n_n none x2 gw (ix2 n w)
          + broadcastInDim S50000x16 ![0, 1] bcast_S1x16_S50000x16_0_1 (broadcastInDim S1x16 ![1] bcast_S16_S1x16_1 gb) (ix2 n w)))) = _
  rw [Cert.LibPlainDot.dotGeneral_apply dot_S50000x128_S128x16_S50000x16_1_0_0_1_n_n rfl, bcast_row_apply, bcast_row1_apply,
    broadcastInDim_scalar_apply, constant_apply, Ideal.ofBits_one_f32]
  rfl

/-- The gated vector features, from the updated node features given by the specification. -/
theorem tV2_eq (a2 : FVec Ideal S50000x3x16 .f32) (a0 mi : FVec Ideal S50000x128 .f32) (a10 : FVec Ideal S128x128 .f32) (a11 : FVec Ideal S128 .f32)
    (a12 : FVec Ideal S128x128 .f32) (a13 : FVec Ideal S128 .f32) (a18 : FVec Ideal S128x16 .f32) (a19 : FVec Ideal S16 .f32) :
    tV2 (F := Ideal) a2 a18 a19 (Spec.X2 a0 mi a10 a11 a12 a13) = Spec.V2 a2 a0 mi a10 a11 a12 a13 a18 a19 := by
  funext i
  obtain ⟨n, a, w, rfl⟩ : ∃ (n : Fin 50000) (a : Fin 3) (w : Fin 16), i = ix3 n a w := ⟨i 0, i 1, i 2, eq_ix3 i⟩
  unfold tV2
  show a2 (ix3 n a w)
      * broadcastInDim S50000x3x16 ![0, 1, 2] bcast_S50000x1x16_S50000x3x16_0_1_2
          (broadcastInDim S50000x1x16 ![0, 2] bcast_S50000x16_S50000x1x16_0_2
            (Host.divf (broadcastInDim S50000x16 ![] bcast_S_S50000x16 (constant (F := Ideal) S_ .f32 0x3F800000#32))
              (addf (broadcastInDim S50000x16 ![] bcast_S_S50000x16 (constant (F := Ideal) S_ .f32 0x3F800000#32))
                (Host.exp (Host.negf (addf (Host.dotGeneral dot_S50000x128_S128x16_S50000x16_1_0_0_1_n_n none (Spec.X2 a0 mi a10 a11 a12 a13) a18)
                  (broadcastInDim S50000x16 ![0, 1] bcast_S1x16_S50000x16_0_1 (broadcastInDim S1x16 ![1] bcast_S16_S1x16_1 a19)))))))) (ix3 n a w) = _
  rw [bcast_mid_apply, bcast_mid1_apply, gate_apply]
  rfl

end Cert.ReferenceIdeal.RefRead

end
-- ==== Proof.Bridge.lean ====
/-
  The two programs' results are one function of the arguments.  Each result of the reference, written as the program's
  own stage terms, is the specification's function: the updated edge features outright; the weighted messages under the
  precondition on edge_index (the rows its gathers read are the edges' end nodes); and the scatter-add into the nodes
  is, in both programs, the same operation applied to the same index column and the same weighted messages, so the
  scattered sums agree without the sum being opened; the node features and the gated vector features follow.
-/
import proofs.«422732_j45208825757707_3_alg».proof.Proof.KValue
import proofs.«422732_j45208825757707_3_alg».proof.Proof.RefStages
import proofs.«422732_j45208825757707_3_alg».proof.Proof.RefM2
import proofs.«422732_j45208825757707_3_alg».proof.Proof.RefAlpha
import proofs.«422732_j45208825757707_3_alg».proof.Proof.RefNode

set_option maxRecDepth 16384

noncomputable section

namespace Cert.Proof.Bridge

open Idealize.ShloMosaic Idealize.ShloMosaic.TcCoe Idealize.ShloMosaic.ValueIdx Cert

/-- The reference's weighted messages are the specification's, under the precondition on edge_index. -/
theorem ref_wt (a1 : FVec Ideal Cert.ReferenceIdeal.S600000x128 .f32) (a2 : FVec Ideal Cert.ReferenceIdeal.S50000x3x16 .f32) (a3 : IVec Cert.ReferenceIdeal.S2x600000 32) (a4 : FVec Ideal Cert.ReferenceIdeal.S128 .f32) (a5 : FVec Ideal Cert.ReferenceIdeal.S128 .f32) (a6 : FVec Ideal Cert.ReferenceIdeal.S128x128 .f32) (a7 : FVec Ideal Cert.ReferenceIdeal.S128 .f32) (a8 : FVec Ideal Cert.ReferenceIdeal.S128x128 .f32) (a9 : FVec Ideal Cert.ReferenceIdeal.S128 .f32) (a14 : FVec Ideal Cert.ReferenceIdeal.S48x128 .f32) (a15 : FVec Ideal Cert.ReferenceIdeal.S128 .f32) (a16 : FVec Ideal Cert.ReferenceIdeal.S128x1 .f32) (a17 : FVec Ideal Cert.ReferenceIdeal.S1 .f32) (hpre : Spec.InRange a3) :
    Cert.ReferenceIdeal.RefTerms.tWt (F := Ideal) (Cert.ReferenceIdeal.RefTerms.tM2 a1 a4 a5 a6 a7 a8 a9) (Cert.ReferenceIdeal.RefTerms.tAlpha a2 a3 a14 a15 a16 a17) = (Spec.Wt a1 a4 a5 a6 a7 a8 a9 (fun e => Spec.slabOf a2 (Spec.nodeAt a3 0 e)) (fun e => Spec.slabOf a2 (Spec.nodeAt a3 1 e)) a14 a15 a16 a17) := by
  funext i
  obtain ⟨e, j, rfl⟩ : ∃ (e : Fin 600000) (j : Fin 128), i = ix2 e j := ⟨i 0, i 1, eq_ix2 i⟩
  rw [Cert.ReferenceIdeal.RefRead.tWt_apply, Cert.ReferenceIdeal.RefRead.tM2_eq]
  show Spec.M2 a1 a4 a5 a6 a7 a8 a9 (ix2 e j) * Cert.ReferenceIdeal.RefTerms.tAlpha (F := Ideal) a2 a3 a14 a15 a16 a17 (ix2 e (0 : Fin 1)) = _
  rw [Cert.ReferenceIdeal.RefRead.tAlpha_apply a2 a3 hpre]
  rfl

/-- The scatter-add into the nodes is the same operation in the two programs. -/
theorem mi_eq (a3 : IVec Cert.ReferenceIdeal.S2x600000 32) (wt : FVec Ideal Cert.ReferenceIdeal.S600000x128 .f32) :
    Cert.ReferenceIdeal.RefTerms.tMi (F := Ideal) a3 wt = Cert.KernelIdeal.Val.kMi a3 wt := rfl

/-- The reference's updated edge features, from arrays equal to the kernel program's. -/
theorem ref_m2 {b1 : FVec Ideal Cert.ReferenceIdeal.S600000x128 .f32} {b4 : FVec Ideal Cert.ReferenceIdeal.S128 .f32} {b5 : FVec Ideal Cert.ReferenceIdeal.S128 .f32} {b6 : FVec Ideal Cert.ReferenceIdeal.S128x128 .f32} {b7 : FVec Ideal Cert.ReferenceIdeal.S128 .f32} {b8 : FVec Ideal Cert.ReferenceIdeal.S128x128 .f32} {b9 : FVec Ideal Cert.ReferenceIdeal.S128 .f32}
    {a1 : FVec Ideal Cert.KernelIdeal.S600000x128 .f32} {a4 : FVec Ideal Cert.KernelIdeal.S128 .f32} {a5 : FVec Ideal Cert.KernelIdeal.S128 .f32} {a6 : FVec Ideal Cert.KernelIdeal.S128x128 .f32} {a7 : FVec Ideal Cert.KernelIdeal.S128 .f32} {a8 : FVec Ideal Cert.KernelIdeal.S128x128 .f32} {a9 : FVec Ideal Cert.KernelIdeal.S128 .f32}
    (h1 : b1 = a1) (h4 : b4 = a4) (h5 : b5 = a5) (h6 : b6 = a6) (h7 : b7 = a7) (h8 : b8 = a8) (h9 : b9 = a9) :
    Cert.ReferenceIdeal.RefTerms.tM2 (F := Ideal) b1 b4 b5 b6 b7 b8 b9 = Spec.M2 a1 a4 a5 a6 a7 a8 a9 := by
  subst h1 h4 h5 h6 h7 h8 h9
  exact Cert.ReferenceIdeal.RefRead.tM2_eq _ _ _ _ _ _ _

/-- The reference's updated node features, from arrays equal to the kernel program's. -/
theorem ref_x2 {b0 : FVec Ideal Cert.ReferenceIdeal.S50000x128 .f32} {b1 : FVec Ideal Cert.ReferenceIdeal.S600000x128 .f32} {b2 : FVec Ideal Cert.ReferenceIdeal.S50000x3x16 .f32} {b3 : IVec Cert.ReferenceIdeal.S2x600000 32} {b4 : FVec Ideal Cert.ReferenceIdeal.S128 .f32} {b5 : FVec Ideal Cert.ReferenceIdeal.S128 .f32} {b6 : FVec Ideal Cert.ReferenceIdeal.S128x128 .f32} {b7 : FVec Ideal Cert.ReferenceIdeal.S128 .f32} {b8 : FVec Ideal Cert.ReferenceIdeal.S128x128 .f32} {b9 : FVec Ideal Cert.ReferenceIdeal.S128 .f32} {b10 : FVec Ideal Cert.ReferenceIdeal.S128x128 .f32} {b11 : FVec Ideal Cert.ReferenceIdeal.S128 .f32} {b12 : FVec Ideal Cert.ReferenceIdeal.S128x128 .f32} {b13 : FVec Ideal Cert.ReferenceIdeal.S128 .f32} {b14 : FVec Ideal Cert.ReferenceIdeal.S48x128 .f32} {b15 : FVec Ideal Cert.ReferenceIdeal.S128 .f32} {b16 : FVec Ideal Cert.ReferenceIdeal.S128x1 .f32} {b17 : FVec Ideal Cert.ReferenceIdeal.S1 .f32}
    {a0 : FVec Ideal Cert.KernelIdeal.S50000x128 .f32} {a1 : FVec Ideal Cert.KernelIdeal.S600000x128 .f32} {a2 : FVec Ideal Cert.KernelIdeal.S50000x3x16 .f32} {a3 : IVec Cert.KernelIdeal.S2x600000 32} {a4 : FVec Ideal Cert.KernelIdeal.S128 .f32} {a5 : FVec Ideal Cert.KernelIdeal.S128 .f32} {a6 : FVec Ideal Cert.KernelIdeal.S128x128 .f32} {a7 : FVec Ideal Cert.KernelIdeal.S128 .f32} {a8 : FVec Ideal Cert.KernelIdeal.S128x128 .f32} {a9 : FVec Ideal Cert.KernelIdeal.S128 .f32} {a10 : FVec Ideal Cert.KernelIdeal.S128x128 .f32} {a11 : FVec Ideal Cert.KernelIdeal.S128 .f32} {a12 : FVec Ideal Cert.KernelIdeal.S128x128 .f32} {a13 : FVec Ideal Cert.KernelIdeal.S128 .f32} {a14 : FVec Ideal Cert.KernelIdeal.S48x128 .f32} {a15 : FVec Ideal Cert.KernelIdeal.S128 .f32} {a16 : FVec Ideal Cert.KernelIdeal.S128x1 .f32} {a17 : FVec Ideal Cert.KernelIdeal.S1 .f32}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (hpre : Spec.InRange a3) :
    (Cert.ReferenceIdeal.RefTerms.tX2 (F := Ideal) b0 b10 b11 b12 b13 (Cert.ReferenceIdeal.RefTerms.tMi b3 (Cert.ReferenceIdeal.RefTerms.tWt (Cert.ReferenceIdeal.RefTerms.tM2 b1 b4 b5 b6 b7 b8 b9) (Cert.ReferenceIdeal.RefTerms.tAlpha b2 b3 b14 b15 b16 b17))))
      = Spec.X2 a0 (Cert.KernelIdeal.Val.kMi a3 (Spec.Wt a1 a4 a5 a6 a7 a8 a9 (fun e => Spec.slabOf a2 (Spec.nodeAt a3 0 e)) (fun e => Spec.slabOf a2 (Spec.nodeAt a3 1 e)) a14 a15 a16 a17)) a10 a11 a12 a13 := by
  subst h0 h1 h2 h3 h4 h5 h6 h7 h8 h9 h10 h11 h12 h13 h14 h15 h16 h17
  rw [ref_wt _ _ _ _ _ _ _ _ _ _ _ _ _ hpre, mi_eq, Cert.ReferenceIdeal.RefRead.tX2_eq]

/-- The reference's gated vector features, from arrays equal to the kernel program's. -/
theorem ref_v2 {b0 : FVec Ideal Cert.ReferenceIdeal.S50000x128 .f32} {b1 : FVec Ideal Cert.ReferenceIdeal.S600000x128 .f32} {b2 : FVec Ideal Cert.ReferenceIdeal.S50000x3x16 .f32} {b3 : IVec Cert.ReferenceIdeal.S2x600000 32} {b4 : FVec Ideal Cert.ReferenceIdeal.S128 .f32} {b5 : FVec Ideal Cert.ReferenceIdeal.S128 .f32} {b6 : FVec Ideal Cert.ReferenceIdeal.S128x128 .f32} {b7 : FVec Ideal Cert.ReferenceIdeal.S128 .f32} {b8 : FVec Ideal Cert.ReferenceIdeal.S128x128 .f32} {b9 : FVec Ideal Cert.ReferenceIdeal.S128 .f32} {b10 : FVec Ideal Cert.ReferenceIdeal.S128x128 .f32} {b11 : FVec Ideal Cert.ReferenceIdeal.S128 .f32} {b12 : FVec Ideal Cert.ReferenceIdeal.S128x128 .f32} {b13 : FVec Ideal Cert.ReferenceIdeal.S128 .f32} {b14 : FVec Ideal Cert.ReferenceIdeal.S48x128 .f32} {b15 : FVec Ideal Cert.ReferenceIdeal.S128 .f32} {b16 : FVec Ideal Cert.ReferenceIdeal.S128x1 .f32} {b17 : FVec Ideal Cert.ReferenceIdeal.S1 .f32} {b18 : FVec Ideal Cert.ReferenceIdeal.S128x16 .f32} {b19 : FVec Ideal Cert.ReferenceIdeal.S16 .f32}
    {a0 : FVec Ideal Cert.KernelIdeal.S50000x128 .f32} {a1 : FVec Ideal Cert.KernelIdeal.S600000x128 .f32} {a2 : FVec Ideal Cert.KernelIdeal.S50000x3x16 .f32} {a3 : IVec Cert.KernelIdeal.S2x600000 32} {a4 : FVec Ideal Cert.KernelIdeal.S128 .f32} {a5 : FVec Ideal Cert.KernelIdeal.S128 .f32} {a6 : FVec Ideal Cert.KernelIdeal.S128x128 .f32} {a7 : FVec Ideal Cert.KernelIdeal.S128 .f32} {a8 : FVec Ideal Cert.KernelIdeal.S128x128 .f32} {a9 : FVec Ideal Cert.KernelIdeal.S128 .f32} {a10 : FVec Ideal Cert.KernelIdeal.S128x128 .f32} {a11 : FVec Ideal Cert.KernelIdeal.S128 .f32} {a12 : FVec Ideal Cert.KernelIdeal.S128x128 .f32} {a13 : FVec Ideal Cert.KernelIdeal.S128 .f32} {a14 : FVec Ideal Cert.KernelIdeal.S48x128 .f32} {a15 : FVec Ideal Cert.KernelIdeal.S128 .f32} {a16 : FVec Ideal Cert.KernelIdeal.S128x1 .f32} {a17 : FVec Ideal Cert.KernelIdeal.S1 .f32} {a18 : FVec Ideal Cert.KernelIdeal.S128x16 .f32} {a19 : FVec Ideal Cert.KernelIdeal.S16 .f32}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) (hpre : Spec.InRange a3) :
    Cert.ReferenceIdeal.RefTerms.tV2 (F := Ideal) b2 b18 b19 (Cert.ReferenceIdeal.RefTerms.tX2 b0 b10 b11 b12 b13 (Cert.ReferenceIdeal.RefTerms.tMi b3 (Cert.ReferenceIdeal.RefTerms.tWt (Cert.ReferenceIdeal.RefTerms.tM2 b1 b4 b5 b6 b7 b8 b9) (Cert.ReferenceIdeal.RefTerms.tAlpha b2 b3 b14 b15 b16 b17))))
      = Spec.V2 a2 a0 (Cert.KernelIdeal.Val.kMi a3 (Spec.Wt a1 a4 a5 a6 a7 a8 a9 (fun e => Spec.slabOf a2 (Spec.nodeAt a3 0 e)) (fun e => Spec.slabOf a2 (Spec.nodeAt a3 1 e)) a14 a15 a16 a17)) a10 a11 a12 a13 a18 a19 := by
  subst h0 h1 h2 h3 h4 h5 h6 h7 h8 h9 h10 h11 h12 h13 h14 h15 h16 h17 h18 h19
  rw [ref_wt _ _ _ _ _ _ _ _ _ _ _ _ _ hpre, mi_eq, Cert.ReferenceIdeal.RefRead.tX2_eq, Cert.ReferenceIdeal.RefRead.tV2_eq]

end Cert.Proof.Bridge

end
-- ==== Proof.PreIdx.lean ====
/-
  What the precondition says of edge_index.  The precondition is the conjunction, folded left to right, of one
  "all entries" test per input; its last two tests are "every entry of edge_index is at least 0" and "every entry is
  less than 50000", both signed.  So under the precondition every entry of edge_index is a node number.
-/
import proofs.«422732_j45208825757707_3_alg».proof.Pre_finite_inputs
import proofs.«422732_j45208825757707_3_alg».proof.Proof.Gen.Pre_finite_inputs
import proofs.«422732_j45208825757707_3_alg».proof.Proof.SpecIdx
import Idealize.ShloMosaic.Lib.ReduceAll
import Idealize.ShloMosaic.Lib.Affine
import Idealize.ShloMosaic.Lib.IdealHost

noncomputable section

namespace Cert.PreIdx

open Idealize.ShloMosaic Idealize.ShloMosaic.ValueIdx Cert.Pre_finite_inputs Cert.Pre_finite_inputs.Gen

instance : Subsingleton S_.Idx := ⟨fun a b => funext fun d => d.elim0⟩

/-- Under the precondition every entry of edge_index lies in [0, 50000), read signed. -/
theorem inRange_of_pre (a0 : FVec Ideal S50000x128 .f32) (a1 : FVec Ideal S600000x128 .f32) (a2 : FVec Ideal S50000x3x16 .f32) (a3 : IVec S2x600000 32) (a4 : FVec Ideal S128 .f32) (a5 : FVec Ideal S128 .f32) (a6 : FVec Ideal S128x128 .f32) (a7 : FVec Ideal S128 .f32) (a8 : FVec Ideal S128x128 .f32) (a9 : FVec Ideal S128 .f32) (a10 : FVec Ideal S128x128 .f32) (a11 : FVec Ideal S128 .f32) (a12 : FVec Ideal S128x128 .f32) (a13 : FVec Ideal S128 .f32) (a14 : FVec Ideal S48x128 .f32) (a15 : FVec Ideal S128 .f32) (a16 : FVec Ideal S128x1 .f32) (a17 : FVec Ideal S1 .f32) (a18 : FVec Ideal S128x16 .f32) (a19 : FVec Ideal S16 .f32)
    (h : Cert.Pre_finite_inputs.fn (F := Ideal) a0 a1 a2 a3 a4 a5 a6 a7 a8 a9 a10 a11 a12 a13 a14 a15 a16 a17 a18 a19 = fun _ => 1#1) : Spec.InRange a3 := by
  have h0 := congrFun h ValueIdx.ix0
  dsimp only [fn, fn_part1, fn_part2, fn_part3, fn_part4, fn_part5] at h0
  obtain ⟨h1, hlt⟩ := IntOp.andi_eq_one.mp h0
  obtain ⟨-, hge⟩ := IntOp.andi_eq_one.mp h1
  intro r e
  have g := Host.reduce_andi_all _ _ _ _ _ hge (ix2 r e)
  have l := Host.reduce_andi_all _ _ _ _ _ hlt (ix2 r e)
  change IntOp.cmpi .sge (a3 (ix2 r e)) 0#32 = 1#1 at g
  change IntOp.cmpi .slt (a3 (ix2 r e)) 50000#32 = 1#1 at l
  have g' := IntOp.cmpi_sge.mp g
  have l' := IntOp.cmpi_slt.mp l
  have z : (0#32 : BitVec 32).toInt = 0 := by decide
  have k : (50000#32 : BitVec 32).toInt = 50000 := by decide
  rw [z] at g'
  rw [k] at l'
  exact ⟨g', l'⟩

end Cert.PreIdx

end
-- ==== Proof.lean ====
/-
  The certificate of the message-passing layer: the Pallas kernel program (an edge kernel and a node kernel around a
  gather of the vector features and a scatter-add into the nodes) against its jnp reference, over the extended reals.

  The precondition carries, beside the finiteness of the float inputs, that every entry of edge_index is a node number
  (0 ≤ entry < 50000).  Outside that domain the two programs differ (the kernel program's take fills an out-of-range
  row with a fill value, the reference's gather clamps the index); inside it both read the features of the edge's
  two end nodes.

  The three frames: the kernel programs' are the generated frame certificates; the reference's is its run with the
  results dropped (no operation writes an argument).  Nothing was rewritten by the ideal pass, so preservation is
  trivial.  The algebraic claim: both programs end with the updated node features, the updated edge features and the
  gated vector features at ONE function of the arguments each — the specification's —, the scatter-add between the two
  regions carried unopened as the same operation on both sides.
-/
import proofs.«422732_j45208825757707_3_alg».proof.Defs
import proofs.«422732_j45208825757707_3_alg».proof.Proof.Gen.Kernel.Frame
import proofs.«422732_j45208825757707_3_alg».proof.Proof.Gen.KernelIdeal.Frame
import proofs.«422732_j45208825757707_3_alg».proof.Proof.Gen.ReferenceIdeal
import proofs.«422732_j45208825757707_3_alg».proof.Proof.Gen.Pre_finite_inputs
import proofs.«422732_j45208825757707_3_alg».proof.Proof.KRun
import proofs.«422732_j45208825757707_3_alg».proof.Proof.KValue
import proofs.«422732_j45208825757707_3_alg».proof.Proof.RefRun
import proofs.«422732_j45208825757707_3_alg».proof.Proof.RefStages
import proofs.«422732_j45208825757707_3_alg».proof.Proof.Bridge
import proofs.«422732_j45208825757707_3_alg».proof.Proof.PreIdx
import Idealize.ShloMosaic.Adequacy
import Idealize.ShloMosaic.Init

set_option maxRecDepth 16384

noncomputable section

namespace Cert.Proof

open Idealize.ShloMosaic Idealize.ShloMosaic.TcCoe Idealize.SL.Sem Cert

theorem frame_k : Cert.frame_Kernel := fun m ρ _ => Cert.Kernel.Gen.frame m ρ
theorem frame_ki : Cert.frame_KernelIdeal := fun m ρ _ => Cert.KernelIdeal.Gen.frame m ρ

/-- The reference runs and no operation of it writes an argument: its run with the results dropped. -/
theorem frame_ri : Cert.frame_ReferenceIdeal := fun m ρ _ =>
  (θ_run Cert.ReferenceIdeal.defs _ _).mono (fun r h c => by
    obtain ⟨A0, A1, A2, A3, A4, A5, A6, A7, A8, A9, A10, A11, A12, A13, A14, A15, A16, A17, A18, A19⟩ := Cert.ReferenceIdeal.RefStages.args_eq (StableHlo.launchContents m c)
    exact ⟨(h c _).trans A0, (h c _).trans A1, (h c _).trans A2, (h c _).trans A3, (h c _).trans A4, (h c _).trans A5, (h c _).trans A6, (h c _).trans A7, (h c _).trans A8, (h c _).trans A9, (h c _).trans A10, (h c _).trans A11, (h c _).trans A12, (h c _).trans A13, (h c _).trans A14, (h c _).trans A15, (h c _).trans A16, (h c _).trans A17, (h c _).trans A18, (h c _).trans A19⟩)
    (Cert.ReferenceIdeal.RefRun.run_main (F := Ideal) m ρ)

/-- Both programs end with equal results: each result is the specification's function of the arguments. -/
theorem algebraic : Cert.algebraic_KernelIdeal_ReferenceIdeal := by
  intro m ρ m' ρ' hpre hagree
  have hin : ∀ c : Dev Cert.KernelIdeal.nD, Spec.InRange (m ((c.tc : Thread Cert.KernelIdeal.nD Cert.KernelIdeal.τ).loc Cert.KernelIdeal.main_arg3)) :=
    fun c => Cert.PreIdx.inRange_of_pre _ _ _ _ _ _ _ _ _ _ _ _ _ _ _ _ _ _ _ _ (hpre c)
  refine ⟨fun c => Spec.X2 (m ((c.tc : Thread Cert.KernelIdeal.nD Cert.KernelIdeal.τ).loc Cert.KernelIdeal.main_arg0)) (Cert.KernelIdeal.Val.kMi (m ((c.tc : Thread Cert.KernelIdeal.nD Cert.KernelIdeal.τ).loc Cert.KernelIdeal.main_arg3)) (Spec.Wt (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (fun e => Spec.slabOf (m ((c.tc : Thread Cert.KernelIdeal.nD Cert.KernelIdeal.τ).loc Cert.KernelIdeal.main_arg2)) (Spec.nodeAt (m ((c.tc : Thread Cert.KernelIdeal.nD Cert.KernelIdeal.τ).loc Cert.KernelIdeal.main_arg3)) 0 e)) (fun e => Spec.slabOf (m ((c.tc : Thread Cert.KernelIdeal.nD Cert.KernelIdeal.τ).loc Cert.KernelIdeal.main_arg2)) (Spec.nodeAt (m ((c.tc : Thread Cert.KernelIdeal.nD Cert.KernelIdeal.τ).loc Cert.KernelIdeal.main_arg3)) 1 e)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Spec.M2 (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Spec.V2 (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (Cert.KernelIdeal.Val.kMi (m ((c.tc : Thread Cert.KernelIdeal.nD Cert.KernelIdeal.τ).loc Cert.KernelIdeal.main_arg3)) (Spec.Wt (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (fun e => Spec.slabOf (m ((c.tc : Thread Cert.KernelIdeal.nD Cert.KernelIdeal.τ).loc Cert.KernelIdeal.main_arg2)) (Spec.nodeAt (m ((c.tc : Thread Cert.KernelIdeal.nD Cert.KernelIdeal.τ).loc Cert.KernelIdeal.main_arg3)) 0 e)) (fun e => Spec.slabOf (m ((c.tc : Thread Cert.KernelIdeal.nD Cert.KernelIdeal.τ).loc Cert.KernelIdeal.main_arg2)) (Spec.nodeAt (m ((c.tc : Thread Cert.KernelIdeal.nD Cert.KernelIdeal.τ).loc Cert.KernelIdeal.main_arg3)) 1 e)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    (θ_run Cert.KernelIdeal.defs _ _).mono (fun r h c => ?_) (Cert.KernelIdeal.ValRun.run_vals (F := Ideal) m ρ),
    (θ_run Cert.ReferenceIdeal.defs _ _).mono (fun r h c => ?_) (Cert.ReferenceIdeal.RefRun.run_main (F := Ideal) m' ρ')⟩
  · obtain ⟨h0, h1, h2, hargs⟩ := h c
    exact ⟨h0.trans (Cert.KernelIdeal.Val.W9_v13_0 m ρ hin c), h1.trans (Cert.KernelIdeal.Val.W9_v8_0 m ρ c), h2.trans (Cert.KernelIdeal.Val.W9_v14 m ρ hin c), hargs⟩
  · obtain ⟨e0, e1, e2, e3, e4, e5, e6, e7, e8, e9, e10, e11, e12, e13, e14, e15, e16, e17, e18, e19⟩ := hagree c
    obtain ⟨A0, A1, A2, A3, A4, A5, A6, A7, A8, A9, A10, A11, A12, A13, A14, A15, A16, A17, A18, A19⟩ := Cert.ReferenceIdeal.RefStages.args_eq (StableHlo.launchContents m' c)
    exact ⟨((h c _).trans (Cert.ReferenceIdeal.RefStages.v97_eq _)).trans (Bridge.ref_x2 e0 e1 e2 e3 e4 e5 e6 e7 e8 e9 e10 e11 e12 e13 e14 e15 e16 e17 (hin c)),
      ((h c _).trans (Cert.ReferenceIdeal.RefStages.v27_eq _)).trans (Bridge.ref_m2 e1 e4 e5 e6 e7 e8 e9),
      ((h c _).trans (Cert.ReferenceIdeal.RefStages.v110_eq _)).trans (Bridge.ref_v2 e0 e1 e2 e3 e4 e5 e6 e7 e8 e9 e10 e11 e12 e13 e14 e15 e16 e17 e18 e19 (hin c)),
      (h c _).trans A0, (h c _).trans A1, (h c _).trans A2, (h c _).trans A3, (h c _).trans A4, (h c _).trans A5, (h c _).trans A6, (h c _).trans A7, (h c _).trans A8, (h c _).trans A9, (h c _).trans A10, (h c _).trans A11, (h c _).trans A12, (h c _).trans A13, (h c _).trans A14, (h c _).trans A15, (h c _).trans A16, (h c _).trans A17, (h c _).trans A18, (h c _).trans A19⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
